-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x256 : Shape := ⟨3, ![16, 900, 256]⟩
abbrev S16x900x4 : Shape := ⟨3, ![16, 900, 4]⟩
abbrev S800 : Shape := ⟨1, ![800]⟩
abbrev S800x4 : Shape := ⟨2, ![800, 4]⟩
abbrev S_ : Shape := ⟨0, ![]⟩

class Facts : Prop where
  bcast_S_S16x900x256 : S_.BroadcastsInDim S16x900x256 (![] : Fin 0 → Fin S16x900x256.rank)
  reducesTo_S16x900x256_S_d0_1_2 : S16x900x256.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S800x4 : S_.BroadcastsInDim S800x4 (![] : Fin 0 → Fin S800x4.rank)
  reducesTo_S800x4_S_d0_1 : S800x4.ReducesTo [0, 1] S_
  bcast_S_S800 : S_.BroadcastsInDim S800 (![] : Fin 0 → Fin S800.rank)
  reducesTo_S800_S_d0 : S800.ReducesTo [0] S_

variable [Facts]

def fn_part1 {F : FTy → Type} [FloatOps F] (main_arg2 : IVec S800 32) (main_v13 : IVec S_ 1) (main_v15 : IVec S800 1) (main_c_5 : IVec S_ 32) : IVec S_ 1 :=
  let main_v16 : IVec S800 32 := broadcastInDim S800 ![] bcast_S_S800 main_c_5
  let main_v17 : IVec S800 1 := cmpi .slt main_arg2 main_v16
  let main_v18 : IVec S800 1 := andi main_v15 main_v17
  let main_c_6 : IVec S_ 1 := constantI S_ 1 1#1
  let main_v19 : IVec S_ 1 := (fun x v => Host.reduce IntOp.andi x v reducesTo_S800_S_d0 h_S_) main_v18 main_c_6
  let main_v20 : IVec S_ 1 := andi main_v13 main_v19
  main_v20

def fn {F : FTy → Type} [FloatOps F] (main_arg0 : FVec F S16x900x256 .f32) (main_arg1 : FVec F S16x900x4 .f32) (main_arg2 : IVec S800 32) (main_arg3 : FVec F S800x4 .f32) : IVec S_ 1 :=
  let main_v0 : FVec F S16x900x256 .f32 := Host.absf main_arg0
  let main_cst : FVec F S_ .f32 := constant S_ .f32 0x7F800000#32
  let main_v1 : FVec F S16x900x256 .f32 := broadcastInDim S16x900x256 ![] bcast_S_S16x900x256 main_cst
  let main_v2 : IVec S16x900x256 1 := cmpf .olt main_v0 main_v1
  let main_c : IVec S_ 1 := constantI S_ 1 1#1
  let main_v3 : IVec S_ 1 := (fun x v => Host.reduce IntOp.andi x v reducesTo_S16x900x256_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S800x4 .f32 := Host.absf main_arg3
  let main_cst_2 : FVec F S_ .f32 := constant S_ .f32 0x7F800000#32
  let main_v10 : FVec F S800x4 .f32 := broadcastInDim S800x4 ![] bcast_S_S800x4 main_cst_2
  let main_v11 : IVec S800x4 1 := cmpf .olt main_v9 main_v10
  let main_c_3 : IVec S_ 1 := constantI S_ 1 1#1
  let main_v12 : IVec S_ 1 := (fun x v => Host.reduce IntOp.andi x v reducesTo_S800x4_S_d0_1 h_S_) main_v11 main_c_3
  let main_v13 : IVec S_ 1 := andi main_v8 main_v12
  let main_c_4 : IVec S_ 32 := constantI S_ 32 0#32
  let main_v14 : IVec S800 32 := broadcastInDim S800 ![] bcast_S_S800 main_c_4
  let main_v15 : IVec S800 1 := cmpi .sge main_arg2 main_v14
  let main_c_5 : IVec S_ 32 := constantI S_ 32 256#32
  fn_part1 (F := F) main_arg2 main_v13 main_v15 main_c_5
-- ==== Kernel.lean ====
abbrev S16x900x256 : Shape := ⟨3, ![16, 900, 256]⟩
abbrev S16x900x4 : Shape := ⟨3, ![16, 900, 4]⟩
abbrev S800 : Shape := ⟨1, ![800]⟩
abbrev S800x4 : Shape := ⟨2, ![800, 4]⟩
abbrev S256 : Shape := ⟨1, ![256]⟩
abbrev S256x1 : Shape := ⟨2, ![256, 1]⟩
abbrev S1x800 : Shape := ⟨2, ![1, 800]⟩
abbrev S256x800 : Shape := ⟨2, ![256, 800]⟩
abbrev S4x800 : Shape := ⟨2, ![4, 800]⟩
abbrev S_ : Shape := ⟨0, ![]⟩
abbrev S16x900x800 : Shape := ⟨3, ![16, 900, 800]⟩
abbrev S1x512x256 : Shape := ⟨3, ![1, 512, 256]⟩
abbrev S1x512x4 : Shape := ⟨3, ![1, 512, 4]⟩
abbrev S1x512x800 : Shape := ⟨3, ![1, 512, 800]⟩
abbrev S512x256 : Shape := ⟨2, ![512, 256]⟩
abbrev S512x4 : Shape := ⟨2, ![512, 4]⟩
abbrev S512 : Shape := ⟨1, ![512]⟩
abbrev S512x1 : Shape := ⟨2, ![512, 1]⟩
abbrev S512x800 : Shape := ⟨2, ![512, 800]⟩

abbrev nBuf : Space → Nat
  | .hbm => 42
  | .vmem => 9
  | .smem => 0
  | _ => 0

abbrev bufTy : (tb : Table) → Fin (tcTables nBuf tb) → BufTy
  | .hbm, ⟨0, _⟩ => ⟨S16x900x256, .f32⟩
  | .hbm, ⟨1, _⟩ => ⟨S16x900x4, .f32⟩
  | .hbm, ⟨2, _⟩ => ⟨S800, .i32⟩
  | .hbm, ⟨3, _⟩ => ⟨S800x4, .f32⟩
  | .hbm, ⟨4, _⟩ => ⟨S256, .i32⟩
  | .hbm, ⟨5, _⟩ => ⟨S256x1, .i32⟩
  | .hbm, ⟨6, _⟩ => ⟨S1x800, .i32⟩
  | .hbm, ⟨7, _⟩ => ⟨S256x800, .i32⟩
  | .hbm, ⟨8, _⟩ => ⟨S256x800, .i32⟩
  | .hbm, ⟨9, _⟩ => ⟨S256x800, .i1⟩
  | .hbm, ⟨10, _⟩ => ⟨S256x800, .bf16⟩
  | .hbm, ⟨11, _⟩ => ⟨S4x800, .f32⟩
  | .hbm, ⟨12, _⟩ => ⟨S1x800, .f32⟩
  | .hbm, ⟨13, _⟩ => ⟨S800, .f32⟩
  | .hbm, ⟨14, _⟩ => ⟨S1x800, .f32⟩
  | .hbm, ⟨15, _⟩ => ⟨S800, .f32⟩
  | .hbm, ⟨16, _⟩ => ⟨S1x800, .f32⟩
  | .hbm, ⟨17, _⟩ => ⟨S800, .f32⟩
  | .hbm, ⟨18, _⟩ => ⟨S1x800, .f32⟩
  | .hbm, ⟨19, _⟩ => ⟨S800, .f32⟩
  | .hbm, ⟨20, _⟩ => ⟨S_, .f32⟩
  | .hbm, ⟨21, _⟩ => ⟨S800, .f32⟩
  | .hbm, ⟨22, _⟩ => ⟨S800, .f32⟩
  | .hbm, ⟨23, _⟩ => ⟨S800, .f32⟩
  | .hbm, ⟨24, _⟩ => ⟨S_, .f32⟩
  | .hbm, ⟨25, _⟩ => ⟨S800, .f32⟩
  | .hbm, ⟨26, _⟩ => ⟨S800, .f32⟩
  | .hbm, ⟨27, _⟩ => ⟨S800, .f32⟩
  | .hbm, ⟨28, _⟩ => ⟨S_, .f32⟩
  | .hbm, ⟨29, _⟩ => ⟨S800, .f32⟩
  | .hbm, ⟨30, _⟩ => ⟨S800, .f32⟩
  | .hbm, ⟨31, _⟩ => ⟨S800, .f32⟩
  | .hbm, ⟨32, _⟩ => ⟨S_, .f32⟩
  | .hbm, ⟨33, _⟩ => ⟨S800, .f32⟩
  | .hbm, ⟨34, _⟩ => ⟨S800, .f32⟩
  | .hbm, ⟨35, _⟩ => ⟨S800, .f32⟩
  | .hbm, ⟨36, _⟩ => ⟨S1x800, .f32⟩
  | .hbm, ⟨37, _⟩ => ⟨S1x800, .f32⟩
  | .hbm, ⟨38, _⟩ => ⟨S1x800, .f32⟩
  | .hbm, ⟨39, _⟩ => ⟨S1x800, .f32⟩
  | .hbm, ⟨40, _⟩ => ⟨S4x800, .f32⟩
  | .hbm, ⟨41, _⟩ => ⟨S16x900x800, .f32⟩
  | .local _ .vmem, ⟨0, _⟩ => ⟨S1x512x256, .f32⟩
  | .local _ .vmem, ⟨1, _⟩ => ⟨S1x512x256, .f32⟩
  | .local _ .vmem, ⟨2, _⟩ => ⟨S1x512x4, .f32⟩
  | .local _ .vmem, ⟨3, _⟩ => ⟨S1x512x4, .f32⟩
  | .local _ .vmem, ⟨4, _⟩ => ⟨S4x800, .f32⟩
  | .local _ .vmem, ⟨5, _⟩ => ⟨S4x800, .f32⟩
  | .local _ .vmem, ⟨6, _⟩ => ⟨S256x800, .bf16⟩
  | .local _ .vmem, ⟨7, _⟩ => ⟨S1x512x800, .f32⟩
  | .local _ .vmem, ⟨8, _⟩ => ⟨S1x512x800, .f32⟩
  | _, _ => ⟨S16x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x800 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S256_S256x1_0 : S256.BroadcastsInDim S256x1 (![0] : Fin 1 → Fin S256x1.rank)
  bcast_S800_S1x800_1 : S800.BroadcastsInDim S1x800 (![1] : Fin 1 → Fin S1x800.rank)
  bcast_S256x1_S256x800_0_1 : S256x1.BroadcastsInDim S256x800 (![0, 1] : Fin 2 → Fin S256x800.rank)
  bcast_S1x800_S256x800_0_1 : S1x800.BroadcastsInDim S256x800 (![0, 1] : Fin 2 → Fin S256x800.rank)
  transposes_S800x4_S4x800_1_0 : S800x4.Transposes [1, 0] S4x800
  slices_S4x800_S1x800_0_0 : S4x800.Slices ![0, 0] S1x800
  shapeCasts_S1x800_S800 : S1x800.ShapeCasts S800
  slices_S4x800_S1x800_1_0 : S4x800.Slices ![1, 0] S1x800
  slices_S4x800_S1x800_2_0 : S4x800.Slices ![2, 0] S1x800
  slices_S4x800_S1x800_3_0 : S4x800.Slices ![3, 0] S1x800
  bcast_S_S800 : S_.BroadcastsInDim S800 (![] : Fin 0 → Fin S800.rank)
  concatenates_S1x800_S1x800_S1x800_S1x800_S4x800_d0 : Shape.Concatenates [S1x800, S1x800, S1x800, S1x800] S4x800 0
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  inb_S4x800_S4x800_0_0 : ∀ a, (![0, 0] : Fin 2 → Nat) a + S4x800.size a ≤ S4x800.size a
  h_S4x800 : 0 < S4x800.numel
  shapeCasts_S4x800_S4x800 : S4x800.ShapeCasts S4x800
  inb_S256x800_S256x800_0_0 : ∀ a, (![0, 0] : Fin 2 → Nat) a + S256x800.size a ≤ S256x800.size a
  h_S256x800 : 0 < S256x800.numel
  shapeCasts_S256x800_S256x800 : S256x800.ShapeCasts S256x800
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  slices_S512x4_o0_0_S512x1 : S512x4.Slices ![0, 0] S512x1
  slices_S4x800_o0_0_S1x800 : S4x800.Slices ![0, 0] S1x800
  broadcasts_S512x1_S512x800 : S512x1.Broadcasts S512x800
  broadcasts_S1x800_S512x800 : S1x800.Broadcasts S512x800
  slices_S512x4_o0_1_S512x1 : S512x4.Slices ![0, 1] S512x1
  slices_S4x800_o1_0_S1x800 : S4x800.Slices ![1, 0] S1x800
  slices_S512x4_o0_2_S512x1 : S512x4.Slices ![0, 2] S512x1
  slices_S4x800_o2_0_S1x800 : S4x800.Slices ![2, 0] S1x800
  slices_S512x4_o0_3_S512x1 : S512x4.Slices ![0, 3] S512x1
  slices_S4x800_o3_0_S1x800 : S4x800.Slices ![3, 0] S1x800
  inb_S1x512x800_S1x512x800_0_0_0 : ∀ a, (![0, 0, 0] : Fin 3 → Nat) a + S1x512x800.size a ≤ S1x512x800.size a
  h_S1x512x800 : 0 < S1x512x800.numel
  shapeCasts_S1x512x800_S512x800 : S1x512x800.ShapeCasts S512x800
  shapeCasts_S512x800_S1x512x800 : S512x800.ShapeCasts S1x512x800
  dot_S512x256_S256x800_S512x800_1_0_0_1_n_n_wf : DotDims.WF S512x256 S256x800 S512x800 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x512x256.size a < S16x900x256.size a
  hwx0_0 : ∀ i : grid0.Coords, EltTy.bits .f32 = 32 ∨ (Rect.unit (s := S16x900x256) (fun a => cc0_transform_0 i a * S1x512x256.size a) (fun a => (Pipeline.Clip.of (cc0_transform_0 i a) (S1x512x256.size a) (S16x900x256.size a)).extent (S1x512x256.size a)) fun a => Pipeline.Clip.inb (Pipeline.Clip.ok_of (hstart0_0 i a))).WholeWords (EltTy.packing .f32)
  hwxs0_0 : ∀ i : grid0.Coords, EltTy.bits .f32 = 32 ∨ (Rect.unit (s := S1x512x256) (fun _ => 0) (fun a => (Pipeline.Clip.of (cc0_transform_0 i a) (S1x512x256.size a) (S16x900x256.size a)).extent (S1x512x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x512x4.size a < S16x900x4.size a
  hwx0_1 : ∀ i : grid0.Coords, EltTy.bits .f32 = 32 ∨ (Rect.unit (s := S16x900x4) (fun a => cc0_transform_1 i a * S1x512x4.size a) (fun a => (Pipeline.Clip.of (cc0_transform_1 i a) (S1x512x4.size a) (S16x900x4.size a)).extent (S1x512x4.size a)) fun a => Pipeline.Clip.inb (Pipeline.Clip.ok_of (hstart0_1 i a))).WholeWords (EltTy.packing .f32)
  hwxs0_1 : ∀ i : grid0.Coords, EltTy.bits .f32 = 32 ∨ (Rect.unit (s := S1x512x4) (fun _ => 0) (fun a => (Pipeline.Clip.of (cc0_transform_1 i a) (S1x512x4.size a) (S16x900x4.size a)).extent (S1x512x4.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x800.size a ≤ S4x800.size a
  hwx0_2 : ∀ i : grid0.Coords, EltTy.bits .f32 = 32 ∨ (Rect.block (s := S4x800) S4x800.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x800.size a ≤ S4x800.size a
  hwx0_3 : ∀ i : grid0.Coords, EltTy.bits .f32 = 32 ∨ (Rect.block (s := S4x800) S4x800.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x800.size a ≤ S256x800.size a
  hwx0_4 : ∀ i : grid0.Coords, EltTy.bits .bf16 = 32 ∨ (Rect.block (s := S256x800) S256x800.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x512x800.size a < S16x900x800.size a
  hwx0_5 : ∀ i : grid0.Coords, EltTy.bits .f32 = 32 ∨ (Rect.unit (s := S16x900x800) (fun a => cc0_transform_5 i a * S1x512x800.size a) (fun a => (Pipeline.Clip.of (cc0_transform_5 i a) (S1x512x800.size a) (S16x900x800.size a)).extent (S1x512x800.size a)) fun a => Pipeline.Clip.inb (Pipeline.Clip.ok_of (hstart0_5 i a))).WholeWords (EltTy.packing .f32)
  hwxs0_5 : ∀ i : grid0.Coords, EltTy.bits .f32 = 32 ∨ (Rect.unit (s := S1x512x800) (fun _ => 0) (fun a => (Pipeline.Clip.of (cc0_transform_5 i a) (S1x512x800.size a) (S16x900x800.size a)).extent (S1x512x800.size a)) fun a => (Nat.zero_add _).trans_le (Pipeline.Clip.extent_le (Pipeline.Clip.ok_of (hstart0_5 i a)))).WholeWords (EltTy.packing .f32)

variable [Facts₀]

def dot_S512x256_S256x800_S512x800_1_0_0_1_n_n : DotDims S512x256 S256x800 S512x800 where
  lhsContracting := [1]
  rhsContracting := [0]
  lhsNonContracting := [0]
  rhsNonContracting := [1]
  lhsBatch := []
  rhsBatch := []
  wf := dot_S512x256_S256x800_S512x800_1_0_0_1_n_n_wf

abbrev win0_0 : Pipeline.Window sig grid0 :=
  Pipeline.Window.ofSpecClip (Memref.whole main_arg0) S1x512x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1x512x4.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v7) S4x800.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S4x800.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x800.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v33) S1x512x800.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x900x256 : Shape := ⟨3, ![16, 900, 256]⟩
abbrev S16x900x4 : Shape := ⟨3, ![16, 900, 4]⟩
abbrev S800 : Shape := ⟨1, ![800]⟩
abbrev S800x4 : Shape := ⟨2, ![800, 4]⟩
abbrev S14400x256 : Shape := ⟨2, ![14400, 256]⟩
abbrev S_ : Shape := ⟨0, ![]⟩
abbrev S14400 : Shape := ⟨1, ![14400]⟩
abbrev S14400x1 : Shape := ⟨2, ![14400, 1]⟩
abbrev S14400x4 : Shape := ⟨2, ![14400, 4]⟩
abbrev S800x1 : Shape := ⟨2, ![800, 1]⟩
abbrev S14400x800 : Shape := ⟨2, ![14400, 800]⟩
abbrev S14400x1x4 : Shape := ⟨3, ![14400, 1, 4]⟩
abbrev S1x800x4 : Shape := ⟨3, ![1, 800, 4]⟩
abbrev S14400x800x4 : Shape := ⟨3, ![14400, 800, 4]⟩
abbrev S14400x2 : Shape := ⟨2, ![14400, 2]⟩
abbrev S14400x1x2 : Shape := ⟨3, ![14400, 1, 2]⟩
abbrev S800x2 : Shape := ⟨2, ![800, 2]⟩
abbrev S1x800x2 : Shape := ⟨3, ![1, 800, 2]⟩
abbrev S14400x800x2 : Shape := ⟨3, ![14400, 800, 2]⟩
abbrev S14400x800x1 : Shape := ⟨3, ![14400, 800, 1]⟩
abbrev S1x800 : Shape := ⟨2, ![1, 800]⟩
abbrev S16x900x800 : Shape := ⟨3, ![16, 900, 800]⟩

abbrev nBuf : Space → Nat
  | .hbm => 195
  | .vmem => 0
  | .smem => 0
  | _ => 0

abbrev hbmTy0_0 (i : Nat) : BufTy := match i % 128 with
  | 0 => ⟨S16x900x256, .f32⟩
  | 1 => ⟨S16x900x4, .f32⟩
  | 2 => ⟨S800, .i32⟩
  | 3 => ⟨S800x4, .f32⟩
  | 4 => ⟨S14400x256, .f32⟩
  | 5 => ⟨S_, .f32⟩
  | 6 => ⟨S14400, .f32⟩
  | 7 => ⟨S_, .f32⟩
  | 8 => ⟨S14400, .f32⟩
  | 9 => ⟨S14400, .f32⟩
  | 10 => ⟨S14400x1, .f32⟩
  | 11 => ⟨S14400x256, .f32⟩
  | 12 => ⟨S14400x256, .f32⟩
  | 13 => ⟨S14400x256, .f32⟩
  | 14 => ⟨S_, .f32⟩
  | 15 => ⟨S14400, .f32⟩
  | 16 => ⟨S14400x1, .f32⟩
  | 17 => ⟨S14400x256, .f32⟩
  | 18 => ⟨S14400x256, .f32⟩
  | 19 => ⟨S14400x4, .f32⟩
  | 20 => ⟨S_, .i32⟩
  | 21 => ⟨S800, .i32⟩
  | 22 => ⟨S800, .i1⟩
  | 23 => ⟨S_, .i32⟩
  | 24 => ⟨S800, .i32⟩
  | 25 => ⟨S800, .i32⟩
  | 26 => ⟨S800, .i32⟩
  | 27 => ⟨S800x1, .i32⟩
  | 28 => ⟨S14400x800, .f32⟩
  | 29 => ⟨S14400x800, .f32⟩
  | 30 => ⟨S14400x1x4, .f32⟩
  | 31 => ⟨S1x800x4, .f32⟩
  | 32 => ⟨S14400x800x4, .f32⟩
  | 33 => ⟨S14400x800x4, .f32⟩
  | 34 => ⟨S14400x800x4, .f32⟩
  | 35 => ⟨S14400x800x4, .f32⟩
  | 36 => ⟨S_, .f32⟩
  | 37 => ⟨S14400x800, .f32⟩
  | 38 => ⟨S14400x1, .f32⟩
  | 39 => ⟨S14400, .f32⟩
  | 40 => ⟨S14400x1, .f32⟩
  | 41 => ⟨S14400, .f32⟩
  | 42 => ⟨S14400x1, .f32⟩
  | 43 => ⟨S14400, .f32⟩
  | 44 => ⟨S14400x1, .f32⟩
  | 45 => ⟨S14400, .f32⟩
  | 46 => ⟨S_, .f32⟩
  | 47 => ⟨S14400, .f32⟩
  | 48 => ⟨S14400, .f32⟩
  | 49 => ⟨S14400, .f32⟩
  | 50 => ⟨S_, .f32⟩
  | 51 => ⟨S14400, .f32⟩
  | 52 => ⟨S14400, .f32⟩
  | 53 => ⟨S14400, .f32⟩
  | 54 => ⟨S_, .f32⟩
  | 55 => ⟨S14400, .f32⟩
  | 56 => ⟨S14400, .f32⟩
  | 57 => ⟨S14400, .f32⟩
  | 58 => ⟨S_, .f32⟩
  | 59 => ⟨S14400, .f32⟩
  | 60 => ⟨S14400, .f32⟩
  | 61 => ⟨S14400, .f32⟩
  | 62 => ⟨S14400x1, .f32⟩
  | 63 => ⟨S14400x1, .f32⟩
  | 64 => ⟨S14400x1, .f32⟩
  | 65 => ⟨S14400x1, .f32⟩
  | 66 => ⟨S14400x4, .f32⟩
  | 67 => ⟨S800x1, .f32⟩
  | 68 => ⟨S800, .f32⟩
  | 69 => ⟨S800x1, .f32⟩
  | 70 => ⟨S800, .f32⟩
  | 71 => ⟨S800x1, .f32⟩
  | 72 => ⟨S800, .f32⟩
  | 73 => ⟨S800x1, .f32⟩
  | 74 => ⟨S800, .f32⟩
  | 75 => ⟨S_, .f32⟩
  | 76 => ⟨S800, .f32⟩
  | 77 => ⟨S800, .f32⟩
  | 78 => ⟨S800, .f32⟩
  | 79 => ⟨S_, .f32⟩
  | 80 => ⟨S800, .f32⟩
  | 81 => ⟨S800, .f32⟩
  | 82 => ⟨S800, .f32⟩
  | 83 => ⟨S_, .f32⟩
  | 84 => ⟨S800, .f32⟩
  | 85 => ⟨S800, .f32⟩
  | 86 => ⟨S800, .f32⟩
  | 87 => ⟨S_, .f32⟩
  | 88 => ⟨S800, .f32⟩
  | 89 => ⟨S800, .f32⟩
  | 90 => ⟨S800, .f32⟩
  | 91 => ⟨S800x1, .f32⟩
  | 92 => ⟨S800x1, .f32⟩
  | 93 => ⟨S800x1, .f32⟩
  | 94 => ⟨S800x1, .f32⟩
  | 95 => ⟨S800x4, .f32⟩
  | 96 => ⟨S14400x1, .f32⟩
  | 97 => ⟨S14400, .f32⟩
  | 98 => ⟨S14400x1, .f32⟩
  | 99 => ⟨S14400, .f32⟩
  | 100 => ⟨S14400, .f32⟩
  | 101 => ⟨S14400x1, .f32⟩
  | 102 => ⟨S14400, .f32⟩
  | 103 => ⟨S14400x1, .f32⟩
  | 104 => ⟨S14400, .f32⟩
  | 105 => ⟨S14400, .f32⟩
  | 106 => ⟨S14400, .f32⟩
  | 107 => ⟨S800x1, .f32⟩
  | 108 => ⟨S800, .f32⟩
  | 109 => ⟨S800x1, .f32⟩
  | 110 => ⟨S800, .f32⟩
  | 111 => ⟨S800, .f32⟩
  | 112 => ⟨S800x1, .f32⟩
  | 113 => ⟨S800, .f32⟩
  | 114 => ⟨S800x1, .f32⟩
  | 115 => ⟨S800, .f32⟩
  | 116 => ⟨S800, .f32⟩
  | 117 => ⟨S800, .f32⟩
  | 118 => ⟨S14400x2, .f32⟩
  | 119 => ⟨S14400x1x2, .f32⟩
  | 120 => ⟨S800x2, .f32⟩
  | 121 => ⟨S1x800x2, .f32⟩
  | 122 => ⟨S14400x800x2, .f32⟩
  | 123 => ⟨S14400x800x2, .f32⟩
  | 124 => ⟨S14400x800x2, .f32⟩
  | 125 => ⟨S14400x2, .f32⟩
  | 126 => ⟨S14400x1x2, .f32⟩
  | 127 => ⟨S800x2, .f32⟩
  | _ => ⟨S16x900x256, .f32⟩

abbrev hbmTy0_1 (i : Nat) : BufTy := match i % 128 with
  | 0 => ⟨S1x800x2, .f32⟩
  | 1 => ⟨S14400x800x2, .f32⟩
  | 2 => ⟨S14400x800x2, .f32⟩
  | 3 => ⟨S14400x800x2, .f32⟩
  | 4 => ⟨S14400x800x2, .f32⟩
  | 5 => ⟨S_, .f32⟩
  | 6 => ⟨S_, .f32⟩
  | 7 => ⟨S14400x800x2, .f32⟩
  | 8 => ⟨S14400x800x2, .f32⟩
  | 9 => ⟨S14400x800x1, .f32⟩
  | 10 => ⟨S14400x800, .f32⟩
  | 11 => ⟨S14400x800x1, .f32⟩
  | 12 => ⟨S14400x800, .f32⟩
  | 13 => ⟨S14400x800, .f32⟩
  | 14 => ⟨S14400x1, .f32⟩
  | 15 => ⟨S1x800, .f32⟩
  | 16 => ⟨S14400x800, .f32⟩
  | 17 => ⟨S14400x800, .f32⟩
  | 18 => ⟨S14400x800, .f32⟩
  | 19 => ⟨S14400x800, .f32⟩
  | 20 => ⟨S_, .f32⟩
  | 21 => ⟨S14400x800, .f32⟩
  | 22 => ⟨S14400x800, .f32⟩
  | 23 => ⟨S14400x800, .f32⟩
  | 24 => ⟨S14400x2, .f32⟩
  | 25 => ⟨S14400x1x2, .f32⟩
  | 26 => ⟨S800x2, .f32⟩
  | 27 => ⟨S1x800x2, .f32⟩
  | 28 => ⟨S14400x800x2, .f32⟩
  | 29 => ⟨S14400x800x2, .f32⟩
  | 30 => ⟨S14400x800x2, .f32⟩
  | 31 => ⟨S14400x2, .f32⟩
  | 32 => ⟨S14400x1x2, .f32⟩
  | 33 => ⟨S800x2, .f32⟩
  | 34 => ⟨S1x800x2, .f32⟩
  | 35 => ⟨S14400x800x2, .f32⟩
  | 36 => ⟨S14400x800x2, .f32⟩
  | 37 => ⟨S14400x800x2, .f32⟩
  | 38 => ⟨S14400x800x2, .f32⟩
  | 39 => ⟨S_, .f32⟩
  | 40 => ⟨S_, .f32⟩
  | 41 => ⟨S14400x800x2, .f32⟩
  | 42 => ⟨S14400x800x2, .f32⟩
  | 43 => ⟨S14400x800x1, .f32⟩
  | 44 => ⟨S14400x800, .f32⟩
  | 45 => ⟨S14400x800x1, .f32⟩
  | 46 => ⟨S14400x800, .f32⟩
  | 47 => ⟨S14400x800, .f32⟩
  | 48 => ⟨S14400x800, .f32⟩
  | 49 => ⟨S_, .f32⟩
  | 50 => ⟨S14400x800, .f32⟩
  | 51 => ⟨S14400x800, .f32⟩
  | 52 => ⟨S14400x800, .f32⟩
  | 53 => ⟨S14400x800, .f32⟩
  | 54 => ⟨S14400x800, .f32⟩
  | 55 => ⟨S_, .f32⟩
  | 56 => ⟨S14400x800, .f32⟩
  | 57 => ⟨S14400x800, .f32⟩
  | 58 => ⟨S_, .f32⟩
  | 59 => ⟨S14400x800, .f32⟩
  | 60 => ⟨S14400x800, .f32⟩
  | 61 => ⟨S14400x800, .f32⟩
  | 62 => ⟨S_, .f32⟩
  | 63 => ⟨S14400x800, .f32⟩
  | 64 => ⟨S14400x800, .f32⟩
  | 65 => ⟨S14400x800, .f32⟩
  | 66 => ⟨S16x900x800, .f32⟩
  | _ => ⟨S16x900x256, .f32⟩

abbrev hbmTy (i : Nat) : BufTy := match i / 128 with
  | 0 => hbmTy0_0 i
  | 1 => hbmTy0_1 i
  | _ => ⟨S16x900x256, .f32⟩

abbrev bufTy : (tb : Table) → Fin (tcTables nBuf tb) → BufTy
  | .hbm, ⟨i, _⟩ => hbmTy i
  | _, _ => ⟨S16x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_12 : Ref sig .tc := ⟨.hbm, 133, rfl⟩
abbrev main_call0_v0 : Ref sig .tc := ⟨.hbm, 134, rfl⟩
abbrev main_call0_v1 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_13 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_cst_14 : Ref sig .tc := ⟨.hbm, 167, rfl⟩
abbrev main_call1_v0 : Ref sig .tc := ⟨.hbm, 168, rfl⟩
abbrev main_call1_v1 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_cst_15 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_cst_16 : Ref sig .tc := ⟨.hbm, 183, rfl⟩
abbrev main_v157 : Ref sig .tc := ⟨.hbm, 184, rfl⟩
abbrev main_v158 : Ref sig .tc := ⟨.hbm, 185, rfl⟩
abbrev main_cst_17 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_cst_18 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩

abbrev nD : Nat := 1
abbrev τ : Topo := Topo.v7x

variable {F : FTy → Type} [FloatOps F]

class Facts₀ : Prop where
  shapeCasts_S16x900x256_S14400x256 : S16x900x256.ShapeCasts S14400x256
  reducesTo_S14400x256_S14400_d1 : S14400x256.ReducesTo [1] S14400
  h_S_ : 0 < S_.numel
  bcast_S_S14400 : S_.BroadcastsInDim S14400 (![] : Fin 0 → Fin S14400.rank)
  bcast_S14400_S14400x1_0 : S14400.BroadcastsInDim S14400x1 (![0] : Fin 1 → Fin S14400x1.rank)
  bcast_S14400x1_S14400x256_0_1 : S14400x1.BroadcastsInDim S14400x256 (![0, 1] : Fin 2 → Fin S14400x256.rank)
  shapeCasts_S16x900x4_S14400x4 : S16x900x4.ShapeCasts S14400x4
  bcast_S_S800 : S_.BroadcastsInDim S800 (![] : Fin 0 → Fin S800.rank)
  bcast_S800_S800x1_0 : S800.BroadcastsInDim S800x1 (![0] : Fin 1 → Fin S800x1.rank)
  bcast_S14400x4_S14400x1x4_0_2 : S14400x4.BroadcastsInDim S14400x1x4 (![0, 2] : Fin 2 → Fin S14400x1x4.rank)
  bcast_S800x4_S1x800x4_1_2 : S800x4.BroadcastsInDim S1x800x4 (![1, 2] : Fin 2 → Fin S1x800x4.rank)
  bcast_S14400x1x4_S14400x800x4_0_1_2 : S14400x1x4.BroadcastsInDim S14400x800x4 (![0, 1, 2] : Fin 3 → Fin S14400x800x4.rank)
  bcast_S1x800x4_S14400x800x4_0_1_2 : S1x800x4.BroadcastsInDim S14400x800x4 (![0, 1, 2] : Fin 3 → Fin S14400x800x4.rank)
  reducesTo_S14400x800x4_S14400x800_d2 : S14400x800x4.ReducesTo [2] S14400x800
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  concatenates_S14400x1_S14400x1_S14400x1_S14400x1_S14400x4_d1 : Shape.Concatenates [S14400x1, S14400x1, S14400x1, S14400x1] S14400x4 1
  slices_S800x4_S800x1_0_0 : S800x4.Slices ![0, 0] S800x1
  shapeCasts_S800x1_S800 : S800x1.ShapeCasts S800
  slices_S800x4_S800x1_0_1 : S800x4.Slices ![0, 1] S800x1
  slices_S800x4_S800x1_0_2 : S800x4.Slices ![0, 2] S800x1
  slices_S800x4_S800x1_0_3 : S800x4.Slices ![0, 3] S800x1
  concatenates_S800x1_S800x1_S800x1_S800x1_S800x4_d1 : Shape.Concatenates [S800x1, S800x1, S800x1, S800x1] S800x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S800x4_S800x2_0_0 : S800x4.Slices ![0, 0] S800x2
  bcast_S800x2_S1x800x2_1_2 : S800x2.BroadcastsInDim S1x800x2 (![1, 2] : Fin 2 → Fin S1x800x2.rank)
  bcast_S14400x1x2_S14400x800x2_0_1_2 : S14400x1x2.BroadcastsInDim S14400x800x2 (![0, 1, 2] : Fin 3 → Fin S14400x800x2.rank)
  bcast_S1x800x2_S14400x800x2_0_1_2 : S1x800x2.BroadcastsInDim S14400x800x2 (![0, 1, 2] : Fin 3 → Fin S14400x800x2.rank)
  slices_S14400x4_S14400x2_0_2 : S14400x4.Slices ![0, 2] S14400x2
  slices_S800x4_S800x2_0_2 : S800x4.Slices ![0, 2] S800x2
  bcast_S_S14400x800x2 : S_.BroadcastsInDim S14400x800x2 (![] : Fin 0 → Fin S14400x800x2.rank)
  slices_S14400x800x2_S14400x800x1_0_0_0 : S14400x800x2.Slices ![0, 0, 0] S14400x800x1
  shapeCasts_S14400x800x1_S14400x800 : S14400x800x1.ShapeCasts S14400x800
  slices_S14400x800x2_S14400x800x1_0_0_1 : S14400x800x2.Slices ![0, 0, 1] S14400x800x1
  bcast_S800_S1x800_1 : S800.BroadcastsInDim S1x800 (![1] : Fin 1 → Fin S1x800.rank)
  bcast_S14400x1_S14400x800_0_1 : S14400x1.BroadcastsInDim S14400x800 (![0, 1] : Fin 2 → Fin S14400x800.rank)
  bcast_S1x800_S14400x800_0_1 : S1x800.BroadcastsInDim S14400x800 (![0, 1] : Fin 2 → Fin S14400x800.rank)
  bcast_S_S14400x800 : S_.BroadcastsInDim S14400x800 (![] : Fin 0 → Fin S14400x800.rank)
  shapeCasts_S14400x800_S16x900x800 : S14400x800.ShapeCasts S16x900x800
  gather_S14400x256_S800x1_S14400x800_0_1_n_n_1_1_144001_wf : GatherDims.WF S14400x256 S800x1 S14400x800 [0] [1] [] [1] [] 1 ![14400, 1]

variable [Facts₀]

def gather_S14400x256_S800x1_S14400x800_0_1_n_n_1_1_144001 : GatherDims S14400x256 S800x1 S14400x800 where
  offsetDims := [0]
  collapsedSliceDims := [1]
  operandBatchingDims := []
  startIndicesBatchingDims := []
  startIndexMap := [1]
  indexVectorDim := 1
  sliceSizes := ![14400, 1]
  wf := gather_S14400x256_S800x1_S14400x800_0_1_n_n_1_1_144001_wf

class Facts : Prop extends Facts₀ where

variable [Facts]
-- ==== Proof.EntryBits.lean ====
/-
  @main of the program up to its one kernel region: the host operations that build the class indicator
  table (label m against class c), the transposed target boxes and their corner form run first; the
  region then finds every buffer at the contents those operations leave (`V`). None of them writes an
  argument array, so the region finds the four arguments as launched.
-/
import proofs.«410247_j17300128268908_2_alg».proof.Proof.Gen.Kernel.Launch
import proofs.«410247_j17300128268908_2_alg».proof.Proof.Gen.Kernel.Skeleton
import proofs.«410247_j17300128268908_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-- Core `c`'s buffers when the region is entered: after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array. -/
theorem V_arg (c : Dev nD) (b : Ref sig .tc) (hb : b = main_arg0 ∨ b = main_arg1 ∨ b = main_arg2 ∨ b = main_arg3) :
    V m c b = m ((c : Thread nD τ).loc b) := by
  rcases hb with rfl | rfl | rfl | rfl
  all_goals
    exact StableHlo.after_of_forall_not_mem (b := Proc.devRef .tc _) _ _ (List.forall_iff_forall_mem.mp (by
      simp only [hostOps0, List.Forall, StableHlo.nullary_writes, StableHlo.unary_writes, StableHlo.binary_writes, StableHlo.reshape_writes, StableHlo.nary_writes, Finset.mem_singleton]
      repeat' apply And.intro
      all_goals exact StableHlo.devRef_ne_of_ne (by decide)))

end Cert.Kernel.Hand

end
-- ==== Proof.BodyBits.lean ====
/-
  The kernel body at one grid point. It loads its five input staging buffers whole — the query tile's
  logits and boxes, the transposed target boxes, their corner form, the class indicator table —, computes
  the tile of costs as a pure function of them, and stores it whole into the output's staging buffer
  (a dead load of that buffer precedes the store). So after the body the inputs' buffers hold what they
  held and the output's holds that function of them, `outBlk`.
-/
import proofs.«410247_j17300128268908_2_alg».proof.Proof.EntryBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's accesses: each the whole of its buffer -/

abbrev rLogits : Rect S1x512x256 := Rect.unit (s := S1x512x256) ![0, 0, 0] S1x512x256.size inb_S1x512x256_S1x512x256_0_0_0
abbrev rBoxes : Rect S1x512x4 := Rect.unit (s := S1x512x4) ![0, 0, 0] S1x512x4.size inb_S1x512x4_S1x512x4_0_0_0
abbrev rTgt : Rect S4x800 := Rect.unit (s := S4x800) ![0, 0] S4x800.size inb_S4x800_S4x800_0_0
abbrev rTable : Rect S256x800 := Rect.unit (s := S256x800) ![0, 0] S256x800.size inb_S256x800_S256x800_0_0
abbrev rOut : Rect S1x512x800 := Rect.unit (s := S1x512x800) ![0, 0, 0] S1x512x800.size inb_S1x512x800_S1x512x800_0_0_0

/-- The tile of costs as a pure function of the five loaded values: the body's arithmetic, the printed
    parts' payloads composed. -/
def tile (v0 : Vec F S1x512x256 .f32) (v2 : Vec F S1x512x4 .f32) (v4 v6 : Vec F S4x800 .f32) (v8 : Vec F S256x800 .bf16) :
    FVec F S1x512x800 .f32 :=
  k0_pay23 (k0_pay6 (k0_pay1 v2) (k0_pay2 v4) (k0_pay4 v0 v2 v4 v8) (k0_pay5 v2 v4))
    (k0_pay11 (k0_pay1 v2)) (k0_pay12 (k0_pay1 v2)) (k0_pay13 (k0_pay1 v2)) (k0_pay14 (k0_pay1 v2))
    (k0_pay15 (k0_pay3 v6)) (k0_pay16 (k0_pay3 v6)) (k0_pay17 (k0_pay3 v6)) (k0_pay18 (k0_pay3 v6))
    (k0_pay19 (k0_pay1 v2)) (k0_pay20 (k0_pay3 v6)) (k0_pay21 (k0_pay1 v2) (k0_pay3 v6)) (k0_pay22 (k0_pay1 v2) (k0_pay3 v6))

/-- The output's staging buffer after the body, from the inputs' buffers: its one store as a piece. -/
def outBlk (x0 : Vec F S1x512x256 .f32) (x1 : Vec F S1x512x4 .f32) (x2 x3 : Vec F S4x800 .f32) (x4 : Vec F S256x800 .bf16) :
    Vec F S1x512x800 .f32 :=
  View.canon [⟨rOut, tile (View.ld x0 rLogits) (View.ld x1 rBoxes) (View.ld x2 rTgt) (View.ld x3 rTgt) (View.ld x4 rTable)⟩]

/-- The one store is of the whole buffer, so it covers it. -/
theorem cover_out (p0 : Vec F S1x512x800 .f32) (y : S1x512x800.Idx) :
    ∃ pc ∈ ([⟨rOut, p0⟩] : List (View.Piece (Elt F) S1x512x800 .f32)), y ∈ pc.1.set :=
  View.cover_of_tiled [⟨rOut, p0⟩] S1x512x800.size (by rfl) y

set_option maxHeartbeats 4000000 in
/-- The body on whole staging memrefs, the inputs' at contents `x0 … x4` and the output's at anything, runs to the
    continuation holding the inputs' as they were and the output's at `outBlk` of them. -/
theorem sound_kernel (c : Dev nD) (E : Set ℕ) (i : grid0.Coords)
    (arg2 : Memref sig .tc .vmem S1x512x256 .f32) (harg2 : arg2.IsWhole) (arg3 : Memref sig .tc .vmem S1x512x4 .f32) (harg3 : arg3.IsWhole)
    (arg4 : Memref sig .tc .vmem S4x800 .f32) (harg4 : arg4.IsWhole) (arg5 : Memref sig .tc .vmem S4x800 .f32) (harg5 : arg5.IsWhole)
    (arg6 : Memref sig .tc .vmem S256x800 .bf16) (harg6 : arg6.IsWhole) (arg7 : Memref sig .tc .vmem S1x512x800 .f32) (harg7 : arg7.IsWhole)
    (x0 : Vec F S1x512x256 .f32) (x1 : Vec F S1x512x4 .f32) (x2 x3 : Vec F S4x800 .f32) (x4 : Vec F S256x800 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E
          (cc0__cost_kernel i arg2 harg2 arg3 harg3 arg4 harg4 arg5 harg5 arg6 harg6 arg7 harg7) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Hand

end
-- ==== Proof.FrameBits.lean ====
/-
  The frame of the program as printed, at the machine's words: every weakly fair execution of @main runs
  its host operations and its kernel region to the end without a fault and leaves the four arguments as
  they were. Nothing is said of what the body computes: it is handed its six staging buffers at any
  contents and hands them back at some contents, and a pipeline whose body does so writes only its
  output's array.
-/
import proofs.«410247_j17300128268908_2_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: every window's relation says nothing -/

/-- Core `c`'s proof data: each windowed array at the contents the region finds it at; of what the body leaves
    in a staging buffer nothing is said (the relation holds of any contents found and left); the invariant
    the class's (the scoped rest and the generator register, untouched); nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body obligation: handed its six staging buffers at any contents, the body runs and hands each back at
    some contents; the invariant and what the core owes pass through unread. -/
theorem body_obligation (c : Dev nD) :
    (rdats (F := F) m c).BodyObligation (defs₀ (F := F)) Variants.none () Set.univ := fun t Y _ => by
  rw [bigSep_W0, bigSep_W0,
    show (rdats (F := F) m c).Φ t.succ = (rdats (F := F) m c).Φ t.castSucc from rfl,
    show (rdats (F := F) m c).owesAt () t.succ = (rdats (F := F) m c).owesAt () t.castSucc from rfl]
  iintro ⟨HΦ, Ho, H0, H1, H2, H3, H4, H5⟩
  iapply (sound_kernel (F := F) c Set.univ (grid0.coords t) _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  · iexists (outBlk (Y 0) (Y 1) (Y 2) (Y 3) (Y 4)); isplitr; · ipureintro; trivial
    iexact H5

/-! ## The run -/

set_option backward.isDefEq.respectTransparency.types false in
/-- Every weakly fair execution of @main terminates; at the end every windowed array holds some contents it may
    hold after every write-back, and every other unscoped buffer what the region found in it. -/
theorem run_main : θ_run defs (onTc (τ := τ) (main (F := F))) (s₀ m ρ) (Pipeline.RDat.FramePost cfg0 (rdats (F := F) m) (V m)) :=
  Pipeline.RDat.θ_run_frame cfgs (0 : Fin 1) launch0 defs₀ Variants.none (rdats m) m ρ main
    (hbody := body_obligation m) (hshare := fun c w => by unfold Pipeline.RDat.share; split <;> rfl)
    (howed := fun _ _ => rfl) (V := V m) (hmain := hmain m Variants.none) (hA := fun _ _ => rfl) (hΦ := fun _ _ => rfl)

/-- The run: it terminates, nothing faults, the four argument arrays end as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(Pipeline.RDat.FramePost.arr_in h c 0 rfl).trans (V_arg m c main_arg0 (Or.inl rfl)),
     (Pipeline.RDat.FramePost.arr_in h c 1 rfl).trans (V_arg m c main_arg1 (Or.inr (Or.inl rfl))),
     ((h c).2 main_arg2 (Pipeline.mem_restRefs_of main_arg2 rfl (by decide))).trans
       (V_arg m c main_arg2 (Or.inr (Or.inr (Or.inl rfl)))),
     ((h c).2 main_arg3 (Pipeline.mem_restRefs_of main_arg3 rfl (by decide))).trans
       (V_arg m c main_arg3 (Or.inr (Or.inr (Or.inr rfl))))⟩) (run_main m ρ)

end Cert.Kernel.Hand

end
-- ==== Proof.EntryIdeal.lean ====
/-
  @main of the program up to its one kernel region: the host operations that build the class indicator
  table (label m against class c), the transposed target boxes and their corner form run first; the
  region then finds every buffer at the contents those operations leave (`V`). None of them writes an
  argument array, so the region finds the four arguments as launched.
-/
import proofs.«410247_j17300128268908_2_alg».proof.Proof.Gen.KernelIdeal.Launch
import proofs.«410247_j17300128268908_2_alg».proof.Proof.Gen.KernelIdeal.Skeleton
import proofs.«410247_j17300128268908_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-- Core `c`'s buffers when the region is entered: after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array. -/
theorem V_arg (c : Dev nD) (b : Ref sig .tc) (hb : b = main_arg0 ∨ b = main_arg1 ∨ b = main_arg2 ∨ b = main_arg3) :
    V m c b = m ((c : Thread nD τ).loc b) := by
  rcases hb with rfl | rfl | rfl | rfl
  all_goals
    exact StableHlo.after_of_forall_not_mem (b := Proc.devRef .tc _) _ _ (List.forall_iff_forall_mem.mp (by
      simp only [hostOps0, List.Forall, StableHlo.nullary_writes, StableHlo.unary_writes, StableHlo.binary_writes, StableHlo.reshape_writes, StableHlo.nary_writes, Finset.mem_singleton]
      repeat' apply And.intro
      all_goals exact StableHlo.devRef_ne_of_ne (by decide)))

end Cert.KernelIdeal.Hand

end
-- ==== Proof.BodyIdeal.lean ====
/-
  The kernel body at one grid point. It loads its five input staging buffers whole — the query tile's
  logits and boxes, the transposed target boxes, their corner form, the class indicator table —, computes
  the tile of costs as a pure function of them, and stores it whole into the output's staging buffer
  (a dead load of that buffer precedes the store). So after the body the inputs' buffers hold what they
  held and the output's holds that function of them, `outBlk`.
-/
import proofs.«410247_j17300128268908_2_alg».proof.Proof.EntryIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's accesses: each the whole of its buffer -/

abbrev rLogits : Rect S1x512x256 := Rect.unit (s := S1x512x256) ![0, 0, 0] S1x512x256.size inb_S1x512x256_S1x512x256_0_0_0
abbrev rBoxes : Rect S1x512x4 := Rect.unit (s := S1x512x4) ![0, 0, 0] S1x512x4.size inb_S1x512x4_S1x512x4_0_0_0
abbrev rTgt : Rect S4x800 := Rect.unit (s := S4x800) ![0, 0] S4x800.size inb_S4x800_S4x800_0_0
abbrev rTable : Rect S256x800 := Rect.unit (s := S256x800) ![0, 0] S256x800.size inb_S256x800_S256x800_0_0
abbrev rOut : Rect S1x512x800 := Rect.unit (s := S1x512x800) ![0, 0, 0] S1x512x800.size inb_S1x512x800_S1x512x800_0_0_0

/-- The tile of costs as a pure function of the five loaded values: the body's arithmetic, the printed
    parts' payloads composed. -/
def tile (v0 : Vec F S1x512x256 .f32) (v2 : Vec F S1x512x4 .f32) (v4 v6 : Vec F S4x800 .f32) (v8 : Vec F S256x800 .bf16) :
    FVec F S1x512x800 .f32 :=
  k0_pay23 (k0_pay6 (k0_pay1 v2) (k0_pay2 v4) (k0_pay4 v0 v2 v4 v8) (k0_pay5 v2 v4))
    (k0_pay11 (k0_pay1 v2)) (k0_pay12 (k0_pay1 v2)) (k0_pay13 (k0_pay1 v2)) (k0_pay14 (k0_pay1 v2))
    (k0_pay15 (k0_pay3 v6)) (k0_pay16 (k0_pay3 v6)) (k0_pay17 (k0_pay3 v6)) (k0_pay18 (k0_pay3 v6))
    (k0_pay19 (k0_pay1 v2)) (k0_pay20 (k0_pay3 v6)) (k0_pay21 (k0_pay1 v2) (k0_pay3 v6)) (k0_pay22 (k0_pay1 v2) (k0_pay3 v6))

/-- The output's staging buffer after the body, from the inputs' buffers: its one store as a piece. -/
def outBlk (x0 : Vec F S1x512x256 .f32) (x1 : Vec F S1x512x4 .f32) (x2 x3 : Vec F S4x800 .f32) (x4 : Vec F S256x800 .bf16) :
    Vec F S1x512x800 .f32 :=
  View.canon [⟨rOut, tile (View.ld x0 rLogits) (View.ld x1 rBoxes) (View.ld x2 rTgt) (View.ld x3 rTgt) (View.ld x4 rTable)⟩]

/-- The one store is of the whole buffer, so it covers it. -/
theorem cover_out (p0 : Vec F S1x512x800 .f32) (y : S1x512x800.Idx) :
    ∃ pc ∈ ([⟨rOut, p0⟩] : List (View.Piece (Elt F) S1x512x800 .f32)), y ∈ pc.1.set :=
  View.cover_of_tiled [⟨rOut, p0⟩] S1x512x800.size (by rfl) y

set_option maxHeartbeats 4000000 in
/-- The body on whole staging memrefs, the inputs' at contents `x0 … x4` and the output's at anything, runs to the
    continuation holding the inputs' as they were and the output's at `outBlk` of them. -/
theorem sound_kernel (c : Dev nD) (E : Set ℕ) (i : grid0.Coords)
    (arg2 : Memref sig .tc .vmem S1x512x256 .f32) (harg2 : arg2.IsWhole) (arg3 : Memref sig .tc .vmem S1x512x4 .f32) (harg3 : arg3.IsWhole)
    (arg4 : Memref sig .tc .vmem S4x800 .f32) (harg4 : arg4.IsWhole) (arg5 : Memref sig .tc .vmem S4x800 .f32) (harg5 : arg5.IsWhole)
    (arg6 : Memref sig .tc .vmem S256x800 .bf16) (harg6 : arg6.IsWhole) (arg7 : Memref sig .tc .vmem S1x512x800 .f32) (harg7 : arg7.IsWhole)
    (x0 : Vec F S1x512x256 .f32) (x1 : Vec F S1x512x4 .f32) (x2 x3 : Vec F S4x800 .f32) (x4 : Vec F S256x800 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E
          (cc0__cost_kernel i arg2 harg2 arg3 harg3 arg4 harg4 arg5 harg5 arg6 harg6 arg7 harg7) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Hand

end
-- ==== Proof.Spec.lean ====
/-
  The matching cost of one (query, target) pair over the extended reals, in the two arrangements the
  two programs compute it in, and the law that joins them.

  For a query with class logits `l : Fin 256 → EReal` and box `b = (cx, cy, w, h)`, and a target with
  label `lab` and box `t = (cx, cy, w, h)`:
    * the class term is minus the softmax probability of the target's label, `- exp(l_lab - max l) / Σ_j exp(l_j - max l)`;
    * the box term is five times the L1 distance of the two boxes' raw coordinates;
    * the overlap term is minus twice the generalized IoU of the two boxes' corner forms
      `(c - w/2, c + w/2)` per axis: `iou - (hull - union) / (hull + ε)` with `iou = inter / (union + ε)`.
  One arrangement adds the terms left to right starting from the class term, which it gets as a
  contraction of the probability row with the label's indicator column; the other multiplies the
  summed L1 distance by five, reads the probability at the label, and adds the negated terms. They agree on
  all extended reals: the distances are non-negative, so the factor five distributes over their sum, and
  the rest is commutativity and associativity of `+` and the sign rules of `*`.
-/
import Idealize.ShloMosaic.PureOps.Ideal
import Idealize.ShloMosaic.PureOps.Ideal.Laws

noncomputable section

namespace Cert.MatchCost

open Idealize.ShloMosaic

/-- The literals the two programs share, as the extended reals their f32 patterns denote. -/
abbrev negInf : EReal := Ideal.ofBits .f32 0xFF800000#32
abbrev zero : EReal := Ideal.ofBits .f32 0x00000000#32
abbrev one : EReal := Ideal.ofBits .f32 0x3F800000#32
abbrev half : EReal := Ideal.ofBits .f32 0x3F000000#32
abbrev two : EReal := Ideal.ofBits .f32 0x40000000#32
abbrev five : EReal := Ideal.ofBits .f32 0x40A00000#32
abbrev eps : EReal := Ideal.ofBits .f32 0x33D6BF95#32

theorem zero_eq : zero = 0 := Ideal.ofBits_zero_f32
theorem one_eq : one = 1 := by
  simp [one, Ideal.ofBits, Ideal.ieee, -EReal.coe_mul]; norm_num

/-! ## The softmax of a row -/

/-- The row's maximum, folded from `-∞`. -/
def rowMax (l : Fin 256 → EReal) : EReal := (Finset.univ : Finset (Fin 256)).fold max negInf l

/-- The shifted exponential of entry `k`. -/
def expRow (l : Fin 256 → EReal) (k : Fin 256) : EReal := Ideal.exp (l k - rowMax l)

/-- The softmax probability of class `k`. -/
def prob (l : Fin 256 → EReal) (k : Fin 256) : EReal := Ideal.div (expRow l k) (∑ j : Fin 256, expRow l j)

/-! ## Boxes -/

/-- The corner form `(x0, y0, x1, y1)` of a box `(cx, cy, w, h)`. -/
def corners (b : Fin 4 → EReal) : Fin 4 → EReal :=
  ![b 0 - half * b 2, b 1 - half * b 3, b 0 + half * b 2, b 1 + half * b 3]

/-- The area of a box in corner form. -/
def area (c : Fin 4 → EReal) : EReal := (c 2 - c 0) * (c 3 - c 1)

/-- The absolute difference of two coordinates. -/
def dist (x y : EReal) : EReal := max (x - y) (-(x - y))

theorem dist_nonneg (x y : EReal) : 0 ≤ dist x y := by
  unfold dist
  rcases le_total 0 (x - y) with h | h
  · exact le_max_of_le_left h
  · exact le_max_of_le_right (by simpa using EReal.neg_le_neg_iff.mpr h)

/-- The generalized IoU of two boxes in corner form, the clamps written `max · 0`. -/
def giou (p q : Fin 4 → EReal) : EReal :=
  let inter := max (min (p 2) (q 2) - max (p 0) (q 0)) zero * max (min (p 3) (q 3) - max (p 1) (q 1)) zero
  let union := area p + area q - inter
  let hull := max (max (p 2) (q 2) - min (p 0) (q 0)) zero * max (max (p 3) (q 3) - min (p 1) (q 1)) zero
  Ideal.div inter (union + eps) - Ideal.div (hull - union) (hull + eps)

/-! ## The two arrangements -/

/-- Accumulated left to right from the class term, which is a contraction of the probability row with a
    column `oh`; the target's raw box `tr` and corner form `tc` given separately. -/
def costAcc (l : Fin 256 → EReal) (b : Fin 4 → EReal) (tr tc : Fin 4 → EReal) (oh : Fin 256 → EReal) : EReal :=
  ((((one * (zero - ∑ k : Fin 256, prob l k * oh k) + five * dist (b 0) (tr 0)) + five * dist (b 1) (tr 1))
      + five * dist (b 2) (tr 2)) + five * dist (b 3) (tr 3))
    - two * giou (corners b) tc

/-- Weighted sum of the three terms, the probability read at the label. -/
def costSum (l : Fin 256 → EReal) (b : Fin 4 → EReal) (lab : Fin 256) (t : Fin 4 → EReal) : EReal :=
  (five * (zero + ∑ k : Fin 4, dist (b k) (t k)) + one * (-(prob l lab))) + two * (-(giou (corners b) (corners t)))

/-- The label's indicator column. -/
def indicator (lab : Fin 256) (k : Fin 256) : EReal := if k = lab then 1 else 0

/-- The two arrangements agree on all extended reals. -/
theorem costAcc_eq_costSum (l : Fin 256 → EReal) (b t : Fin 4 → EReal) (lab : Fin 256) :
    costAcc l b t (corners t) (indicator lab) = costSum l b lab t := by
  -- the contraction with the indicator column reads the probability at the label
  have hS : ∑ k : Fin 256, prob l k * indicator lab k = prob l lab := by
    rw [Finset.sum_eq_single lab]
    · simp [indicator]
    · intro k _ hk
      simp [indicator, hk]
    · intro hn
      exact absurd (Finset.mem_univ _) hn
  -- five distributes over the sum of the four non-negative distances
  have h01 : (0 : EReal) ≤ dist (b 0) (t 0) + dist (b 1) (t 1) :=
    add_nonneg (dist_nonneg _ _) (dist_nonneg _ _)
  have h012 : (0 : EReal) ≤ dist (b 0) (t 0) + dist (b 1) (t 1) + dist (b 2) (t 2) :=
    add_nonneg h01 (dist_nonneg _ _)
  have hD : five * (dist (b 0) (t 0) + dist (b 1) (t 1) + dist (b 2) (t 2) + dist (b 3) (t 3))
      = five * dist (b 0) (t 0) + five * dist (b 1) (t 1) + five * dist (b 2) (t 2) + five * dist (b 3) (t 3) := by
    rw [EReal.left_distrib_of_nonneg h012 (dist_nonneg _ _),
      EReal.left_distrib_of_nonneg h01 (dist_nonneg _ _),
      EReal.left_distrib_of_nonneg (dist_nonneg _ _) (dist_nonneg _ _)]
  unfold costAcc costSum
  rw [hS, one_eq, zero_eq, Fin.sum_univ_four, zero_add, one_mul, one_mul, zero_sub, hD, sub_eq_add_neg, mul_neg]
  ac_rfl

end Cert.MatchCost

end
-- ==== Proof.Whole.lean ====
/-
  The whole cost array: entry (b, r, n) is the matching cost of query r of image b against target n,
  the target's class read off its label word.
-/
import proofs.«410247_j17300128268908_2_alg».proof.Proof.Spec
import Idealize.ShloMosaic.Lib.ValueIdx

noncomputable section

namespace Cert.MatchCost

open Idealize.ShloMosaic Idealize.ShloMosaic.ValueIdx

/-- The class a label word names: its value, for a word below 256 (the only ones a labelling uses). -/
def labelOf (w : BitVec 32) : Fin 256 := ⟨w.toNat % 256, Nat.mod_lt _ (by decide)⟩

theorem labelOf_val {w : BitVec 32} (h : w.toNat < 256) : (labelOf w).val = w.toNat := Nat.mod_eq_of_lt h

/-- The cost of query `r` of image `b` against target `n`. -/
def costAt (L : (⟨3, ![16, 900, 256]⟩ : Shape).Idx → EReal) (B : (⟨3, ![16, 900, 4]⟩ : Shape).Idx → EReal)
    (lab : (⟨1, ![800]⟩ : Shape).Idx → BitVec 32) (T : (⟨2, ![800, 4]⟩ : Shape).Idx → EReal)
    (b : Fin 16) (r : Fin 900) (n : Fin 800) : EReal :=
  costSum (fun k => L (ix3 b r k)) (fun a => B (ix3 b r a)) (labelOf (lab (ix1 n))) (fun a => T (ix2 n a))

/-- The cost array. -/
def costArray (L : (⟨3, ![16, 900, 256]⟩ : Shape).Idx → EReal) (B : (⟨3, ![16, 900, 4]⟩ : Shape).Idx → EReal)
    (lab : (⟨1, ![800]⟩ : Shape).Idx → BitVec 32) (T : (⟨2, ![800, 4]⟩ : Shape).Idx → EReal) :
    (⟨3, ![16, 900, 800]⟩ : Shape).Idx → EReal :=
  fun i => costAt L B lab T (i 0) (i 1) (i 2)

theorem costArray_ix3 (L B lab T) (b : Fin 16) (r : Fin 900) (n : Fin 800) :
    costArray L B lab T (ix3 b r n) = costAt L B lab T b r n := rfl

end Cert.MatchCost

end
-- ==== Proof.DataIdeal.lean ====
/-
  The proof data of the kernel's pipeline at the extended reals. The arrays are as the region finds
  them. After the body at a grid point the query tile's logits and boxes buffers hold their blocks (on the
  rows inside the array: the last tile of an image overhangs it by 124 rows, which hold anything), the
  three buffers staged whole hold their arrays, and the output's buffer holds, on the rows inside the
  array, the point's block of the cost array `G`.
-/
import proofs.«410247_j17300128268908_2_alg».proof.Proof.BodyIdeal
import proofs.«410247_j17300128268908_2_alg».proof.Proof.Whole

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

open Idealize.SL.RA Idealize.SL.BI
open scoped Idealize.SL.BI
open Idealize.ShloMosaic.Pipeline (Dat RDat Cfg Window BodyObligation cellOf)
open Idealize.ShloMosaic.Rounds

variable (m : (ℓ : Loc nD τ sig) → Buf (Elt Ideal) ℓ)

/-- Window `w`'s block at point `t`, read off its array as the region finds it. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The cost array of the four arguments. -/
def G (c : Dev nD) : Buf (Elt Ideal) ((c : Thread nD τ).loc main_v33) :=
  Cert.MatchCost.costArray (m ((c : Thread nD τ).loc main_arg0)) (m ((c : Thread nD τ).loc main_arg1))
    (m ((c : Thread nD τ).loc main_arg2)) (m ((c : Thread nD τ).loc main_arg3))

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => iblk m c 4 t
    | ⟨5, _⟩ => win0_5.fill (grid0.coords t) (fun _ => (0 : EReal)) ((win0_5.blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => (0 : EReal)) (iblk m c 0 t) := by dsimp only [dats]
theorem after_1 (c : Dev nD) (t : Fin cfg0.N) :
    (dats m 0 c).after 1 t = win0_1.fill (grid0.coords t) (fun _ => (0 : EReal)) (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = win0_5.fill (grid0.coords t) (fun _ => (0 : EReal)) ((win0_5.blk t).view.read (Elt Ideal) (G m c)) := by
  dsimp only [dats]

end Cert.KernelIdeal.Hand

end
-- ==== Proof.TileClass.lean ====
/-
  The class part of the tile: the first value the body accumulates. Row p of it is the row's softmax
  contracted with the indicator table's column — taken from zero, negated by subtraction from zero, and
  weighted by one — plus five times the absolute difference of the first box coordinates.
-/
import proofs.«410247_j17300128268908_2_alg».proof.Proof.BodyIdeal
import proofs.«410247_j17300128268908_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

namespace TileClassAux

/-! ## The operations that are not pointwise, read at an index -/

/-- The row index p with the coordinate k put back on the reduced axis is the pair (p, k). -/
theorem lift_row (h : S512x256.Reduces [1] S512) (p : Fin 512) (k : Fin 256) :
    h.lift (ix1 p) k = ix2 p k := by
  funext c
  match c with
  | ⟨0, _⟩ => exact Fin.ext rfl
  | ⟨1, _⟩ => exact Fin.ext rfl

/-- The maximum over axis 1 taken from the pattern of -∞, read at row p, is the row's maximum. -/
theorem rowMax_apply (x : FVec Ideal S512x256 .f32) (h : S512x256.Reduces [1] S512) (hφ : FKind.Formats .f32)
    (hacc : (0xFF800000#32 : BitVec 32) = 0xFF800000#32) (p : Fin 512) :
    multiReduction (F := Ideal) .maximumf [1] S512 x 0xFF800000#32 h hφ hacc (ix1 p)
      = Cert.MatchCost.rowMax (fun k => x (ix2 p k)) := by
  refine (Ideal.multiReduction_maximumf_single x 0xFF800000#32 h hφ hacc (ix1 p)).trans ?_
  exact congrArg (fun f => (Finset.univ : Finset (Fin 256)).fold max Cert.MatchCost.negInf f)
    (funext fun k => congrArg x (lift_row h p k))

/-- The sum over axis 1 taken from the zero pattern, read at row p, is the row's sum. -/
theorem rowSum_apply (x : FVec Ideal S512x256 .f32) (h : S512x256.Reduces [1] S512) (hφ : FKind.Formats .f32)
    (hacc : (0x00000000#32 : BitVec 32) = 0x00000000#32) (p : Fin 512) :
    multiReduction (F := Ideal) .add [1] S512 x 0x00000000#32 h hφ hacc (ix1 p) = ∑ k : Fin 256, x (ix2 p k) := by
  refine (Ideal.multiReduction_add_single x 0x00000000#32 h hφ hacc (ix1 p)).trans ?_
  exact Finset.sum_congr rfl fun k _ => congrArg x (lift_row h p k)

/-- A [512] array cast to a column [512, 1] reads, at (p, u), the operand at p. -/
theorem shapeCast_col_apply {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_one, Shape.rowMajor_val_two]
    show p.val = p.val * 1 + u.val
    omega)

/-- A column [512, 1] broadcast to [512, b] reads, at (p, c), the column at p. -/
theorem broadcastTo_col_apply {α : Type} {b : ℕ} (v : (⟨2, ![512, 1]⟩ : Shape).Idx → α)
    (h : (⟨2, ![512, 1]⟩ : Shape).Broadcasts ⟨2, ![512, b]⟩) (p : Fin 512) (c : Fin b) :
    broadcastTo ⟨2, ![512, b]⟩ v h (ix2 p c) = v (ix2 p (0 : Fin 1)) := by
  refine broadcastTo_apply v h (ix2 p c) (ix2 p (0 : Fin 1)) fun ax => ?_
  match ax with
  | ⟨0, _⟩ =>
    show p.val = if (512 : ℕ) = 1 then 0 else p.val
    exact (if_neg (by decide)).symm
  | ⟨1, _⟩ =>
    show (0 : ℕ) = if (1 : ℕ) = 1 then 0 else c.val
    exact (if_pos rfl).symm

/-- Column 0 of the [512, 4] boxes, read at (p, u). -/
theorem boxCol0_apply (X : S512x4.Idx → EReal) (h : S512x4.Slices ![0, 0] S512x1) (p : Fin 512) (u : Fin 1) :
    extractStridedSlice S512x1 ![0, 0] X h (ix2 p u) = X (ix2 p (0 : Fin 4)) :=
  slice2_axis1_apply 0 X h p u 0 (by have := u.isLt; show (0 : ℕ) = 0 + u.val; omega)

/-- Row 0 of the [4, 800] targets, read at (u, n). -/
theorem tgtRow0_apply (X : S4x800.Idx → EReal) (h : S4x800.Slices ![0, 0] S1x800) (u : Fin 1) (n : Fin 800) :
    extractStridedSlice S1x800 ![0, 0] X h (ix2 u n) = X (ix2 (0 : Fin 4) n) :=
  slice2_axis0_apply 0 X h u n 0 (by have := u.isLt; show (0 : ℕ) = 0 + u.val; omega)

/-- The exponential and the absolute value at an index. -/
theorem exp_apply {s : Shape} {φ : FTy} (a : FVec Ideal s φ) (i : s.Idx) : exp a i = Ideal.exp (a i) := rfl
theorem absf_apply {s : Shape} {φ : FTy} (a : FVec Ideal s φ) (i : s.Idx) : absf a i = max (a i) (-(a i)) := rfl

/-! ## The contraction -/

theorem lhs_0 (j : S512x800.Idx) (k : dot_S512x256_S256x800_S512x800_1_0_0_1_n_n.contr.Idx) :
    (dot_S512x256_S256x800_S512x800_1_0_0_1_n_n.lhsIdx j k 0).val = (j 0).val := rfl
theorem lhs_1 (j : S512x800.Idx) (k : dot_S512x256_S256x800_S512x800_1_0_0_1_n_n.contr.Idx) :
    (dot_S512x256_S256x800_S512x800_1_0_0_1_n_n.lhsIdx j k 1).val = (k ⟨0, by decide⟩).val :=
  dot_S512x256_S256x800_S512x800_1_0_0_1_n_n.lhsIdx_val_of_single rfl j k
theorem rhs_0 (j : S512x800.Idx) (k : dot_S512x256_S256x800_S512x800_1_0_0_1_n_n.contr.Idx) :
    (dot_S512x256_S256x800_S512x800_1_0_0_1_n_n.rhsIdx j k 0).val = (k ⟨0, by decide⟩).val :=
  dot_S512x256_S256x800_S512x800_1_0_0_1_n_n.rhsIdx_val_of_single rfl j k
theorem rhs_1 (j : S512x800.Idx) (k : dot_S512x256_S256x800_S512x800_1_0_0_1_n_n.contr.Idx) :
    (dot_S512x256_S256x800_S512x800_1_0_0_1_n_n.rhsIdx j k 1).val = (j 1).val := rfl

/-- The product into the zero accumulator, read at (p, n): row p of the left factor against column n of the right. -/
theorem matmul_zero_apply (A : FVec Ideal S512x256 .bf16) (B : FVec Ideal S256x800 .bf16) (p : Fin 512) (n : Fin 800) :
    matmul dot_S512x256_S256x800_S512x800_1_0_0_1_n_n none A B (constant (F := Ideal) S512x800 .f32 0x00000000#32) (ix2 p n)
      = ∑ k : Fin 256, A (ix2 p k) * B (ix2 k n) := by
  refine (Ideal.matmul_constant_zero_apply dot_S512x256_S256x800_S512x800_1_0_0_1_n_n none A B (ix2 p n)).trans ?_
  rw [← Equiv.sum_comp (contrEquiv1 dot_S512x256_S256x800_S512x800_1_0_0_1_n_n 256 rfl rfl).symm]
  refine Finset.sum_congr rfl fun k _ => ?_
  have hl : dot_S512x256_S256x800_S512x800_1_0_0_1_n_n.lhsIdx (ix2 p n)
      ((contrEquiv1 dot_S512x256_S256x800_S512x800_1_0_0_1_n_n 256 rfl rfl).symm k) = ix2 p k := by
    funext a
    match a with
    | ⟨0, _⟩ => exact Fin.ext (lhs_0 _ _)
    | ⟨1, _⟩ => exact Fin.ext ((lhs_1 _ _).trans (contrEquiv1_symm_val dot_S512x256_S256x800_S512x800_1_0_0_1_n_n 256 rfl rfl k))
  have hr : dot_S512x256_S256x800_S512x800_1_0_0_1_n_n.rhsIdx (ix2 p n)
      ((contrEquiv1 dot_S512x256_S256x800_S512x800_1_0_0_1_n_n 256 rfl rfl).symm k) = ix2 k n := by
    funext a
    match a with
    | ⟨0, _⟩ => exact Fin.ext ((rhs_0 _ _).trans (contrEquiv1_symm_val dot_S512x256_S256x800_S512x800_1_0_0_1_n_n 256 rfl rfl k))
    | ⟨1, _⟩ => exact Fin.ext (rhs_1 _ _)
  rw [hl, hr]

end TileClassAux

open TileClassAux

/-- Entry (p, n) of the first accumulated value. -/
theorem pay4_apply (v0 : Vec Ideal S1x512x256 .f32) (v2 : Vec Ideal S1x512x4 .f32) (v4 : Vec Ideal S4x800 .f32)
    (v8 : Vec Ideal S256x800 .bf16) (p : Fin 512) (n : Fin 800) :
    (k0_pay4 (F := Ideal) v0 v2 v4 v8 : S512x800.Idx → EReal) (ix2 p n)
      = Cert.MatchCost.one * (Cert.MatchCost.zero
            - ∑ k : Fin 256, Cert.MatchCost.prob (fun k' => (v0 : S1x512x256.Idx → EReal) (ix3 (0 : Fin 1) p k')) k * (v8 : S256x800.Idx → EReal) (ix2 k n))
          + Cert.MatchCost.five * Cert.MatchCost.dist ((v2 : S1x512x4.Idx → EReal) (ix3 (0 : Fin 1) p (0 : Fin 4))) ((v4 : S4x800.Idx → EReal) (ix2 (0 : Fin 4) n)) := by
  unfold k0_pay4 k0_pay1 k0_pay2
  simp only [addf_apply, mulf_apply, subf_apply, broadcast_apply]
  simp only [matmul_zero_apply, truncf_apply, divf_apply, exp_apply, subf_apply, broadcastTo_col_apply,
    shapeCast_col_apply, shapeCast_1ab_ab_apply, shapeCast_self, absf_apply,
    broadcastTo_1b_ab_apply, boxCol0_apply, tgtRow0_apply]
  rw [rowSum_apply]
  simp only [exp_apply, subf_apply, broadcastTo_col_apply, shapeCast_col_apply, shapeCast_1ab_ab_apply]
  rw [rowMax_apply]
  simp only [shapeCast_1ab_ab_apply, Ideal.ofBits_def]
  unfold Cert.MatchCost.prob Cert.MatchCost.expRow Cert.MatchCost.dist
  rfl

end Cert.KernelIdeal.Hand

end
-- ==== Proof.TileIdeal.lean ====
/-
  The tile of costs read at an entry. Row p of the tile depends on row p of the logits and of the
  boxes only: the softmax is taken along a row, the contraction with the indicator table is a sum over
  the class axis of that row, and every box term is a broadcast of the row's four coordinates against a
  target's column. Entry (p, n) is the cost, accumulated left to right, of that row against column n of
  the transposed target boxes, of their corner form, and of the indicator table.
-/
import proofs.«410247_j17300128268908_2_alg».proof.Proof.TileClass

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! ## Layout: a column over many columns, a column of the boxes, a row of the targets -/

/-- A column [a, 1] broadcast over b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The loaded boxes with their unit axis dropped. -/
theorem pay1_apply (v2 : Vec Ideal S1x512x4 .f32) (p : Fin 512) (a : Fin 4) :
    (k0_pay1 (F := Ideal) v2 : S512x4.Idx → EReal) (ix2 p a) = (v2 : S1x512x4.Idx → EReal) (ix3 (0 : Fin 1) p a) := by
  unfold k0_pay1
  exact shapeCast_1ab_ab_apply _ _ p a

/-- The transposed target boxes, cast to their own shape. -/
theorem pay2_eq (v4 : Vec Ideal S4x800 .f32) : k0_pay2 (F := Ideal) v4 = v4 := by
  unfold k0_pay2
  exact shapeCast_self _ _

/-- The targets' corner table, cast to its own shape. -/
theorem pay3_eq (v6 : Vec Ideal S4x800 .f32) : k0_pay3 (F := Ideal) v6 = v6 := by
  unfold k0_pay3
  exact shapeCast_self _ _

/-- Column `k` of the boxes, as a [512, 1] column. -/
theorem boxCol_apply (x : FVec Ideal S512x4 .f32) (o : Nat) (h : S512x4.Slices ![0, o] S512x1) (k : Fin 4) (hk : k.val = o)
    (p : Fin 512) : (extractStridedSlice S512x1 ![0, o] x h : S512x1.Idx → EReal) (ix2 p (0 : Fin 1)) = x (ix2 p k) :=
  slice2_axis1_apply o x h p (0 : Fin 1) k (by rw [hk]; rfl)

/-- Row `k` of a target table, as a [1, 800] row. -/
theorem tgtRow_apply (x : FVec Ideal S4x800 .f32) (o : Nat) (h : S4x800.Slices ![o, 0] S1x800) (k : Fin 4) (hk : k.val = o)
    (n : Fin 800) : (extractStridedSlice S1x800 ![o, 0] x h : S1x800.Idx → EReal) (ix2 (0 : Fin 1) n) = x (ix2 k n) :=
  slice2_axis0_apply o x h (0 : Fin 1) n k (by rw [hk]; rfl)

/-! ## The box terms -/

/-- The absolute difference of column `k` of the boxes and row `k` of the targets, at (p, n). -/
theorem absDiff_apply (v3 : FVec Ideal S512x4 .f32) (v5 : FVec Ideal S4x800 .f32) (o : Nat)
    (h : S512x4.Slices ![0, o] S512x1) (h' : S4x800.Slices ![o, 0] S1x800) (k : Fin 4) (hk : k.val = o) (p : Fin 512) (n : Fin 800) :
    (absf (subf (broadcastTo S512x800 (extractStridedSlice S512x1 ![0, o] v3 h) broadcasts_S512x1_S512x800)
        (broadcastTo S512x800 (extractStridedSlice S1x800 ![o, 0] v5 h') broadcasts_S1x800_S512x800)) : S512x800.Idx → EReal) (ix2 p n)
      = Cert.MatchCost.dist (v3 (ix2 p k)) (v5 (ix2 k n)) := by
  show Cert.MatchCost.dist (broadcastTo S512x800 (extractStridedSlice S512x1 ![0, o] v3 h) broadcasts_S512x1_S512x800 (ix2 p n))
      (broadcastTo S512x800 (extractStridedSlice S1x800 ![o, 0] v5 h') broadcasts_S1x800_S512x800 (ix2 p n)) = _
  rw [broadcastTo_a1_ab_apply, broadcastTo_1b_ab_apply, boxCol_apply v3 o h k hk, tgtRow_apply v5 o h' k hk]

/-- The second coordinates' distance. -/
theorem pay5_apply (v2 : Vec Ideal S1x512x4 .f32) (v4 : Vec Ideal S4x800 .f32) (p : Fin 512) (n : Fin 800) :
    (k0_pay5 (F := Ideal) v2 v4 : S512x800.Idx → EReal) (ix2 p n)
      = Cert.MatchCost.dist ((v2 : S1x512x4.Idx → EReal) (ix3 (0 : Fin 1) p (1 : Fin 4))) ((v4 : S4x800.Idx → EReal) (ix2 (1 : Fin 4) n)) := by
  unfold k0_pay5
  refine (absDiff_apply _ _ 1 _ _ 1 rfl p n).trans ?_
  rw [pay1_apply, pay2_eq]

/-- The accumulation continued over the second, third and fourth coordinates. -/
theorem pay6_apply (v3 : FVec Ideal S512x4 .f32) (v5 : FVec Ideal S4x800 .f32) (v33 v39 : FVec Ideal S512x800 .f32) (p : Fin 512) (n : Fin 800) :
    (k0_pay6 v3 v5 v33 v39 : S512x800.Idx → EReal) (ix2 p n)
      = ((v33 (ix2 p n) + Cert.MatchCost.five * v39 (ix2 p n))
          + Cert.MatchCost.five * Cert.MatchCost.dist (v3 (ix2 p (2 : Fin 4))) (v5 (ix2 (2 : Fin 4) n)))
          + Cert.MatchCost.five * Cert.MatchCost.dist (v3 (ix2 p (3 : Fin 4))) (v5 (ix2 (3 : Fin 4) n)) := by
  unfold k0_pay6
  show ((v33 (ix2 p n) + Cert.MatchCost.five * v39 (ix2 p n))
      + Cert.MatchCost.five * (absf (subf (broadcastTo S512x800 (extractStridedSlice S512x1 ![0, 2] v3 _) _)
          (broadcastTo S512x800 (extractStridedSlice S1x800 ![2, 0] v5 _) _)) : S512x800.Idx → EReal) (ix2 p n))
      + Cert.MatchCost.five * (absf (subf (broadcastTo S512x800 (extractStridedSlice S512x1 ![0, 3] v3 _) _)
          (broadcastTo S512x800 (extractStridedSlice S1x800 ![3, 0] v5 _) _)) : S512x800.Idx → EReal) (ix2 p n) = _
  rw [absDiff_apply v3 v5 2 _ _ 2 rfl, absDiff_apply v3 v5 3 _ _ 3 rfl]

/-! ## The corner form of a query's box, the targets' corner rows, the areas -/

/-- Row `p` of the boxes. -/
abbrev boxRow (v3 : FVec Ideal S512x4 .f32) (p : Fin 512) : Fin 4 → EReal := fun a => v3 (ix2 p a)

/-- Column `n` of a target table. -/
abbrev tgtCol (v7 : FVec Ideal S4x800 .f32) (n : Fin 800) : Fin 4 → EReal := fun a => v7 (ix2 a n)

theorem pay11_apply (v3 : FVec Ideal S512x4 .f32) (p : Fin 512) :
    (k0_pay11 v3 : S512x1.Idx → EReal) (ix2 p (0 : Fin 1)) = Cert.MatchCost.corners (boxRow v3 p) 0 := by
  show (extractStridedSlice S512x1 ![0, 0] v3 slices_S512x4_o0_0_S512x1 : S512x1.Idx → EReal) (ix2 p (0 : Fin 1))
      - Cert.MatchCost.half * (extractStridedSlice S512x1 ![0, 2] v3 slices_S512x4_o0_2_S512x1 : S512x1.Idx → EReal) (ix2 p (0 : Fin 1)) = _
  rw [boxCol_apply v3 0 _ 0 rfl, boxCol_apply v3 2 _ 2 rfl]
  rfl

theorem pay12_apply (v3 : FVec Ideal S512x4 .f32) (p : Fin 512) :
    (k0_pay12 v3 : S512x1.Idx → EReal) (ix2 p (0 : Fin 1)) = Cert.MatchCost.corners (boxRow v3 p) 1 := by
  show (extractStridedSlice S512x1 ![0, 1] v3 slices_S512x4_o0_1_S512x1 : S512x1.Idx → EReal) (ix2 p (0 : Fin 1))
      - Cert.MatchCost.half * (extractStridedSlice S512x1 ![0, 3] v3 slices_S512x4_o0_3_S512x1 : S512x1.Idx → EReal) (ix2 p (0 : Fin 1)) = _
  rw [boxCol_apply v3 1 _ 1 rfl, boxCol_apply v3 3 _ 3 rfl]
  rfl

theorem pay13_apply (v3 : FVec Ideal S512x4 .f32) (p : Fin 512) :
    (k0_pay13 v3 : S512x1.Idx → EReal) (ix2 p (0 : Fin 1)) = Cert.MatchCost.corners (boxRow v3 p) 2 := by
  show (extractStridedSlice S512x1 ![0, 0] v3 slices_S512x4_o0_0_S512x1 : S512x1.Idx → EReal) (ix2 p (0 : Fin 1))
      + Cert.MatchCost.half * (extractStridedSlice S512x1 ![0, 2] v3 slices_S512x4_o0_2_S512x1 : S512x1.Idx → EReal) (ix2 p (0 : Fin 1)) = _
  rw [boxCol_apply v3 0 _ 0 rfl, boxCol_apply v3 2 _ 2 rfl]
  rfl

theorem pay14_apply (v3 : FVec Ideal S512x4 .f32) (p : Fin 512) :
    (k0_pay14 v3 : S512x1.Idx → EReal) (ix2 p (0 : Fin 1)) = Cert.MatchCost.corners (boxRow v3 p) 3 := by
  show (extractStridedSlice S512x1 ![0, 1] v3 slices_S512x4_o0_1_S512x1 : S512x1.Idx → EReal) (ix2 p (0 : Fin 1))
      + Cert.MatchCost.half * (extractStridedSlice S512x1 ![0, 3] v3 slices_S512x4_o0_3_S512x1 : S512x1.Idx → EReal) (ix2 p (0 : Fin 1)) = _
  rw [boxCol_apply v3 1 _ 1 rfl, boxCol_apply v3 3 _ 3 rfl]
  rfl

theorem pay15_apply (v7 : FVec Ideal S4x800 .f32) (n : Fin 800) :
    (k0_pay15 v7 : S1x800.Idx → EReal) (ix2 (0 : Fin 1) n) = tgtCol v7 n 0 :=
  tgtRow_apply v7 0 slices_S4x800_o0_0_S1x800 0 rfl n

theorem pay16_apply (v7 : FVec Ideal S4x800 .f32) (n : Fin 800) :
    (k0_pay16 v7 : S1x800.Idx → EReal) (ix2 (0 : Fin 1) n) = tgtCol v7 n 1 :=
  tgtRow_apply v7 1 slices_S4x800_o1_0_S1x800 1 rfl n

theorem pay17_apply (v7 : FVec Ideal S4x800 .f32) (n : Fin 800) :
    (k0_pay17 v7 : S1x800.Idx → EReal) (ix2 (0 : Fin 1) n) = tgtCol v7 n 2 :=
  tgtRow_apply v7 2 slices_S4x800_o2_0_S1x800 2 rfl n

theorem pay18_apply (v7 : FVec Ideal S4x800 .f32) (n : Fin 800) :
    (k0_pay18 v7 : S1x800.Idx → EReal) (ix2 (0 : Fin 1) n) = tgtCol v7 n 3 :=
  tgtRow_apply v7 3 slices_S4x800_o3_0_S1x800 3 rfl n

/-- The query box's area. -/
theorem pay19_apply (v3 : FVec Ideal S512x4 .f32) (p : Fin 512) :
    (k0_pay19 v3 : S512x1.Idx → EReal) (ix2 p (0 : Fin 1)) = Cert.MatchCost.area (Cert.MatchCost.corners (boxRow v3 p)) := by
  show ((k0_pay13 v3 : S512x1.Idx → EReal) (ix2 p (0 : Fin 1)) - (k0_pay11 v3 : S512x1.Idx → EReal) (ix2 p (0 : Fin 1)))
      * ((k0_pay14 v3 : S512x1.Idx → EReal) (ix2 p (0 : Fin 1)) - (k0_pay12 v3 : S512x1.Idx → EReal) (ix2 p (0 : Fin 1))) = _
  rw [pay11_apply, pay12_apply, pay13_apply, pay14_apply]
  rfl

/-- The target box's area. -/
theorem pay20_apply (v7 : FVec Ideal S4x800 .f32) (n : Fin 800) :
    (k0_pay20 v7 : S1x800.Idx → EReal) (ix2 (0 : Fin 1) n) = Cert.MatchCost.area (tgtCol v7 n) := by
  show ((k0_pay17 v7 : S1x800.Idx → EReal) (ix2 (0 : Fin 1) n) - (k0_pay15 v7 : S1x800.Idx → EReal) (ix2 (0 : Fin 1) n))
      * ((k0_pay18 v7 : S1x800.Idx → EReal) (ix2 (0 : Fin 1) n) - (k0_pay16 v7 : S1x800.Idx → EReal) (ix2 (0 : Fin 1) n)) = _
  rw [pay15_apply, pay16_apply, pay17_apply, pay18_apply]
  rfl

/-- The smaller of the two right edges. -/
theorem pay21_apply (v3 : FVec Ideal S512x4 .f32) (v7 : FVec Ideal S4x800 .f32) (p : Fin 512) (n : Fin 800) :
    (k0_pay21 v3 v7 : S512x800.Idx → EReal) (ix2 p n) = min (Cert.MatchCost.corners (boxRow v3 p) 2) (tgtCol v7 n 2) := by
  show min (broadcastTo S512x800 (k0_pay13 v3) broadcasts_S512x1_S512x800 (ix2 p n))
      (broadcastTo S512x800 (k0_pay17 v7) broadcasts_S1x800_S512x800 (ix2 p n)) = _
  rw [broadcastTo_a1_ab_apply, broadcastTo_1b_ab_apply, pay13_apply, pay17_apply]

/-- The larger of the two left edges. -/
theorem pay22_apply (v3 : FVec Ideal S512x4 .f32) (v7 : FVec Ideal S4x800 .f32) (p : Fin 512) (n : Fin 800) :
    (k0_pay22 v3 v7 : S512x800.Idx → EReal) (ix2 p n) = max (Cert.MatchCost.corners (boxRow v3 p) 0) (tgtCol v7 n 0) := by
  show max (broadcastTo S512x800 (k0_pay11 v3) broadcasts_S512x1_S512x800 (ix2 p n))
      (broadcastTo S512x800 (k0_pay15 v7) broadcasts_S1x800_S512x800 (ix2 p n)) = _
  rw [broadcastTo_a1_ab_apply, broadcastTo_1b_ab_apply, pay11_apply, pay15_apply]

/-! ## The overlap term and the final cost -/

/-- The generalized IoU from the pieces the body holds: the four corners of each box, the two areas, and the
    x-axis pair min(x1, tx1), max(x0, tx0). -/
def giouAt (x0 y0 x1 y1 tx0 ty0 tx1 ty1 ap aq mn mx : EReal) : EReal :=
  let inter := max (mn - mx) Cert.MatchCost.zero * max (min y1 ty1 - max y0 ty0) Cert.MatchCost.zero
  let union := ap + aq - inter
  let hull := max (max x1 tx1 - min x0 tx0) Cert.MatchCost.zero * max (max y1 ty1 - min y0 ty0) Cert.MatchCost.zero
  Ideal.div inter (union + Cert.MatchCost.eps) - Ideal.div (hull - union) (hull + Cert.MatchCost.eps)

/-- On the corners, areas and x-axis pair of two boxes it is their generalized IoU. -/
theorem giouAt_eq (c q : Fin 4 → EReal) :
    giouAt (c 0) (c 1) (c 2) (c 3) (q 0) (q 1) (q 2) (q 3) (Cert.MatchCost.area c) (Cert.MatchCost.area q)
      (min (c 2) (q 2)) (max (c 0) (q 0)) = Cert.MatchCost.giou c q := rfl

/-- The last value: the accumulated cost less twice the overlap term, with a unit axis added. -/
theorem pay23_apply (v60 : FVec Ideal S512x800 .f32) (v67 v70 v73 v76 : FVec Ideal S512x1 .f32)
    (v77 v78 v79 v80 : FVec Ideal S1x800 .f32) (v83 : FVec Ideal S512x1 .f32) (v86 : FVec Ideal S1x800 .f32)
    (v89 v92 : FVec Ideal S512x800 .f32) (p : Fin 512) (n : Fin 800) :
    (k0_pay23 v60 v67 v70 v73 v76 v77 v78 v79 v80 v83 v86 v89 v92 : S1x512x800.Idx → EReal) (ix3 (0 : Fin 1) p n)
      = v60 (ix2 p n) - Cert.MatchCost.two * giouAt (v67 (ix2 p (0 : Fin 1))) (v70 (ix2 p (0 : Fin 1))) (v73 (ix2 p (0 : Fin 1)))
          (v76 (ix2 p (0 : Fin 1))) (v77 (ix2 (0 : Fin 1) n)) (v78 (ix2 (0 : Fin 1) n)) (v79 (ix2 (0 : Fin 1) n))
          (v80 (ix2 (0 : Fin 1) n)) (v83 (ix2 p (0 : Fin 1))) (v86 (ix2 (0 : Fin 1) n)) (v89 (ix2 p n)) (v92 (ix2 p n)) := by
  unfold k0_pay23
  refine (shapeCast_ab_1ab_apply _ _ (0 : Fin 1) p n).trans ?_
  simp only [subf_apply, addf_apply, mulf_apply, divf_apply, maximumf_apply, minimumf_apply, broadcast_apply,
    broadcastTo_a1_ab_apply, broadcastTo_1b_ab_apply]
  rfl

/-- Entry (p, n) of the tile as a function of the five loaded values. -/
theorem tile_apply (v0 : Vec Ideal S1x512x256 .f32) (v2 : Vec Ideal S1x512x4 .f32) (v4 v6 : Vec Ideal S4x800 .f32)
    (v8 : Vec Ideal S256x800 .bf16) (p : Fin 512) (n : Fin 800) :
    (tile (F := Ideal) v0 v2 v4 v6 v8 : S1x512x800.Idx → EReal) (ix3 (0 : Fin 1) p n)
      = Cert.MatchCost.costAcc (fun k => (v0 : S1x512x256.Idx → EReal) (ix3 (0 : Fin 1) p k)) (fun a => (v2 : S1x512x4.Idx → EReal) (ix3 (0 : Fin 1) p a))
          (fun a => (v4 : S4x800.Idx → EReal) (ix2 a n)) (fun a => (v6 : S4x800.Idx → EReal) (ix2 a n)) (fun k => (v8 : S256x800.Idx → EReal) (ix2 k n)) := by
  have hrow : boxRow (k0_pay1 (F := Ideal) v2) p = fun a => (v2 : S1x512x4.Idx → EReal) (ix3 (0 : Fin 1) p a) :=
    funext fun a => pay1_apply v2 p a
  unfold tile
  rw [pay23_apply, pay6_apply, pay4_apply, pay5_apply, pay11_apply, pay12_apply, pay13_apply, pay14_apply,
    pay15_apply, pay16_apply, pay17_apply, pay18_apply, pay19_apply, pay20_apply, pay21_apply, pay22_apply,
    giouAt_eq, hrow, pay1_apply, pay1_apply, pay2_eq, pay3_eq]
  rfl

/-- Entry (p, n) of what the output's buffer holds after the body. -/
theorem outBlk_apply (x0 : Vec Ideal S1x512x256 .f32) (x1 : Vec Ideal S1x512x4 .f32) (x2 x3 : Vec Ideal S4x800 .f32)
    (x4 : Vec Ideal S256x800 .bf16) (p : Fin 512) (n : Fin 800) :
    (outBlk (F := Ideal) x0 x1 x2 x3 x4 : S1x512x800.Idx → EReal) (ix3 (0 : Fin 1) p n)
      = Cert.MatchCost.costAcc (fun k => (x0 : S1x512x256.Idx → EReal) (ix3 (0 : Fin 1) p k)) (fun a => (x1 : S1x512x4.Idx → EReal) (ix3 (0 : Fin 1) p a))
          (fun a => (x2 : S4x800.Idx → EReal) (ix2 a n)) (fun a => (x3 : S4x800.Idx → EReal) (ix2 a n)) (fun k => (x4 : S256x800.Idx → EReal) (ix2 k n)) := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold outBlk
  rw [View.canon_unit_zero hz3]
  simp only [View.ld_unit_zero (S := S1x512x256) hz3, View.ld_unit_zero (S := S1x512x4) hz3,
    View.ld_unit_zero (S := S4x800) hz2, View.ld_unit_zero (S := S256x800) hz2]
  exact tile_apply x0 x1 x2 x3 x4 p n

end Cert.KernelIdeal.Hand

end
-- ==== Proof.HostIdeal.lean ====
/-
  What the host operations before the region leave in the three arrays the kernel stages whole: the
  target boxes transposed; their corner form, one coordinate per row; and the class indicator table,
  entry (k, n) one where target n's label word is k and zero elsewhere.
-/
import proofs.«410247_j17300128268908_2_alg».proof.Proof.EntryIdeal
import proofs.«410247_j17300128268908_2_alg».proof.Proof.Whole
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The first staged array is the transpose of the target boxes as launched. -/
theorem V_tgt_eq (c : Dev nD) :
    (V m c main_v7 : S4x800.Idx → EReal)
      = transpose S4x800 [1, 0] (m ((c : Thread nD τ).loc main_arg3) : S800x4.Idx → EReal) transposes_S800x4_S4x800_1_0 := by
  dsimp only [V, hostOps0]; after_results

/-- The transposed target boxes: entry (a, n) is coordinate a of target n. -/
theorem V_tgt (c : Dev nD) (a : Fin 4) (n : Fin 800) :
    (V m c main_v7 : S4x800.Idx → EReal) (ix2 a n) = (m ((c : Thread nD τ).loc main_arg3) : S800x4.Idx → EReal) (ix2 n a) := by
  rw [V_tgt_eq m c]
  refine transpose_apply _ _ _ _ (ix2 n a) ?_
  intro b
  match b with
  | ⟨0, _⟩ => rfl
  | ⟨1, _⟩ => rfl

/-- Row `k` of the transposed boxes as a vector over the targets: the slice at row offset `k`, its unit axis dropped. -/
def hostRow (T : S800x4.Idx → EReal) (off : Fin 2 → ℕ) (h : S4x800.Slices off S1x800) : S800.Idx → EReal :=
  shapeCast (s := S1x800) S800
    (extractStridedSlice (s := S4x800) S1x800 off (transpose (s := S800x4) S4x800 [1, 0] T transposes_S800x4_S4x800_1_0) h)
    shapeCasts_S1x800_S800

/-- The constant one half at every target. -/
def hostHalf : S800.Idx → EReal :=
  broadcastInDim (s := S_) S800 ![] bcast_S_S800 (constant (F := Ideal) S_ .f32 0x3F000000#32)

/-- A vector over the targets as a one-row matrix. -/
def hostAsRow (v : S800.Idx → EReal) : S1x800.Idx → EReal := broadcastInDim (s := S800) S1x800 ![1] bcast_S800_S1x800_1 v

/-- Row `k` reads, at target `n`, coordinate `k` of target `n`'s box. -/
theorem hostRow_apply (T : S800x4.Idx → EReal) (k : ℕ) (hk : k < 4) (h : S4x800.Slices ![k, 0] S1x800) (n : Fin 800) :
    hostRow T ![k, 0] h (ix1 n) = T (ix2 n (⟨k, hk⟩ : Fin 4)) := by
  unfold hostRow
  refine (shapeCast_1a_a_apply _ _ n).trans ?_
  refine (slice2_axis0_apply k _ h (0 : Fin 1) n (⟨k, hk⟩ : Fin 4) (by simp)).trans ?_
  exact transpose_ix2_apply T _ (⟨k, hk⟩ : Fin 4) n

/-- The constant vector reads one half everywhere. -/
theorem hostHalf_apply (n : Fin 800) : hostHalf (ix1 n) = Cert.MatchCost.half := by
  rfl

/-- The one-row matrix reads, at column `n`, the vector at `n`. -/
theorem hostAsRow_apply (v : S800.Idx → EReal) (n : Fin 800) : hostAsRow v (ix2 (0 : Fin 1) n) = v (ix1 n) := by
  unfold hostAsRow
  refine broadcastInDim_apply _ _ _ _ (ix1 n) ?_
  intro a
  match a with
  | ⟨0, _⟩ => rfl

/-- The second staged array is the four corner rows stacked. -/
theorem V_corners_eq (c : Dev nD) :
    (V m c main_v32 : S4x800.Idx → EReal)
      = concatenate S4x800 0
          [⟨S1x800, hostAsRow (subf (F := Ideal) (φ := .f32) (hostRow (m ((c : Thread nD τ).loc main_arg3)) ![0, 0] slices_S4x800_S1x800_0_0)
              (mulf (F := Ideal) (φ := .f32) hostHalf (hostRow (m ((c : Thread nD τ).loc main_arg3)) ![2, 0] slices_S4x800_S1x800_2_0)))⟩,
           ⟨S1x800, hostAsRow (subf (F := Ideal) (φ := .f32) (hostRow (m ((c : Thread nD τ).loc main_arg3)) ![1, 0] slices_S4x800_S1x800_1_0)
              (mulf (F := Ideal) (φ := .f32) hostHalf (hostRow (m ((c : Thread nD τ).loc main_arg3)) ![3, 0] slices_S4x800_S1x800_3_0)))⟩,
           ⟨S1x800, hostAsRow (addf (F := Ideal) (φ := .f32) (hostRow (m ((c : Thread nD τ).loc main_arg3)) ![0, 0] slices_S4x800_S1x800_0_0)
              (mulf (F := Ideal) (φ := .f32) hostHalf (hostRow (m ((c : Thread nD τ).loc main_arg3)) ![2, 0] slices_S4x800_S1x800_2_0)))⟩,
           ⟨S1x800, hostAsRow (addf (F := Ideal) (φ := .f32) (hostRow (m ((c : Thread nD τ).loc main_arg3)) ![1, 0] slices_S4x800_S1x800_1_0)
              (mulf (F := Ideal) (φ := .f32) hostHalf (hostRow (m ((c : Thread nD τ).loc main_arg3)) ![3, 0] slices_S4x800_S1x800_3_0)))⟩]
          concatenates_S1x800_S1x800_S1x800_S1x800_S4x800_d0 := by
  dsimp only [V, hostOps0]
  simp (disch := decide) only [StableHlo.after_cons, StableHlo.after_nil,
      StableHlo.nullary_result', StableHlo.unary_result', StableHlo.binary_result', StableHlo.reshape_result', StableHlo.nary4_result',
      StableHlo.nullary_result_ne', StableHlo.unary_result_ne', StableHlo.binary_result_ne', StableHlo.reshape_result_ne',
      StableHlo.nary_result_ne']
  rfl

/-- The corner form: entry (a, n) is corner coordinate a of target n's box. -/
theorem V_corners (c : Dev nD) (a : Fin 4) (n : Fin 800) :
    (V m c main_v32 : S4x800.Idx → EReal) (ix2 a n)
      = Cert.MatchCost.corners (fun a' => (m ((c : Thread nD τ).loc main_arg3) : S800x4.Idx → EReal) (ix2 n a')) a := by
  rw [V_corners_eq m c]
  match a with
  | ⟨0, _⟩ =>
    refine (concatenate_apply_piece (t := S4x800) 0 _ _ (ix2 (⟨0, by omega⟩ : Fin 4) n) 0 (by simp) S1x800 _ rfl rfl 0 rfl
      (ix2 (0 : Fin 1) n) ?_ rfl).trans ?_
    · intro b hb
      match b with
      | ⟨0, _⟩ => exact absurd rfl hb
      | ⟨1, _⟩ => rfl
    rw [hostAsRow_apply, subf_apply, mulf_apply, hostRow_apply _ 0 (by omega), hostRow_apply _ 2 (by omega), hostHalf_apply]
    rfl
  | ⟨1, _⟩ =>
    refine (concatenate_apply_piece (t := S4x800) 0 _ _ (ix2 (⟨1, by omega⟩ : Fin 4) n) 1 (by simp) S1x800 _ rfl rfl 1 rfl
      (ix2 (0 : Fin 1) n) ?_ rfl).trans ?_
    · intro b hb
      match b with
      | ⟨0, _⟩ => exact absurd rfl hb
      | ⟨1, _⟩ => rfl
    rw [hostAsRow_apply, subf_apply, mulf_apply, hostRow_apply _ 1 (by omega), hostRow_apply _ 3 (by omega), hostHalf_apply]
    rfl
  | ⟨2, _⟩ =>
    refine (concatenate_apply_piece (t := S4x800) 0 _ _ (ix2 (⟨2, by omega⟩ : Fin 4) n) 2 (by simp) S1x800 _ rfl rfl 2 rfl
      (ix2 (0 : Fin 1) n) ?_ rfl).trans ?_
    · intro b hb
      match b with
      | ⟨0, _⟩ => exact absurd rfl hb
      | ⟨1, _⟩ => rfl
    rw [hostAsRow_apply, addf_apply, mulf_apply, hostRow_apply _ 0 (by omega), hostRow_apply _ 2 (by omega), hostHalf_apply]
    rfl
  | ⟨3, _⟩ =>
    refine (concatenate_apply_piece (t := S4x800) 0 _ _ (ix2 (⟨3, by omega⟩ : Fin 4) n) 3 (by simp) S1x800 _ rfl rfl 3 rfl
      (ix2 (0 : Fin 1) n) ?_ rfl).trans ?_
    · intro b hb
      match b with
      | ⟨0, _⟩ => exact absurd rfl hb
      | ⟨1, _⟩ => rfl
    rw [hostAsRow_apply, addf_apply, mulf_apply, hostRow_apply _ 1 (by omega), hostRow_apply _ 3 (by omega), hostHalf_apply]
    rfl

/-- The equality test of two words, read as a number: one when they are equal, zero otherwise. -/
theorem host_cmpi_eq_toNat (x y : BitVec 32) : (IntOp.cmpi .eq x y).toNat = if x = y then 1 else 0 := by
  by_cases hxy : x = y
  · simp [IntOp.cmpi, hxy]
  · simp [IntOp.cmpi, hxy]

/-- For a class below 256 and a label word below 256, the class's word is the label word exactly when the class is the
    label's. -/
theorem host_ofNat_eq_iff_labelOf (k : Fin 256) (w : BitVec 32) (h : w.toNat < 256) :
    BitVec.ofNat 32 k.val = w ↔ k = Cert.MatchCost.labelOf w := by
  have hk : k.val < 256 := k.isLt
  constructor
  · intro e
    apply Fin.ext
    rw [Cert.MatchCost.labelOf_val h, ← e, BitVec.toNat_ofNat]
    omega
  · intro e
    apply BitVec.eq_of_toNat_eq
    have e' : k.val = w.toNat := by rw [e, Cert.MatchCost.labelOf_val h]
    rw [BitVec.toNat_ofNat, e']
    omega

/-- The third staged array: the equality test of the class counter against the label words, as a number. -/
theorem V_table_eq (c : Dev nD) :
    (V m c main_v6 : S256x800.Idx → EReal)
      = uitofp (F := Ideal) (s := S256x800) (w := 1) .bf16 (cmpi (s := S256x800) (w := 32) .eq
          (broadcastInDim (s := S256x1) S256x800 ![0, 1] bcast_S256x1_S256x800_0_1
            (broadcastInDim (s := S256) S256x1 ![0] bcast_S256_S256x1_0 (iotaInDim S256 32 0)))
          (broadcastInDim (s := S1x800) S256x800 ![0, 1] bcast_S1x800_S256x800_0_1
            (broadcastInDim (s := S800) S1x800 ![1] bcast_S800_S1x800_1
              (m ((c : Thread nD τ).loc main_arg2) : S800.Idx → BitVec 32)))) := by
  dsimp only [V, hostOps0]; after_results

/-- The indicator table, for a label word below 256: entry (k, n) is one where target n's class is k, else zero. -/
theorem V_table (c : Dev nD) (k : Fin 256) (n : Fin 800)
    (h : ((m ((c : Thread nD τ).loc main_arg2) : S800.Idx → BitVec 32) (ix1 n)).toNat < 256) :
    (V m c main_v6 : S256x800.Idx → EReal) (ix2 k n)
      = Cert.MatchCost.indicator (Cert.MatchCost.labelOf ((m ((c : Thread nD τ).loc main_arg2) : S800.Idx → BitVec 32) (ix1 n))) k := by
  rw [V_table_eq m c]
  -- the counter's entry is the class's word
  have hA : broadcastInDim (s := S256x1) S256x800 ![0, 1] bcast_S256x1_S256x800_0_1
      (broadcastInDim (s := S256) S256x1 ![0] bcast_S256_S256x1_0 (iotaInDim S256 32 0)) (ix2 k n) = BitVec.ofNat 32 k.val := by
    refine (broadcastInDim_apply _ _ _ (ix2 k n) (ix2 k (0 : Fin 1)) ?_).trans ?_
    · intro a
      match a with
      | ⟨0, _⟩ => rfl
      | ⟨1, _⟩ => rfl
    refine (broadcastInDim_apply _ _ _ (ix2 k (0 : Fin 1)) (ix1 k) ?_).trans ?_
    · intro a
      match a with
      | ⟨0, _⟩ => rfl
    rfl
  -- the labels' entry is target n's label word
  have hB : broadcastInDim (s := S1x800) S256x800 ![0, 1] bcast_S1x800_S256x800_0_1
      (broadcastInDim (s := S800) S1x800 ![1] bcast_S800_S1x800_1
        (m ((c : Thread nD τ).loc main_arg2) : S800.Idx → BitVec 32)) (ix2 k n)
      = (m ((c : Thread nD τ).loc main_arg2) : S800.Idx → BitVec 32) (ix1 n) := by
    refine (broadcastInDim_apply _ _ _ (ix2 k n) (ix2 (0 : Fin 1) n) ?_).trans ?_
    · intro a
      match a with
      | ⟨0, _⟩ => rfl
      | ⟨1, _⟩ => rfl
    refine broadcastInDim_apply _ _ _ (ix2 (0 : Fin 1) n) (ix1 n) ?_
    intro a
    match a with
    | ⟨0, _⟩ => rfl
  generalize (m ((c : Thread nD τ).loc main_arg2) : S800.Idx → BitVec 32) (ix1 n) = w at h hB ⊢
  show (((IntOp.cmpi .eq
      (broadcastInDim (s := S256x1) S256x800 ![0, 1] bcast_S256x1_S256x800_0_1
        (broadcastInDim (s := S256) S256x1 ![0] bcast_S256_S256x1_0 (iotaInDim S256 32 0)) (ix2 k n))
      (broadcastInDim (s := S1x800) S256x800 ![0, 1] bcast_S1x800_S256x800_0_1
        (broadcastInDim (s := S800) S1x800 ![1] bcast_S800_S1x800_1
          (m ((c : Thread nD τ).loc main_arg2) : S800.Idx → BitVec 32)) (ix2 k n))).toNat : ℝ) : EReal) = _
  rw [hA, hB, host_cmpi_eq_toNat]
  unfold Cert.MatchCost.indicator
  by_cases e : BitVec.ofNat 32 k.val = w
  · rw [if_pos e, if_pos ((host_ofNat_eq_iff_labelOf k w h).mp e)]
    norm_num
  · rw [if_neg e, if_neg (fun e' => e ((host_ofNat_eq_iff_labelOf k w h).mpr e'))]
    norm_num

end Cert.KernelIdeal.Hand

end
-- ==== Proof.CutIdeal.lean ====
/-
  The tile the body computes, cut to the rows inside the array, is the point's block of the cost array —
  whatever the staging buffers hold past the array's end. Row p of the tile depends on row p of the
  logits and boxes buffers only, and for a row inside the array those hold the arrays' rows; the three
  buffers staged whole hold the transposed target boxes, their corner form and the indicator table; and
  the accumulated arrangement of the cost agrees with the weighted sum the cost array is defined by.
-/
import proofs.«410247_j17300128268908_2_alg».proof.Proof.DataIdeal
import proofs.«410247_j17300128268908_2_alg».proof.Proof.TileIdeal
import proofs.«410247_j17300128268908_2_alg».proof.Proof.HostIdeal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

open Idealize.ShloMosaic.Pipeline (Dat RDat Cfg Window BodyObligation cellOf)

variable (m : (ℓ : Loc nD τ sig) → Buf (Elt Ideal) ℓ)

/-- Filling read at an index of the part the transfer moves. -/
theorem cut_fill_of_lt {G : Pipeline.Grid} (w : Window sig G) {α : Type} (i : G.Coords) (d : w.block.Idx → α) (g : (w.xblock i).Idx → α)
    (j : w.block.Idx) (h : ∀ a, (j a).val < w.xsize i a) : w.fill i d g j = g fun a => ⟨(j a).val, h a⟩ := by
  unfold Window.fill; rw [dif_pos ((w.moved_iff i j).mpr h)]

/-- The printed index maps and cuts, decided once over the grid: the query tile's three windows sit at block
    (image, tile, 0) and are cut alike on the row axis only; the three whole arrays sit at block (0, 0). -/
theorem cut_pts : ∀ t : Fin grid0.N,
    (win0_5.xsize (grid0.coords t) 0 = 1 ∧ win0_5.xsize (grid0.coords t) 1 ≤ 512 ∧ win0_5.xsize (grid0.coords t) 2 = 800
      ∧ win0_5.index t 0 < 16 ∧ win0_5.index t 1 * 512 + win0_5.xsize (grid0.coords t) 1 ≤ 900 ∧ win0_5.index t 2 = 0)
    ∧ (win0_0.xsize (grid0.coords t) 0 = 1 ∧ win0_0.xsize (grid0.coords t) 1 = win0_5.xsize (grid0.coords t) 1 ∧ win0_0.xsize (grid0.coords t) 2 = 256
      ∧ win0_0.index t 0 = win0_5.index t 0 ∧ win0_0.index t 1 = win0_5.index t 1 ∧ win0_0.index t 2 = 0)
    ∧ (win0_1.xsize (grid0.coords t) 0 = 1 ∧ win0_1.xsize (grid0.coords t) 1 = win0_5.xsize (grid0.coords t) 1 ∧ win0_1.xsize (grid0.coords t) 2 = 4
      ∧ win0_1.index t 0 = win0_5.index t 0 ∧ win0_1.index t 1 = win0_5.index t 1 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) := by
  decide +kernel

/-- A block of the logits buffer's window, read at an index: the logits array there. -/
theorem cut_read0 (c : Dev nD) (t : Fin cfg0.N) (j : (win0_0.xblock (grid0.coords t)).Idx) :
    iblk m c 0 t j = (m ((c : Thread nD τ).loc main_arg0) : S16x900x256.Idx → EReal) ((win0_0.rect t).emb j) := by
  rw [← V_arg m c main_arg0 (Or.inl rfl)]; rfl

/-- A block of the boxes buffer's window, read at an index: the boxes array there. -/
theorem cut_read1 (c : Dev nD) (t : Fin cfg0.N) (j : (win0_1.xblock (grid0.coords t)).Idx) :
    iblk m c 1 t j = (m ((c : Thread nD τ).loc main_arg1) : S16x900x4.Idx → EReal) ((win0_1.rect t).emb j) := by
  rw [← V_arg m c main_arg1 (Or.inr (Or.inl rfl))]; rfl

/-- Row `p` of the logits buffer, for a row inside the array, is row `index·512 + p` of the image's logits. -/
theorem cut_arg0_at (c : Dev nD) (t : Fin cfg0.N) (d0 : S1x512x256.Idx → EReal) (p : Fin 512) (k : Fin 256) (b : Fin 16) (r : Fin 900)
    (hp : p.val < win0_5.xsize (grid0.coords t) 1) (hb : b.val = win0_5.index t 0) (hr : r.val = win0_5.index t 1 * 512 + p.val) :
    win0_0.fill (grid0.coords t) d0 (iblk m c 0 t) (ix3 (0 : Fin 1) p k)
      = (m ((c : Thread nD τ).loc main_arg0) : S16x900x256.Idx → EReal) (ix3 b r k) := by
  obtain ⟨-, ⟨e0, e1, e2, i0, i1, i2⟩, -, -, -, -⟩ := cut_pts t
  have hk : k.val < 256 := k.isLt
  have hlt : ∀ a, ((ix3 (0 : Fin 1) p k : S1x512x256.Idx) a).val < win0_0.xsize (grid0.coords t) a := fun a =>
    match a with
    | ⟨0, _⟩ => by show 0 < win0_0.xsize (grid0.coords t) 0; omega
    | ⟨1, _⟩ => by show p.val < win0_0.xsize (grid0.coords t) 1; omega
    | ⟨2, _⟩ => by show k.val < win0_0.xsize (grid0.coords t) 2; omega
  refine (cut_fill_of_lt win0_0 (grid0.coords t) d0 (iblk m c 0 t) (ix3 (0 : Fin 1) p k) hlt).trans ?_
  rw [cut_read0]
  congr 1
  funext a
  match a with
  | ⟨0, _⟩ => exact Fin.ext (by show win0_0.index t 0 * 1 + 1 * 0 = b.val; omega)
  | ⟨1, _⟩ => exact Fin.ext (by show win0_0.index t 1 * 512 + 1 * p.val = r.val; omega)
  | ⟨2, _⟩ => exact Fin.ext (by show win0_0.index t 2 * 256 + 1 * k.val = k.val; omega)

/-- Row `p` of the boxes buffer, for a row inside the array, is row `index·512 + p` of the image's boxes. -/
theorem cut_arg1_at (c : Dev nD) (t : Fin cfg0.N) (d1 : S1x512x4.Idx → EReal) (p : Fin 512) (k : Fin 4) (b : Fin 16) (r : Fin 900)
    (hp : p.val < win0_5.xsize (grid0.coords t) 1) (hb : b.val = win0_5.index t 0) (hr : r.val = win0_5.index t 1 * 512 + p.val) :
    win0_1.fill (grid0.coords t) d1 (iblk m c 1 t) (ix3 (0 : Fin 1) p k)
      = (m ((c : Thread nD τ).loc main_arg1) : S16x900x4.Idx → EReal) (ix3 b r k) := by
  obtain ⟨-, -, ⟨e0, e1, e2, i0, i1, i2⟩, -, -, -⟩ := cut_pts t
  have hk : k.val < 4 := k.isLt
  have hlt : ∀ a, ((ix3 (0 : Fin 1) p k : S1x512x4.Idx) a).val < win0_1.xsize (grid0.coords t) a := fun a =>
    match a with
    | ⟨0, _⟩ => by show 0 < win0_1.xsize (grid0.coords t) 0; omega
    | ⟨1, _⟩ => by show p.val < win0_1.xsize (grid0.coords t) 1; omega
    | ⟨2, _⟩ => by show k.val < win0_1.xsize (grid0.coords t) 2; omega
  refine (cut_fill_of_lt win0_1 (grid0.coords t) d1 (iblk m c 1 t) (ix3 (0 : Fin 1) p k) hlt).trans ?_
  rw [cut_read1]
  congr 1
  funext a
  match a with
  | ⟨0, _⟩ => exact Fin.ext (by show win0_1.index t 0 * 1 + 1 * 0 = b.val; omega)
  | ⟨1, _⟩ => exact Fin.ext (by show win0_1.index t 1 * 512 + 1 * p.val = r.val; omega)
  | ⟨2, _⟩ => exact Fin.ext (by show win0_1.index t 2 * 4 + 1 * k.val = k.val; omega)

/-- The three buffers staged whole hold their arrays as the region finds them. -/
theorem cut_read2 (c : Dev nD) (t : Fin cfg0.N) (a : Fin 4) (n : Fin 800) :
    (iblk m c 2 t : S4x800.Idx → EReal) (ix2 a n) = (V m c main_v7 : S4x800.Idx → EReal) (ix2 a n) := by
  obtain ⟨-, -, -, ⟨i0, i1⟩, -, -⟩ := cut_pts t
  have he : (win0_2.rect t).emb (ix2 a n) = ix2 a n := by
    funext a'
    match a' with
    | ⟨0, _⟩ => exact Fin.ext (by show win0_2.index t 0 * 4 + 1 * a.val = a.val; omega)
    | ⟨1, _⟩ => exact Fin.ext (by show win0_2.index t 1 * 800 + 1 * n.val = n.val; omega)
  show (V m c main_v7 : S4x800.Idx → EReal) ((win0_2.rect t).emb (ix2 a n)) = _
  rw [he]

theorem cut_read3 (c : Dev nD) (t : Fin cfg0.N) (a : Fin 4) (n : Fin 800) :
    (iblk m c 3 t : S4x800.Idx → EReal) (ix2 a n) = (V m c main_v32 : S4x800.Idx → EReal) (ix2 a n) := by
  obtain ⟨-, -, -, -, ⟨i0, i1⟩, -⟩ := cut_pts t
  have he : (win0_3.rect t).emb (ix2 a n) = ix2 a n := by
    funext a'
    match a' with
    | ⟨0, _⟩ => exact Fin.ext (by show win0_3.index t 0 * 4 + 1 * a.val = a.val; omega)
    | ⟨1, _⟩ => exact Fin.ext (by show win0_3.index t 1 * 800 + 1 * n.val = n.val; omega)
  show (V m c main_v32 : S4x800.Idx → EReal) ((win0_3.rect t).emb (ix2 a n)) = _
  rw [he]

theorem cut_read4 (c : Dev nD) (t : Fin cfg0.N) (k : Fin 256) (n : Fin 800) :
    (iblk m c 4 t : S256x800.Idx → EReal) (ix2 k n) = (V m c main_v6 : S256x800.Idx → EReal) (ix2 k n) := by
  obtain ⟨-, -, -, -, -, ⟨i0, i1⟩⟩ := cut_pts t
  have he : (win0_4.rect t).emb (ix2 k n) = ix2 k n := by
    funext a'
    match a' with
    | ⟨0, _⟩ => exact Fin.ext (by show win0_4.index t 0 * 256 + 1 * k.val = k.val; omega)
    | ⟨1, _⟩ => exact Fin.ext (by show win0_4.index t 1 * 800 + 1 * n.val = n.val; omega)
  show (V m c main_v6 : S256x800.Idx → EReal) ((win0_4.rect t).emb (ix2 k n)) = _
  rw [he]

/-- The cost array at an entry, in the accumulated arrangement. -/
theorem cut_G_at (c : Dev nD) (b : Fin 16) (r : Fin 900) (n : Fin 800) :
    (G m c : S16x900x800.Idx → EReal) (ix3 b r n)
      = Cert.MatchCost.costAcc (fun k => (m ((c : Thread nD τ).loc main_arg0) : S16x900x256.Idx → EReal) (ix3 b r k))
          (fun a => (m ((c : Thread nD τ).loc main_arg1) : S16x900x4.Idx → EReal) (ix3 b r a))
          (fun a => (m ((c : Thread nD τ).loc main_arg3) : S800x4.Idx → EReal) (ix2 n a))
          (Cert.MatchCost.corners fun a => (m ((c : Thread nD τ).loc main_arg3) : S800x4.Idx → EReal) (ix2 n a))
          (Cert.MatchCost.indicator (Cert.MatchCost.labelOf ((m ((c : Thread nD τ).loc main_arg2) : S800.Idx → BitVec 32) (ix1 n)))) := by
  rw [Cert.MatchCost.costAcc_eq_costSum]; rfl

/-- Entry (p, n) of the tile, for a row `p` inside the array, is entry (image, index·512 + p, n) of the cost array. -/
theorem cut_tile_at (c : Dev nD) (t : Fin cfg0.N)
    (hlab : ∀ n : Fin 800, ((m ((c : Thread nD τ).loc main_arg2) : S800.Idx → BitVec 32) (ix1 n)).toNat < 256)
    (d0 : S1x512x256.Idx → EReal) (d1 : S1x512x4.Idx → EReal) (p : Fin 512) (n : Fin 800) (b : Fin 16) (r : Fin 900)
    (hp : p.val < win0_5.xsize (grid0.coords t) 1) (hb : b.val = win0_5.index t 0) (hr : r.val = win0_5.index t 1 * 512 + p.val) :
    (outBlk (F := Ideal) (win0_0.fill (grid0.coords t) d0 (iblk m c 0 t)) (win0_1.fill (grid0.coords t) d1 (iblk m c 1 t))
          (iblk m c 2 t) (iblk m c 3 t) (iblk m c 4 t) : S1x512x800.Idx → EReal) (ix3 (0 : Fin 1) p n)
      = (G m c : S16x900x800.Idx → EReal) (ix3 b r n) := by
  have a0 : (fun k => (win0_0.fill (grid0.coords t) d0 (iblk m c 0 t) : S1x512x256.Idx → EReal) (ix3 (0 : Fin 1) p k))
      = fun k => (m ((c : Thread nD τ).loc main_arg0) : S16x900x256.Idx → EReal) (ix3 b r k) :=
    funext fun k => cut_arg0_at m c t d0 p k b r hp hb hr
  have a1 : (fun a => (win0_1.fill (grid0.coords t) d1 (iblk m c 1 t) : S1x512x4.Idx → EReal) (ix3 (0 : Fin 1) p a))
      = fun a => (m ((c : Thread nD τ).loc main_arg1) : S16x900x4.Idx → EReal) (ix3 b r a) :=
    funext fun a => cut_arg1_at m c t d1 p a b r hp hb hr
  have a2 : (fun a => (iblk m c 2 t : S4x800.Idx → EReal) (ix2 a n))
      = fun a => (m ((c : Thread nD τ).loc main_arg3) : S800x4.Idx → EReal) (ix2 n a) :=
    funext fun a => (cut_read2 m c t a n).trans (V_tgt m c a n)
  have a3 : (fun a => (iblk m c 3 t : S4x800.Idx → EReal) (ix2 a n))
      = Cert.MatchCost.corners fun a => (m ((c : Thread nD τ).loc main_arg3) : S800x4.Idx → EReal) (ix2 n a) :=
    funext fun a => (cut_read3 m c t a n).trans (V_corners m c a n)
  have a4 : (fun k => (iblk m c 4 t : S256x800.Idx → EReal) (ix2 k n))
      = Cert.MatchCost.indicator (Cert.MatchCost.labelOf ((m ((c : Thread nD τ).loc main_arg2) : S800.Idx → BitVec 32) (ix1 n))) :=
    funext fun k => (cut_read4 m c t k n).trans (V_table m c k n (hlab n))
  rw [outBlk_apply, cut_G_at, a0, a1, a2, a3, a4]

/-- The point's block of an array shaped like the cost array, read at an index. -/
theorem cut_read5 (c : Dev nD) (t : Fin cfg0.N) (f : Buf (Elt Ideal) ((c : Thread nD τ).loc main_v33)) (j : (win0_5.xblock (grid0.coords t)).Idx) :
    (win0_5.blk t).view.read (Elt Ideal) f j = f ((win0_5.rect t).emb j) := rfl

/-- The tile at point `t`, on the rows inside the array, is block `t` of the cost array. -/
theorem tile_cut_eq (c : Dev nD) (t : Fin cfg0.N)
    (hlab : ∀ n : Fin 800, ((m ((c : Thread nD τ).loc main_arg2) : S800.Idx → BitVec 32) (ix1 n)).toNat < 256)
    (d0 : S1x512x256.Idx → EReal) (d1 : S1x512x4.Idx → EReal) :
    win0_5.cut (grid0.coords t)
        (outBlk (F := Ideal) (win0_0.fill (grid0.coords t) d0 (iblk m c 0 t)) (win0_1.fill (grid0.coords t) d1 (iblk m c 1 t))
          (iblk m c 2 t) (iblk m c 3 t) (iblk m c 4 t))
      = (win0_5.blk t).view.read (Elt Ideal) (G m c) := by
  funext j
  obtain ⟨⟨h0, h1, h2, hb16, hr900, hi2⟩, -, -, -, -, -⟩ := cut_pts t
  have hj0 : (j 0).val < win0_5.xsize (grid0.coords t) 0 := (j 0).isLt
  have hj1 : (j 1).val < win0_5.xsize (grid0.coords t) 1 := (j 1).isLt
  have hj2 : (j 2).val < win0_5.xsize (grid0.coords t) 2 := (j 2).isLt
  have hx : win0_5.xinj (grid0.coords t) j
      = ix3 (0 : Fin 1) (⟨(j 1).val, by omega⟩ : Fin 512) (⟨(j 2).val, by omega⟩ : Fin 800) := by
    funext a
    match a with
    | ⟨0, _⟩ => exact Fin.ext (by show (j 0).val = 0; omega)
    | ⟨1, _⟩ => rfl
    | ⟨2, _⟩ => rfl
  have he : (win0_5.rect t).emb j
      = ix3 (⟨win0_5.index t 0, hb16⟩ : Fin 16) (⟨win0_5.index t 1 * 512 + (j 1).val, by omega⟩ : Fin 900) (⟨(j 2).val, by omega⟩ : Fin 800) := by
    funext a
    match a with
    | ⟨0, _⟩ => exact Fin.ext (by show win0_5.index t 0 * 1 + 1 * (j 0).val = win0_5.index t 0; omega)
    | ⟨1, _⟩ => exact Fin.ext (by show win0_5.index t 1 * 512 + 1 * (j 1).val = win0_5.index t 1 * 512 + (j 1).val; omega)
    | ⟨2, _⟩ => exact Fin.ext (by show win0_5.index t 2 * 800 + 1 * (j 2).val = (j 2).val; omega)
  rw [cut_read5, he]
  show (outBlk (F := Ideal) (win0_0.fill (grid0.coords t) d0 (iblk m c 0 t)) (win0_1.fill (grid0.coords t) d1 (iblk m c 1 t))
          (iblk m c 2 t) (iblk m c 3 t) (iblk m c 4 t) : S1x512x800.Idx → EReal) (win0_5.xinj (grid0.coords t) j) = _
  rw [hx]
  exact cut_tile_at m c t hlab d0 d1 _ _ _ _ hj1 rfl rfl

end Cert.KernelIdeal.Hand

end
-- ==== Proof.RunIdeal.lean ====
/-
  The run of the idealized kernel program and its result. At every grid point the body finds the query
  tile's logits and boxes just fetched (their rows inside the array; anything past its end), the three
  whole-staged arrays as fetched at the first point, and the output's buffer at anything; it leaves the
  inputs as found and the output's buffer at the tile of costs, whose rows inside the array are the point's
  block of the cost array. The 32 blocks — image b, query rows 0‥511 and 512‥899 — cover the result array,
  so the run ends with the result array at the cost array and the four arguments as launched.
-/
import proofs.«410247_j17300128268908_2_alg».proof.Proof.CutIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the body finds in each window's buffer -/

/-- The result's window is never fetched. -/
theorem fetch0_5 : ∀ t : Fin cfg0.N, (cfg0.win 5).fetch t = false :=
  (by decide +kernel : ∀ t : Fin grid0.N, win0_5.fetch t = false)

/-- The logits buffer, just fetched: the block on the rows inside the array, `d` elsewhere. -/
theorem before_0 (c : Dev nD) (t : Fin cfg0.N) (d) :
    (dats m 0 c).before 0 t d = win0_0.fill (grid0.coords t) d (iblk m c 0 t) := by
  unfold Dat.before; rw [if_pos (fetch0_0 t)]; rfl

/-- The boxes buffer likewise. -/
theorem before_1 (c : Dev nD) (t : Fin cfg0.N) (d) :
    (dats m 0 c).before 1 t d = win0_1.fill (grid0.coords t) d (iblk m c 1 t) := by
  unfold Dat.before; rw [if_pos (fetch0_1 t)]; rfl

/-- The three whole-staged buffers hold their arrays at every point: fetched at the first, kept since. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- The result's buffer holds contents nothing names: it is never fetched and is written back at every point. -/
theorem before_5 (c : Dev nD) (t : Fin cfg0.N) (d) : (dats m 0 c).before 5 t d = d := by
  unfold Dat.before
  rw [if_neg (by rw [fetch0_5 t]; exact Bool.false_ne_true)]
  by_cases h0 : t.val = 0
  · rw [if_pos h0]
  · rw [if_neg h0]; exact if_pos (flush0_5 _)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the cut windows stated on the rows inside the array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

/-- The body at any point. -/
theorem sound_body (c : Dev nD) (t : Fin cfg0.N)
    (hlab : ∀ n : Fin 800, ((m ((c : Thread nD τ).loc main_arg2) : S800.Idx → BitVec 32) (ix1 n)).toNat < 256) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩⟩
  iapply (sound_kernel (F := Ideal) c Set.univ (grid0.coords t) _ _ _ _ _ _ _ _ _ _ _ _
    (win0_0.fill (grid0.coords t) d0 (iblk m c 0 t)) (win0_1.fill (grid0.coords t) d1 (iblk m c 1 t))
    (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  iexists _
  rw [← tile_cut_eq m c t hlab d0 d1, Window.fill_cut]
  iexact H5

/-- The library's body obligation, at every point. -/
theorem body_obligation (c : Dev nD)
    (hlab : ∀ n : Fin 800, ((m ((c : Thread nD τ).loc main_arg2) : S800.Idx → BitVec 32) (ix1 n)).toNat < 256) :
    BodyObligationLoose (dats m 0 c) (defs₀ (F := Ideal)) Variants.none () Set.univ := fun t => by
  rw [bigSep_W0, bigSep_W0]
  exact sound_body m c t hlab

/-! ## The run -/

set_option backward.isDefEq.respectTransparency.types false in
/-- Every weakly fair execution of @main terminates with every array of the pipeline at what the proof data
    compute and every other unscoped buffer as the region found it. -/
theorem run_main (hlab : ∀ (c : Dev nD) (n : Fin 800), ((m ((c : Thread nD τ).loc main_arg2) : S800.Idx → BitVec 32) (ix1 n)).toNat < 256) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c (hlab c)) (hshare := fun c => (dats m 0 c).share_full fun _ => rfl)
    (howed := fun _ _ => rfl) (V := V m) (hmain := hmain m Variants.none) (hA := A_eq m) (hΦ := fun _ _ => rfl)

/-! ## The result array -/

/-- What point `t` writes back is block `t` of the cost array. -/
theorem flushed_eq (c : Dev nD) (t : Fin cfg0.N) :
    (dats m 0 c).flushed 5 t = ((cfg0.win 5).blk t).view.read (Elt Ideal) (G m c) := by
  show (cfg0.win 5).cut (cfg0.grid.coords t) ((dats m 0 c).after 5 t) = _
  rw [after_5]; exact win0_5.cut_fill _ _ _

/-- The blocks' places, decided over the grid: point `t` is image `t / 2`, query rows from `(t % 2) · 512`,
    512 of them in the first tile and 388 in the second, all 800 targets. -/
theorem blk_facts : ∀ t : Fin grid0.N,
    win0_5.index t 0 = t.val / 2 ∧ win0_5.index t 1 = t.val % 2 ∧ win0_5.index t 2 = 0
    ∧ win0_5.xsize (grid0.coords t) 0 = 1 ∧ win0_5.xsize (grid0.coords t) 1 = (if t.val % 2 = 0 then 512 else 388)
    ∧ win0_5.xsize (grid0.coords t) 2 = 800 := by decide +kernel

/-- An index of the result array lies in point `t`'s block iff each coordinate lies in the block's range. -/
theorem mem_blk (t : Fin cfg0.N) (i : S16x900x800.Idx) :
    i ∈ (win0_5.blk t).view.set ↔ ∀ a, win0_5.index t a * win0_5.size a ≤ (i a : Nat) ∧ (i a : Nat) < win0_5.index t a * win0_5.size a + win0_5.xsize (grid0.coords t) a := by
  show i ∈ ((View.whole main_v33).slice (win0_5.rect t)).set ↔ _
  rw [View.set_slice_whole, Rect.mem_set_unit]

/-- The 32 blocks cover the result array. -/
theorem cover (i : S16x900x800.Idx) : ∃ t : Fin cfg0.N, (cfg0.win 5).flush t = true ∧ i ∈ ((cfg0.win 5).blk t).view.set := by
  have h0 : (i 0 : Nat) < 16 := (i 0).isLt
  have h1 : (i 1 : Nat) < 900 := (i 1).isLt
  have h2 : (i 2 : Nat) < 800 := (i 2).isLt
  have hN : (i 0 : Nat) * 2 + (i 1 : Nat) / 512 < grid0.N := by rw [N_0]; omega
  refine ⟨⟨(i 0 : Nat) * 2 + (i 1 : Nat) / 512, hN⟩, flush0_5 _, (mem_blk ⟨(i 0 : Nat) * 2 + (i 1 : Nat) / 512, hN⟩ i).mpr ?_⟩
  obtain ⟨e0, e1, e2, s0, s1, s2⟩ := blk_facts ⟨(i 0 : Nat) * 2 + (i 1 : Nat) / 512, hN⟩
  intro a
  match a with
  | ⟨0, _⟩ =>
    show win0_5.index _ 0 * 1 ≤ (i 0 : Nat) ∧ (i 0 : Nat) < win0_5.index _ 0 * 1 + win0_5.xsize _ 0
    rw [e0, s0]; dsimp only; omega
  | ⟨1, _⟩ =>
    show win0_5.index _ 1 * 512 ≤ (i 1 : Nat) ∧ (i 1 : Nat) < win0_5.index _ 1 * 512 + win0_5.xsize _ 1
    rw [e1, s1]; dsimp only; split <;> omega
  | ⟨2, _⟩ =>
    show win0_5.index _ 2 * 800 ≤ (i 2 : Nat) ∧ (i 2 : Nat) < win0_5.index _ 2 * 800 + win0_5.xsize _ 2
    rw [e2, s2]; omega

/-- After the run the result array is the cost array. -/
theorem final (c : Dev nD) : (dats m 0 c).arrAt 5 cfg0.N = G m c :=
  (dats m 0 c).arrAt_eq_of_cover 5 (G m c) (fun t _ => flushed_eq m c t) (cover)

/-- The run of the idealized kernel program: the result array ends at the cost array of the arguments, and the four
    arguments as launched. -/
theorem run_value (hlab : ∀ (c : Dev nD) (n : Fin 800), ((m ((c : Thread nD τ).loc main_arg2) : S800.Idx → BitVec 32) (ix1 n)).toNat < 256) :
    θ_run defs (onTc (τ := τ) (main (F := Ideal))) ⟨m, fun _ => 0, ρ⟩ (fun r => ∀ c : Dev nD,
      r.2.mem ((c.tc : Thread nD τ).loc main_v33) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (final m c),
     ((h c).1 0).trans (((dats m 0 c).arrAt_in 0 rfl _).trans ((A_eq m c 0).trans (V_arg m c main_arg0 (Or.inl rfl)))),
     ((h c).1 1).trans (((dats m 0 c).arrAt_in 1 rfl _).trans ((A_eq m c 1).trans (V_arg m c main_arg1 (Or.inr (Or.inl rfl))))),
     ((h c).2 main_arg2 (Pipeline.mem_restRefs_of main_arg2 rfl (by decide))).trans (V_arg m c main_arg2 (Or.inr (Or.inr (Or.inl rfl)))),
     ((h c).2 main_arg3 (Pipeline.mem_restRefs_of main_arg3 rfl (by decide))).trans (V_arg m c main_arg3 (Or.inr (Or.inr (Or.inr rfl))))⟩)
    (run_main m ρ hlab)

end Cert.KernelIdeal.Hand

end
-- ==== Proof.RefClass.lean ====
/-
  The reference's class term. It flattens the queries into 14400 rows, takes each row's softmax — the
  exponential of the entry less the row's maximum, over the row's sum of those —, gathers the column at
  each target's label (a negative label counted from the end: none is, under the precondition) and negates.
-/
import proofs.«410247_j17300128268908_2_alg».proof.Proof.Gen.ReferenceIdeal.Read
import proofs.«410247_j17300128268908_2_alg».proof.Proof.Whole
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## Two operations read at an index by hand: the maximum-reduce and the gather -/

/-- A maximum-reduce over the second axis of a [14400, 256] array, read at row `N`: the fold of `max` from the
    initial value over the row's 256 entries. -/
private theorem class_hostMax_row (y : S14400x256.Idx → EReal) (c : S_.Idx → EReal) (N : Fin 14400) :
    Host.reduce (FloatOps.maximumf (F := Ideal) (φ := .f32)) y c reducesTo_S14400x256_S14400_d1 h_S_ (ix1 N)
      = (Finset.univ : Finset (Fin 256)).fold max (c (Shape.Idx.first h_S_)) (fun k => y (ix2 N k)) := by
  have h : S14400x256.Reduces [1] S14400 := by decide
  rw [Host.reduce_eq_fold_single (FloatOps.maximumf (F := Ideal) (φ := .f32)) y c reducesTo_S14400x256_S14400_d1 h h_S_]
  have hf : (y ∘ h.lift (ix1 N)) = fun k : Fin 256 => y (ix2 N k) :=
    funext fun k => congrArg y (funext fun a => Fin.ext (by match a with | ⟨0, _⟩ => rfl | ⟨1, _⟩ => rfl))
  exact congrArg (fun f => Finset.fold max (c (Shape.Idx.first h_S_)) f (Finset.univ : Finset (Fin 256))) hf

/-- The gather of one column per target out of a [14400, 256] array, read at `(N, n)`: row `N` at the column the
    start index `idx[n, 0]` names, read signed and clamped into `[0, 255]`. -/
private theorem class_gather_col (x : S14400x256.Idx → EReal) (idx : IVec S800x1 32) (N : Fin 14400) (n : Fin 800) :
    Host.gather gather_S14400x256_S800x1_S14400x800_0_1_n_n_1_1_144001 x idx (ix2 N n)
      = x (ix2 N (⟨min (idx (ix2 n (0 : Fin 1))).toInt.toNat 255, by omega⟩ : Fin 256)) := by
  unfold Host.gather
  congr 1
  funext a
  refine Fin.ext ?_
  match a with
  | ⟨0, _⟩ =>
    show GatherDims.start _ (ix2 N n) idx 0 + GatherDims.batchCoord _ (ix2 N n) 0 + GatherDims.offCoord _ (ix2 N n) 0 = N.val
    rw [GatherDims.batchCoord_eq_zero _ _ _ List.not_mem_nil]
    unfold GatherDims.start
    rw [dif_neg (by decide)]
    unfold GatherDims.offCoord
    rw [dif_pos (by decide)]
    -- the one offset axis of the result is its first
    have he : ∀ (i : Nat) (hi : i < gather_S14400x256_S800x1_S14400x800_0_1_n_n_1_1_144001.offsetDims.length),
        gather_S14400x256_S800x1_S14400x800_0_1_n_n_1_1_144001.offsetDims[i] = (0 : Fin 2) := fun i hi =>
      List.mem_singleton.mp (List.getElem_mem hi)
    rw [he]
    simp only [Nat.zero_add]
  | ⟨1, _⟩ =>
    show GatherDims.start _ (ix2 N n) idx 1 + GatherDims.batchCoord _ (ix2 N n) 1 + GatherDims.offCoord _ (ix2 N n) 1
      = min (idx (ix2 n (0 : Fin 1))).toInt.toNat 255
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin S14400x256.rank) ∈ gather_S14400x256_S800x1_S14400x800_0_1_n_n_1_1_144001.startIndexMap
      from List.mem_singleton.mpr rfl)]
    have hsi : GatherDims.siIdx gather_S14400x256_S800x1_S14400x800_0_1_n_n_1_1_144001 (ix2 N n)
        ⟨List.idxOf (1 : Fin S14400x256.rank) gather_S14400x256_S800x1_S14400x800_0_1_n_n_1_1_144001.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

variable (x0 : (⟨S16x900x256, .f32⟩ : BufTy).Contents (Elt Ideal)) (x1 : (⟨S16x900x4, .f32⟩ : BufTy).Contents (Elt Ideal))
  (x2 : (⟨S800, .i32⟩ : BufTy).Contents (Elt Ideal)) (x3 : (⟨S800x4, .f32⟩ : BufTy).Contents (Elt Ideal))

/-! ## The softmax of row `N` -/

/-- The clamped row maximum at row `N`: the larger of −∞ and the fold of `max` from −∞ over the row is that fold. -/
private theorem class_v3 (N : Fin 14400) :
    (val_main_v3 (F := Ideal) x0 : S14400.Idx → EReal) (ix1 N)
      = Cert.MatchCost.rowMax (fun k => (val_main_v0 (F := Ideal) x0 : S14400x256.Idx → EReal) (ix2 N k)) := by
  rw [val_main_v3_apply, val_main_v2_apply, val_main_cst_0_apply, Ideal.maximumf_def, Ideal.ofBits_def]
  unfold val_main_v1
  rw [class_hostMax_row, val_main_cst_apply, Ideal.ofBits_def]
  unfold Cert.MatchCost.rowMax
  exact max_eq_right ((Finset.le_fold_max _).mpr (Or.inl le_rfl))

/-- The row maximum broadcast back over the row. -/
private theorem class_v5 (N : Fin 14400) (k : Fin 256) :
    (val_main_v5 (F := Ideal) x0 : S14400x256.Idx → EReal) (ix2 N k)
      = Cert.MatchCost.rowMax (fun k => (val_main_v0 (F := Ideal) x0 : S14400x256.Idx → EReal) (ix2 N k)) := by
  rw [val_main_v5_apply, val_main_v4_apply]
  have hi : idx_main_v4 (idx_main_v5 (ix2 N k)) = ix1 N :=
    funext fun a => Fin.ext (by match a with | ⟨0, _⟩ => rfl)
  rw [hi, class_v3]

/-- The shifted exponential of entry `k` of row `N`. -/
private theorem class_v7 (N : Fin 14400) (k : Fin 256) :
    (val_main_v7 (F := Ideal) x0 : S14400x256.Idx → EReal) (ix2 N k)
      = Cert.MatchCost.expRow (fun k => (val_main_v0 (F := Ideal) x0 : S14400x256.Idx → EReal) (ix2 N k)) k := by
  rw [val_main_v7_apply, val_main_v6_apply, class_v5, Ideal.hostUnary_exp_def, Ideal.subf_def]
  rfl

/-- The row's sum of shifted exponentials: the host's sum starts from zero. -/
private theorem class_v8 (N : Fin 14400) :
    (val_main_v8 (F := Ideal) x0 : S14400.Idx → EReal) (ix1 N)
      = ∑ j : Fin 256, Cert.MatchCost.expRow (fun k => (val_main_v0 (F := Ideal) x0 : S14400x256.Idx → EReal) (ix2 N k)) j := by
  rw [val_main_v8_apply, val_main_cst_1_apply, Ideal.ofBits_def]
  have hz : Ideal.ofBits .f32 0x00000000#32 = (0 : EReal) := Cert.MatchCost.zero_eq
  rw [hz, zero_add]
  refine Finset.sum_congr rfl fun j _ => ?_
  have hi : idx_main_v8 (ix1 N) j = ix2 N j :=
    funext fun a => Fin.ext (by match a with | ⟨0, _⟩ => rfl | ⟨1, _⟩ => rfl)
  rw [hi, class_v7]

/-- The softmax probability of class `k` in row `N`. -/
private theorem class_v11 (N : Fin 14400) (k : Fin 256) :
    (val_main_v11 (F := Ideal) x0 : S14400x256.Idx → EReal) (ix2 N k)
      = Cert.MatchCost.prob (fun k => (val_main_v0 (F := Ideal) x0 : S14400x256.Idx → EReal) (ix2 N k)) k := by
  rw [val_main_v11_apply, val_main_v10_apply, val_main_v9_apply]
  have hi : idx_main_v9 (idx_main_v10 (ix2 N k)) = ix1 N :=
    funext fun a => Fin.ext (by match a with | ⟨0, _⟩ => rfl)
  rw [hi, class_v8, class_v7, Ideal.hostDivf_def]
  rfl

/-! ## The label -/

/-- A word below 256 is not negative as a signed number. -/
private theorem class_not_slt_zero {w : BitVec 32} (h : w.toNat < 256) : IntOp.cmpi .slt w 0#32 = 0#1 := by
  have hm : w.msb = false := by
    rw [BitVec.msb_eq_decide]; simp; omega
  have hn : ¬ ((w.toNat : Int) < 0) := by omega
  simp [IntOp.cmpi, BitVec.slt, BitVec.toInt_eq_msb_cond, hm, hn]

/-- The wrapped label of target `n` is the label itself, for a label word below 256. -/
private theorem class_v18 (n : Fin 800) (h : ((x2 : S800.Idx → BitVec 32) (ix1 n)).toNat < 256) :
    (val_main_v18 (F := Ideal) x2 : S800x1.Idx → BitVec 32) (ix2 n (0 : Fin 1)) = (x2 : S800.Idx → BitVec 32) (ix1 n) := by
  rw [val_main_v18_apply]
  have hi : idx_main_v18 (ix2 n (0 : Fin 1)) = ix1 n :=
    funext fun a => Fin.ext (by match a with | ⟨0, _⟩ => rfl)
  rw [hi, val_main_v17_apply, val_main_v14_apply, val_main_v13_apply, val_main_c_apply, class_not_slt_zero h, select_zero]

/-- The class term: minus the row's softmax probability at the target's class, for a label word below 256. -/
theorem class_term (N : Fin 14400) (n : Fin 800) (h : ((x2 : S800.Idx → BitVec 32) (ix1 n)).toNat < 256) :
    (val_main_v20 (F := Ideal) x0 x2 : S14400x800.Idx → EReal) (ix2 N n)
      = -(Cert.MatchCost.prob (fun k => (val_main_v0 (F := Ideal) x0 : S14400x256.Idx → EReal) (ix2 N k))
            (Cert.MatchCost.labelOf ((x2 : S800.Idx → BitVec 32) (ix1 n)))) := by
  rw [val_main_v20_apply, Ideal.hostNegf_def, Ideal.negf_def]
  unfold val_main_v19
  rw [class_gather_col, class_v11]
  refine congrArg (fun k => -(Cert.MatchCost.prob _ k)) (Fin.ext ?_)
  show min ((val_main_v18 (F := Ideal) x2 : S800x1.Idx → BitVec 32) (ix2 n (0 : Fin 1))).toInt.toNat 255
    = (Cert.MatchCost.labelOf ((x2 : S800.Idx → BitVec 32) (ix1 n))).val
  rw [class_v18 x2 n h, Cert.MatchCost.labelOf_val h]
  have ht : ((x2 : S800.Idx → BitVec 32) (ix1 n)).toInt = (((x2 : S800.Idx → BitVec 32) (ix1 n)).toNat : Int) :=
    BitVec.toInt_eq_toNat_of_lt (by omega)
  rw [ht, Int.toNat_natCast]
  omega

end Cert.ReferenceIdeal.RefValue

end
-- ==== Proof.RefBox.lean ====
/-
  The reference's box term before its weight: for a (row, target) pair, zero plus the four absolute
  differences of the raw box coordinates.
-/
import proofs.«410247_j17300128268908_2_alg».proof.Proof.Gen.ReferenceIdeal.Read
import proofs.«410247_j17300128268908_2_alg».proof.Proof.Whole
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S16x900x256, .f32⟩ : BufTy).Contents (Elt Ideal)) (x1 : (⟨S16x900x4, .f32⟩ : BufTy).Contents (Elt Ideal))
  (x2 : (⟨S800, .i32⟩ : BufTy).Contents (Elt Ideal)) (x3 : (⟨S800x4, .f32⟩ : BufTy).Contents (Elt Ideal))

/-- The box term before its weight. -/
theorem box_term (N : Fin 14400) (n : Fin 800) :
    (val_main_v27 (F := Ideal) x1 x3 : S14400x800.Idx → EReal) (ix2 N n)
      = Cert.MatchCost.zero + ∑ k : Fin 4, Cert.MatchCost.dist ((val_main_v12 (F := Ideal) x1 : S14400x4.Idx → EReal) (ix2 N k))
          ((x3 : S800x4.Idx → EReal) (ix2 n k)) := by
  rw [val_main_v27_apply]
  refine congrArg₂ (· + ·) rfl (Finset.sum_congr rfl fun k _ => ?_)
  rw [val_main_v26_apply, val_main_v25_apply, val_main_v23_apply, val_main_v21_apply,
    val_main_v24_apply, val_main_v22_apply]
  -- the row's coordinate k and the target's coordinate k
  have h1 : idx_main_v21 (idx_main_v23 (idx_main_v27 (ix2 N n) k)) = ix2 N k :=
    funext fun a => Fin.ext (by match a with | ⟨0, _⟩ => rfl | ⟨1, _⟩ => rfl)
  have h2 : idx_main_v22 (idx_main_v24 (idx_main_v27 (ix2 N n) k)) = ix2 n k :=
    funext fun a => Fin.ext (by match a with | ⟨0, _⟩ => rfl | ⟨1, _⟩ => rfl)
  rw [h1, h2]
  rfl

end Cert.ReferenceIdeal.RefValue

end
-- ==== Proof.RefGiou.lean ====
/-
  The reference's overlap term before its sign and weight: the generalized IoU of the query's and the
  target's corner forms — intersection over union, less the share of the enclosing box the union leaves
  uncovered —, each box's corners computed from its centre and extent, each clamp a maximum with zero.
-/
import proofs.«410247_j17300128268908_2_alg».proof.Proof.Gen.ReferenceIdeal.Read
import proofs.«410247_j17300128268908_2_alg».proof.Proof.Whole
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S16x900x256, .f32⟩ : BufTy).Contents (Elt Ideal)) (x1 : (⟨S16x900x4, .f32⟩ : BufTy).Contents (Elt Ideal))
  (x2 : (⟨S800, .i32⟩ : BufTy).Contents (Elt Ideal)) (x3 : (⟨S800x4, .f32⟩ : BufTy).Contents (Elt Ideal))

namespace Giou

open Cert.MatchCost (corners area giou half zero eps)

/-! ## The corner form, coordinate by coordinate -/

theorem corners_0 (b : Fin 4 → EReal) : corners b 0 = b 0 - half * b 2 := rfl
theorem corners_1 (b : Fin 4 → EReal) : corners b 1 = b 1 - half * b 3 := rfl
theorem corners_2 (b : Fin 4 → EReal) : corners b 2 = b 0 + half * b 2 := rfl
theorem corners_3 (b : Fin 4 → EReal) : corners b 3 = b 1 + half * b 3 := rfl

/-! ## Four unit columns joined along the second axis -/

/-- Four unit columns joined along the second axis, read at column `k`: piece `k` at its one column. -/
theorem concat4_apply {α : Type} {R : Nat} (p0 p1 p2 p3 : (⟨2, ![R, 1]⟩ : Shape).Idx → α)
    (h : Shape.Concatenates [(⟨2, ![R, 1]⟩ : Shape), ⟨2, ![R, 1]⟩, ⟨2, ![R, 1]⟩, ⟨2, ![R, 1]⟩] ⟨2, ![R, 4]⟩ 1) (N : Fin R) :
    (concatenate ⟨2, ![R, 4]⟩ 1 [⟨⟨2, ![R, 1]⟩, p0⟩, ⟨⟨2, ![R, 1]⟩, p1⟩, ⟨⟨2, ![R, 1]⟩, p2⟩, ⟨⟨2, ![R, 1]⟩, p3⟩] h (ix2 N (0 : Fin 4)) = p0 (ix2 N (0 : Fin 1)))
    ∧ (concatenate ⟨2, ![R, 4]⟩ 1 [⟨⟨2, ![R, 1]⟩, p0⟩, ⟨⟨2, ![R, 1]⟩, p1⟩, ⟨⟨2, ![R, 1]⟩, p2⟩, ⟨⟨2, ![R, 1]⟩, p3⟩] h (ix2 N (1 : Fin 4)) = p1 (ix2 N (0 : Fin 1)))
    ∧ (concatenate ⟨2, ![R, 4]⟩ 1 [⟨⟨2, ![R, 1]⟩, p0⟩, ⟨⟨2, ![R, 1]⟩, p1⟩, ⟨⟨2, ![R, 1]⟩, p2⟩, ⟨⟨2, ![R, 1]⟩, p3⟩] h (ix2 N (2 : Fin 4)) = p2 (ix2 N (0 : Fin 1)))
    ∧ (concatenate ⟨2, ![R, 4]⟩ 1 [⟨⟨2, ![R, 1]⟩, p0⟩, ⟨⟨2, ![R, 1]⟩, p1⟩, ⟨⟨2, ![R, 1]⟩, p2⟩, ⟨⟨2, ![R, 1]⟩, p3⟩] h (ix2 N (3 : Fin 4)) = p3 (ix2 N (0 : Fin 1))) := by
  have hi : ∀ (j : Fin 4) (b : Fin 2), b.cast (rfl : (2 : Nat) = 2) ≠ (1 : Fin 2) →
      ((ix2 N (0 : Fin 1) : (⟨2, ![R, 1]⟩ : Shape).Idx) b).val = ((ix2 N j : (⟨2, ![R, 4]⟩ : Shape).Idx) (b.cast rfl)).val := by
    intro j b
    match b with
    | ⟨0, _⟩ => exact fun _ => rfl
    | ⟨1, _⟩ => exact fun h => absurd rfl h
  refine ⟨?_, ?_, ?_, ?_⟩
  · exact concatenate_apply_piece (t := ⟨2, ![R, 4]⟩) (1 : Fin 2) [⟨⟨2, ![R, 1]⟩, p0⟩, ⟨⟨2, ![R, 1]⟩, p1⟩, ⟨⟨2, ![R, 1]⟩, p2⟩, ⟨⟨2, ![R, 1]⟩, p3⟩] h (ix2 N (0 : Fin 4))
      0 (by show 0 < 4; omega) ⟨2, ![R, 1]⟩ p0 rfl rfl 0 rfl (ix2 N (0 : Fin 1)) (hi 0) rfl
  · exact concatenate_apply_piece (t := ⟨2, ![R, 4]⟩) (1 : Fin 2) [⟨⟨2, ![R, 1]⟩, p0⟩, ⟨⟨2, ![R, 1]⟩, p1⟩, ⟨⟨2, ![R, 1]⟩, p2⟩, ⟨⟨2, ![R, 1]⟩, p3⟩] h (ix2 N (1 : Fin 4))
      1 (by show 1 < 4; omega) ⟨2, ![R, 1]⟩ p1 rfl rfl 1 rfl (ix2 N (0 : Fin 1)) (hi 1) rfl
  · exact concatenate_apply_piece (t := ⟨2, ![R, 4]⟩) (1 : Fin 2) [⟨⟨2, ![R, 1]⟩, p0⟩, ⟨⟨2, ![R, 1]⟩, p1⟩, ⟨⟨2, ![R, 1]⟩, p2⟩, ⟨⟨2, ![R, 1]⟩, p3⟩] h (ix2 N (2 : Fin 4))
      2 (by show 2 < 4; omega) ⟨2, ![R, 1]⟩ p2 rfl rfl 2 rfl (ix2 N (0 : Fin 1)) (hi 2) rfl
  · exact concatenate_apply_piece (t := ⟨2, ![R, 4]⟩) (1 : Fin 2) [⟨⟨2, ![R, 1]⟩, p0⟩, ⟨⟨2, ![R, 1]⟩, p1⟩, ⟨⟨2, ![R, 1]⟩, p2⟩, ⟨⟨2, ![R, 1]⟩, p3⟩] h (ix2 N (3 : Fin 4))
      3 (by show 3 < 4; omega) ⟨2, ![R, 1]⟩ p3 rfl rfl 3 rfl (ix2 N (0 : Fin 1)) (hi 3) rfl

/-- The query row's box as the program reads it: centre and extent. -/
abbrev qbox (N : Fin 14400) : Fin 4 → EReal :=
  fun a => (val_main_v12 (F := Ideal) x1 : S14400x4.Idx → EReal) (ix2 N a)

/-- The target's box: centre and extent. -/
abbrev tbox (n : Fin 800) : Fin 4 → EReal :=
  fun a => (x3 : S800x4.Idx → EReal) (ix2 n a)

/-! ## The query rows: the four columns, the four corners, the joined corner form -/

theorem q29 (N : Fin 14400) :
    (val_main_v29 (F := Ideal) x1 : S14400.Idx → EReal) (ix1 N) = qbox x1 N 0 := by
  have e : idx_main_v28 (idx_main_v29 (ix1 N)) = ix2 N (0 : Fin 4) := by
    funext a; apply Fin.ext
    match a with
    | ⟨0, _⟩ => show N.val / 1 = N.val; exact Nat.div_one _
    | ⟨1, _⟩ => rfl
  rw [val_main_v29_apply, val_main_v28_apply]
  exact congrArg (val_main_v12 (F := Ideal) x1 : S14400x4.Idx → EReal) e

theorem q31 (N : Fin 14400) :
    (val_main_v31 (F := Ideal) x1 : S14400.Idx → EReal) (ix1 N) = qbox x1 N 1 := by
  have e : idx_main_v30 (idx_main_v31 (ix1 N)) = ix2 N (1 : Fin 4) := by
    funext a; apply Fin.ext
    match a with
    | ⟨0, _⟩ => show N.val / 1 = N.val; exact Nat.div_one _
    | ⟨1, _⟩ => rfl
  rw [val_main_v31_apply, val_main_v30_apply]
  exact congrArg (val_main_v12 (F := Ideal) x1 : S14400x4.Idx → EReal) e

theorem q33 (N : Fin 14400) :
    (val_main_v33 (F := Ideal) x1 : S14400.Idx → EReal) (ix1 N) = qbox x1 N 2 := by
  have e : idx_main_v32 (idx_main_v33 (ix1 N)) = ix2 N (2 : Fin 4) := by
    funext a; apply Fin.ext
    match a with
    | ⟨0, _⟩ => show N.val / 1 = N.val; exact Nat.div_one _
    | ⟨1, _⟩ => rfl
  rw [val_main_v33_apply, val_main_v32_apply]
  exact congrArg (val_main_v12 (F := Ideal) x1 : S14400x4.Idx → EReal) e

theorem q35 (N : Fin 14400) :
    (val_main_v35 (F := Ideal) x1 : S14400.Idx → EReal) (ix1 N) = qbox x1 N 3 := by
  have e : idx_main_v34 (idx_main_v35 (ix1 N)) = ix2 N (3 : Fin 4) := by
    funext a; apply Fin.ext
    match a with
    | ⟨0, _⟩ => show N.val / 1 = N.val; exact Nat.div_one _
    | ⟨1, _⟩ => rfl
  rw [val_main_v35_apply, val_main_v34_apply]
  exact congrArg (val_main_v12 (F := Ideal) x1 : S14400x4.Idx → EReal) e

theorem q38 (N : Fin 14400) :
    (val_main_v38 (F := Ideal) x1 : S14400.Idx → EReal) (ix1 N) = corners (qbox x1 N) 0 := by
  rw [val_main_v38_apply, val_main_v37_apply, val_main_v36_apply, val_main_cst_4_apply, q29, q33]
  rfl

theorem q41 (N : Fin 14400) :
    (val_main_v41 (F := Ideal) x1 : S14400.Idx → EReal) (ix1 N) = corners (qbox x1 N) 1 := by
  rw [val_main_v41_apply, val_main_v40_apply, val_main_v39_apply, val_main_cst_5_apply, q31, q35]
  rfl

theorem q44 (N : Fin 14400) :
    (val_main_v44 (F := Ideal) x1 : S14400.Idx → EReal) (ix1 N) = corners (qbox x1 N) 2 := by
  rw [val_main_v44_apply, val_main_v43_apply, val_main_v42_apply, val_main_cst_6_apply, q29, q33]
  rfl

theorem q47 (N : Fin 14400) :
    (val_main_v47 (F := Ideal) x1 : S14400.Idx → EReal) (ix1 N) = corners (qbox x1 N) 3 := by
  rw [val_main_v47_apply, val_main_v46_apply, val_main_v45_apply, val_main_cst_7_apply, q31, q35]
  rfl

/-- A column index of a one-column array, read as a row index. -/
theorem col_row (N : Fin 14400) : idx_main_v48 (ix2 N (0 : Fin 1)) = ix1 N := by
  funext a; apply Fin.ext
  match a with
  | ⟨0, _⟩ => rfl

theorem q48 (N : Fin 14400) :
    (val_main_v48 (F := Ideal) x1 : S14400x1.Idx → EReal) (ix2 N (0 : Fin 1)) = corners (qbox x1 N) 0 := by
  rw [val_main_v48_apply]
  exact (congrArg (val_main_v38 (F := Ideal) x1 : S14400.Idx → EReal) (col_row N)).trans (q38 x1 N)

theorem q49 (N : Fin 14400) :
    (val_main_v49 (F := Ideal) x1 : S14400x1.Idx → EReal) (ix2 N (0 : Fin 1)) = corners (qbox x1 N) 1 := by
  rw [val_main_v49_apply]
  exact (congrArg (val_main_v41 (F := Ideal) x1 : S14400.Idx → EReal) (col_row N)).trans (q41 x1 N)

theorem q50 (N : Fin 14400) :
    (val_main_v50 (F := Ideal) x1 : S14400x1.Idx → EReal) (ix2 N (0 : Fin 1)) = corners (qbox x1 N) 2 := by
  rw [val_main_v50_apply]
  exact (congrArg (val_main_v44 (F := Ideal) x1 : S14400.Idx → EReal) (col_row N)).trans (q44 x1 N)

theorem q51 (N : Fin 14400) :
    (val_main_v51 (F := Ideal) x1 : S14400x1.Idx → EReal) (ix2 N (0 : Fin 1)) = corners (qbox x1 N) 3 := by
  rw [val_main_v51_apply]
  exact (congrArg (val_main_v47 (F := Ideal) x1 : S14400.Idx → EReal) (col_row N)).trans (q47 x1 N)

/-- The query rows' joined corner form is the corner form of the row's box. -/
theorem qcorner (N : Fin 14400) (a : Fin 4) :
    (val_main_v52 (F := Ideal) x1 : S14400x4.Idx → EReal) (ix2 N a) = corners (qbox x1 N) a := by
  obtain ⟨h0, h1, h2, h3⟩ := concat4_apply (val_main_v48 (F := Ideal) x1) (val_main_v49 (F := Ideal) x1)
    (val_main_v50 (F := Ideal) x1) (val_main_v51 (F := Ideal) x1)
    concatenates_S14400x1_S14400x1_S14400x1_S14400x1_S14400x4_d1 N
  unfold val_main_v52
  match a with
  | ⟨0, _⟩ => exact h0.trans (q48 x1 N)
  | ⟨1, _⟩ => exact h1.trans (q49 x1 N)
  | ⟨2, _⟩ => exact h2.trans (q50 x1 N)
  | ⟨3, _⟩ => exact h3.trans (q51 x1 N)

/-! ## The targets: the four columns, the four corners, the joined corner form -/

theorem t54 (n : Fin 800) :
    (val_main_v54 (F := Ideal) x3 : S800.Idx → EReal) (ix1 n) = tbox x3 n 0 := by
  have e : idx_main_v53 (idx_main_v54 (ix1 n)) = ix2 n (0 : Fin 4) := by
    funext a; apply Fin.ext
    match a with
    | ⟨0, _⟩ => show n.val / 1 = n.val; exact Nat.div_one _
    | ⟨1, _⟩ => rfl
  rw [val_main_v54_apply, val_main_v53_apply]
  exact congrArg (x3 : S800x4.Idx → EReal) e

theorem t56 (n : Fin 800) :
    (val_main_v56 (F := Ideal) x3 : S800.Idx → EReal) (ix1 n) = tbox x3 n 1 := by
  have e : idx_main_v55 (idx_main_v56 (ix1 n)) = ix2 n (1 : Fin 4) := by
    funext a; apply Fin.ext
    match a with
    | ⟨0, _⟩ => show n.val / 1 = n.val; exact Nat.div_one _
    | ⟨1, _⟩ => rfl
  rw [val_main_v56_apply, val_main_v55_apply]
  exact congrArg (x3 : S800x4.Idx → EReal) e

theorem t58 (n : Fin 800) :
    (val_main_v58 (F := Ideal) x3 : S800.Idx → EReal) (ix1 n) = tbox x3 n 2 := by
  have e : idx_main_v57 (idx_main_v58 (ix1 n)) = ix2 n (2 : Fin 4) := by
    funext a; apply Fin.ext
    match a with
    | ⟨0, _⟩ => show n.val / 1 = n.val; exact Nat.div_one _
    | ⟨1, _⟩ => rfl
  rw [val_main_v58_apply, val_main_v57_apply]
  exact congrArg (x3 : S800x4.Idx → EReal) e

theorem t60 (n : Fin 800) :
    (val_main_v60 (F := Ideal) x3 : S800.Idx → EReal) (ix1 n) = tbox x3 n 3 := by
  have e : idx_main_v59 (idx_main_v60 (ix1 n)) = ix2 n (3 : Fin 4) := by
    funext a; apply Fin.ext
    match a with
    | ⟨0, _⟩ => show n.val / 1 = n.val; exact Nat.div_one _
    | ⟨1, _⟩ => rfl
  rw [val_main_v60_apply, val_main_v59_apply]
  exact congrArg (x3 : S800x4.Idx → EReal) e

theorem t63 (n : Fin 800) :
    (val_main_v63 (F := Ideal) x3 : S800.Idx → EReal) (ix1 n) = corners (tbox x3 n) 0 := by
  rw [val_main_v63_apply, val_main_v62_apply, val_main_v61_apply, val_main_cst_8_apply, t54, t58]
  rfl

theorem t66 (n : Fin 800) :
    (val_main_v66 (F := Ideal) x3 : S800.Idx → EReal) (ix1 n) = corners (tbox x3 n) 1 := by
  rw [val_main_v66_apply, val_main_v65_apply, val_main_v64_apply, val_main_cst_9_apply, t56, t60]
  rfl

theorem t69 (n : Fin 800) :
    (val_main_v69 (F := Ideal) x3 : S800.Idx → EReal) (ix1 n) = corners (tbox x3 n) 2 := by
  rw [val_main_v69_apply, val_main_v68_apply, val_main_v67_apply, val_main_cst_10_apply, t54, t58]
  rfl

theorem t72 (n : Fin 800) :
    (val_main_v72 (F := Ideal) x3 : S800.Idx → EReal) (ix1 n) = corners (tbox x3 n) 3 := by
  rw [val_main_v72_apply, val_main_v71_apply, val_main_v70_apply, val_main_cst_11_apply, t56, t60]
  rfl

/-- A column index of a one-column array, read as a row index. -/
theorem tcol_row (n : Fin 800) : idx_main_v73 (ix2 n (0 : Fin 1)) = ix1 n := by
  funext a; apply Fin.ext
  match a with
  | ⟨0, _⟩ => rfl

theorem t73 (n : Fin 800) :
    (val_main_v73 (F := Ideal) x3 : S800x1.Idx → EReal) (ix2 n (0 : Fin 1)) = corners (tbox x3 n) 0 := by
  rw [val_main_v73_apply]
  exact (congrArg (val_main_v63 (F := Ideal) x3 : S800.Idx → EReal) (tcol_row n)).trans (t63 x3 n)

theorem t74 (n : Fin 800) :
    (val_main_v74 (F := Ideal) x3 : S800x1.Idx → EReal) (ix2 n (0 : Fin 1)) = corners (tbox x3 n) 1 := by
  rw [val_main_v74_apply]
  exact (congrArg (val_main_v66 (F := Ideal) x3 : S800.Idx → EReal) (tcol_row n)).trans (t66 x3 n)

theorem t75 (n : Fin 800) :
    (val_main_v75 (F := Ideal) x3 : S800x1.Idx → EReal) (ix2 n (0 : Fin 1)) = corners (tbox x3 n) 2 := by
  rw [val_main_v75_apply]
  exact (congrArg (val_main_v69 (F := Ideal) x3 : S800.Idx → EReal) (tcol_row n)).trans (t69 x3 n)

theorem t76 (n : Fin 800) :
    (val_main_v76 (F := Ideal) x3 : S800x1.Idx → EReal) (ix2 n (0 : Fin 1)) = corners (tbox x3 n) 3 := by
  rw [val_main_v76_apply]
  exact (congrArg (val_main_v72 (F := Ideal) x3 : S800.Idx → EReal) (tcol_row n)).trans (t72 x3 n)

/-- The targets' joined corner form is the corner form of the target's box. -/
theorem tcorner (n : Fin 800) (a : Fin 4) :
    (val_main_v77 (F := Ideal) x3 : S800x4.Idx → EReal) (ix2 n a) = corners (tbox x3 n) a := by
  obtain ⟨h0, h1, h2, h3⟩ := concat4_apply (val_main_v73 (F := Ideal) x3) (val_main_v74 (F := Ideal) x3)
    (val_main_v75 (F := Ideal) x3) (val_main_v76 (F := Ideal) x3)
    concatenates_S800x1_S800x1_S800x1_S800x1_S800x4_d1 n
  unfold val_main_v77
  match a with
  | ⟨0, _⟩ => exact h0.trans (t73 x3 n)
  | ⟨1, _⟩ => exact h1.trans (t74 x3 n)
  | ⟨2, _⟩ => exact h2.trans (t75 x3 n)
  | ⟨3, _⟩ => exact h3.trans (t76 x3 n)

/-! ## The two areas -/

/-- A unit slice of the query rows' corner form, flattened, read at a row: the corner it cuts out. -/
theorem q79 (N : Fin 14400) :
    (val_main_v79 (F := Ideal) x1 : S14400.Idx → EReal) (ix1 N) = corners (qbox x1 N) 2 := by
  have e : idx_main_v78 (idx_main_v79 (ix1 N)) = ix2 N (2 : Fin 4) := by
    funext a; apply Fin.ext
    match a with
    | ⟨0, _⟩ => show N.val / 1 = N.val; exact Nat.div_one _
    | ⟨1, _⟩ => rfl
  rw [val_main_v79_apply, val_main_v78_apply]
  exact (congrArg (val_main_v52 (F := Ideal) x1 : S14400x4.Idx → EReal) e).trans (qcorner x1 N 2)

theorem q81 (N : Fin 14400) :
    (val_main_v81 (F := Ideal) x1 : S14400.Idx → EReal) (ix1 N) = corners (qbox x1 N) 0 := by
  have e : idx_main_v80 (idx_main_v81 (ix1 N)) = ix2 N (0 : Fin 4) := by
    funext a; apply Fin.ext
    match a with
    | ⟨0, _⟩ => show N.val / 1 = N.val; exact Nat.div_one _
    | ⟨1, _⟩ => rfl
  rw [val_main_v81_apply, val_main_v80_apply]
  exact (congrArg (val_main_v52 (F := Ideal) x1 : S14400x4.Idx → EReal) e).trans (qcorner x1 N 0)

theorem q84 (N : Fin 14400) :
    (val_main_v84 (F := Ideal) x1 : S14400.Idx → EReal) (ix1 N) = corners (qbox x1 N) 3 := by
  have e : idx_main_v83 (idx_main_v84 (ix1 N)) = ix2 N (3 : Fin 4) := by
    funext a; apply Fin.ext
    match a with
    | ⟨0, _⟩ => show N.val / 1 = N.val; exact Nat.div_one _
    | ⟨1, _⟩ => rfl
  rw [val_main_v84_apply, val_main_v83_apply]
  exact (congrArg (val_main_v52 (F := Ideal) x1 : S14400x4.Idx → EReal) e).trans (qcorner x1 N 3)

theorem q86 (N : Fin 14400) :
    (val_main_v86 (F := Ideal) x1 : S14400.Idx → EReal) (ix1 N) = corners (qbox x1 N) 1 := by
  have e : idx_main_v85 (idx_main_v86 (ix1 N)) = ix2 N (1 : Fin 4) := by
    funext a; apply Fin.ext
    match a with
    | ⟨0, _⟩ => show N.val / 1 = N.val; exact Nat.div_one _
    | ⟨1, _⟩ => rfl
  rw [val_main_v86_apply, val_main_v85_apply]
  exact (congrArg (val_main_v52 (F := Ideal) x1 : S14400x4.Idx → EReal) e).trans (qcorner x1 N 1)

/-- The area of the query row's corner form. -/
theorem qarea (N : Fin 14400) :
    (val_main_v88 (F := Ideal) x1 : S14400.Idx → EReal) (ix1 N) = area (corners (qbox x1 N)) := by
  rw [val_main_v88_apply, val_main_v82_apply, val_main_v87_apply, q79, q81, q84, q86]
  rfl

theorem t90 (n : Fin 800) :
    (val_main_v90 (F := Ideal) x3 : S800.Idx → EReal) (ix1 n) = corners (tbox x3 n) 2 := by
  have e : idx_main_v89 (idx_main_v90 (ix1 n)) = ix2 n (2 : Fin 4) := by
    funext a; apply Fin.ext
    match a with
    | ⟨0, _⟩ => show n.val / 1 = n.val; exact Nat.div_one _
    | ⟨1, _⟩ => rfl
  rw [val_main_v90_apply, val_main_v89_apply]
  exact (congrArg (val_main_v77 (F := Ideal) x3 : S800x4.Idx → EReal) e).trans (tcorner x3 n 2)

theorem t92 (n : Fin 800) :
    (val_main_v92 (F := Ideal) x3 : S800.Idx → EReal) (ix1 n) = corners (tbox x3 n) 0 := by
  have e : idx_main_v91 (idx_main_v92 (ix1 n)) = ix2 n (0 : Fin 4) := by
    funext a; apply Fin.ext
    match a with
    | ⟨0, _⟩ => show n.val / 1 = n.val; exact Nat.div_one _
    | ⟨1, _⟩ => rfl
  rw [val_main_v92_apply, val_main_v91_apply]
  exact (congrArg (val_main_v77 (F := Ideal) x3 : S800x4.Idx → EReal) e).trans (tcorner x3 n 0)

theorem t95 (n : Fin 800) :
    (val_main_v95 (F := Ideal) x3 : S800.Idx → EReal) (ix1 n) = corners (tbox x3 n) 3 := by
  have e : idx_main_v94 (idx_main_v95 (ix1 n)) = ix2 n (3 : Fin 4) := by
    funext a; apply Fin.ext
    match a with
    | ⟨0, _⟩ => show n.val / 1 = n.val; exact Nat.div_one _
    | ⟨1, _⟩ => rfl
  rw [val_main_v95_apply, val_main_v94_apply]
  exact (congrArg (val_main_v77 (F := Ideal) x3 : S800x4.Idx → EReal) e).trans (tcorner x3 n 3)

theorem t97 (n : Fin 800) :
    (val_main_v97 (F := Ideal) x3 : S800.Idx → EReal) (ix1 n) = corners (tbox x3 n) 1 := by
  have e : idx_main_v96 (idx_main_v97 (ix1 n)) = ix2 n (1 : Fin 4) := by
    funext a; apply Fin.ext
    match a with
    | ⟨0, _⟩ => show n.val / 1 = n.val; exact Nat.div_one _
    | ⟨1, _⟩ => rfl
  rw [val_main_v97_apply, val_main_v96_apply]
  exact (congrArg (val_main_v77 (F := Ideal) x3 : S800x4.Idx → EReal) e).trans (tcorner x3 n 1)

/-- The area of the target's corner form. -/
theorem tarea (n : Fin 800) :
    (val_main_v99 (F := Ideal) x3 : S800.Idx → EReal) (ix1 n) = area (corners (tbox x3 n)) := by
  rw [val_main_v99_apply, val_main_v93_apply, val_main_v98_apply, t90, t92, t95, t97]
  rfl

/-! ## The pair arrays: low and high corners of the two boxes at (row, target, axis) -/

/-- The query's low corner on axis `k`, broadcast over the targets. -/
theorem q104 (N : Fin 14400) (n : Fin 800) (k : Fin 2) (k' : Fin 4) (hk : k'.val = k.val) :
    (val_main_v104 (F := Ideal) x1 : S14400x800x2.Idx → EReal) (ix3 N n k) = corners (qbox x1 N) k' := by
  have e : idx_main_v100 (idx_main_v101 (idx_main_v104 (ix3 N n k))) = ix2 N k' := by
    funext a; apply Fin.ext
    match a with
    | ⟨0, _⟩ => rfl
    | ⟨1, _⟩ => exact hk.symm
  rw [val_main_v104_apply, val_main_v101_apply, val_main_v100_apply]
  exact (congrArg (val_main_v52 (F := Ideal) x1 : S14400x4.Idx → EReal) e).trans (qcorner x1 N k')

/-- The target's low corner on axis `k`, broadcast over the query rows. -/
theorem t105 (N : Fin 14400) (n : Fin 800) (k : Fin 2) (k' : Fin 4) (hk : k'.val = k.val) :
    (val_main_v105 (F := Ideal) x3 : S14400x800x2.Idx → EReal) (ix3 N n k) = corners (tbox x3 n) k' := by
  have e : idx_main_v102 (idx_main_v103 (idx_main_v105 (ix3 N n k))) = ix2 n k' := by
    funext a; apply Fin.ext
    match a with
    | ⟨0, _⟩ => rfl
    | ⟨1, _⟩ => exact hk.symm
  rw [val_main_v105_apply, val_main_v103_apply, val_main_v102_apply]
  exact (congrArg (val_main_v77 (F := Ideal) x3 : S800x4.Idx → EReal) e).trans (tcorner x3 n k')

/-- The query's high corner on axis `k`, broadcast over the targets. -/
theorem q111 (N : Fin 14400) (n : Fin 800) (k : Fin 2) (k' : Fin 4) (hk : k'.val = 2 + k.val) :
    (val_main_v111 (F := Ideal) x1 : S14400x800x2.Idx → EReal) (ix3 N n k) = corners (qbox x1 N) k' := by
  have e : idx_main_v107 (idx_main_v108 (idx_main_v111 (ix3 N n k))) = ix2 N k' := by
    funext a; apply Fin.ext
    match a with
    | ⟨0, _⟩ => rfl
    | ⟨1, _⟩ => exact hk.symm
  rw [val_main_v111_apply, val_main_v108_apply, val_main_v107_apply]
  exact (congrArg (val_main_v52 (F := Ideal) x1 : S14400x4.Idx → EReal) e).trans (qcorner x1 N k')

/-- The target's high corner on axis `k`, broadcast over the query rows. -/
theorem t112 (N : Fin 14400) (n : Fin 800) (k : Fin 2) (k' : Fin 4) (hk : k'.val = 2 + k.val) :
    (val_main_v112 (F := Ideal) x3 : S14400x800x2.Idx → EReal) (ix3 N n k) = corners (tbox x3 n) k' := by
  have e : idx_main_v109 (idx_main_v110 (idx_main_v112 (ix3 N n k))) = ix2 n k' := by
    funext a; apply Fin.ext
    match a with
    | ⟨0, _⟩ => rfl
    | ⟨1, _⟩ => exact hk.symm
  rw [val_main_v112_apply, val_main_v110_apply, val_main_v109_apply]
  exact (congrArg (val_main_v77 (F := Ideal) x3 : S800x4.Idx → EReal) e).trans (tcorner x3 n k')

theorem q134 (N : Fin 14400) (n : Fin 800) (k : Fin 2) (k' : Fin 4) (hk : k'.val = k.val) :
    (val_main_v134 (F := Ideal) x1 : S14400x800x2.Idx → EReal) (ix3 N n k) = corners (qbox x1 N) k' := by
  have e : idx_main_v130 (idx_main_v131 (idx_main_v134 (ix3 N n k))) = ix2 N k' := by
    funext a; apply Fin.ext
    match a with
    | ⟨0, _⟩ => rfl
    | ⟨1, _⟩ => exact hk.symm
  rw [val_main_v134_apply, val_main_v131_apply, val_main_v130_apply]
  exact (congrArg (val_main_v52 (F := Ideal) x1 : S14400x4.Idx → EReal) e).trans (qcorner x1 N k')

theorem t135 (N : Fin 14400) (n : Fin 800) (k : Fin 2) (k' : Fin 4) (hk : k'.val = k.val) :
    (val_main_v135 (F := Ideal) x3 : S14400x800x2.Idx → EReal) (ix3 N n k) = corners (tbox x3 n) k' := by
  have e : idx_main_v132 (idx_main_v133 (idx_main_v135 (ix3 N n k))) = ix2 n k' := by
    funext a; apply Fin.ext
    match a with
    | ⟨0, _⟩ => rfl
    | ⟨1, _⟩ => exact hk.symm
  rw [val_main_v135_apply, val_main_v133_apply, val_main_v132_apply]
  exact (congrArg (val_main_v77 (F := Ideal) x3 : S800x4.Idx → EReal) e).trans (tcorner x3 n k')

theorem q141 (N : Fin 14400) (n : Fin 800) (k : Fin 2) (k' : Fin 4) (hk : k'.val = 2 + k.val) :
    (val_main_v141 (F := Ideal) x1 : S14400x800x2.Idx → EReal) (ix3 N n k) = corners (qbox x1 N) k' := by
  have e : idx_main_v137 (idx_main_v138 (idx_main_v141 (ix3 N n k))) = ix2 N k' := by
    funext a; apply Fin.ext
    match a with
    | ⟨0, _⟩ => rfl
    | ⟨1, _⟩ => exact hk.symm
  rw [val_main_v141_apply, val_main_v138_apply, val_main_v137_apply]
  exact (congrArg (val_main_v52 (F := Ideal) x1 : S14400x4.Idx → EReal) e).trans (qcorner x1 N k')

theorem t142 (N : Fin 14400) (n : Fin 800) (k : Fin 2) (k' : Fin 4) (hk : k'.val = 2 + k.val) :
    (val_main_v142 (F := Ideal) x3 : S14400x800x2.Idx → EReal) (ix3 N n k) = corners (tbox x3 n) k' := by
  have e : idx_main_v139 (idx_main_v140 (idx_main_v142 (ix3 N n k))) = ix2 n k' := by
    funext a; apply Fin.ext
    match a with
    | ⟨0, _⟩ => rfl
    | ⟨1, _⟩ => exact hk.symm
  rw [val_main_v142_apply, val_main_v140_apply, val_main_v139_apply]
  exact (congrArg (val_main_v77 (F := Ideal) x3 : S800x4.Idx → EReal) e).trans (tcorner x3 n k')

/-! ## The clamped extents of the intersection and of the enclosing box -/

/-- The intersection's extent on axis `k`, clamped at zero: the lesser high corner less the greater low corner. -/
theorem wh115 (N : Fin 14400) (n : Fin 800) (k : Fin 2) (kl kh : Fin 4) (hl : kl.val = k.val) (hh : kh.val = 2 + k.val) :
    (val_main_v115 (F := Ideal) x1 x3 : S14400x800x2.Idx → EReal) (ix3 N n k)
      = max (min (corners (qbox x1 N) kh) (corners (tbox x3 n) kh) - max (corners (qbox x1 N) kl) (corners (tbox x3 n) kl)) zero := by
  rw [val_main_v115_apply, val_main_call0_v1_apply, val_main_call0_v0_apply, val_main_cst_12_apply,
    val_main_v114_apply, val_main_v113_apply, val_main_v106_apply,
    q111 x1 N n k kh hh, t112 x3 N n k kh hh, q104 x1 N n k kl hl, t105 x3 N n k kl hl]
  exact max_comm _ _

/-- The enclosing box's extent on axis `k`, clamped at zero: the greater high corner less the lesser low corner. -/
theorem wh145 (N : Fin 14400) (n : Fin 800) (k : Fin 2) (kl kh : Fin 4) (hl : kl.val = k.val) (hh : kh.val = 2 + k.val) :
    (val_main_v145 (F := Ideal) x1 x3 : S14400x800x2.Idx → EReal) (ix3 N n k)
      = max (max (corners (qbox x1 N) kh) (corners (tbox x3 n) kh) - min (corners (qbox x1 N) kl) (corners (tbox x3 n) kl)) zero := by
  rw [val_main_v145_apply, val_main_call1_v1_apply, val_main_call1_v0_apply, val_main_cst_14_apply,
    val_main_v144_apply, val_main_v143_apply, val_main_v136_apply,
    q141 x1 N n k kh hh, t142 x3 N n k kh hh, q134 x1 N n k kl hl, t135 x3 N n k kl hl]
  exact max_comm _ _

/-! ## Intersection, union, enclosing box -/

/-- The intersection's area from two corner forms, the clamps written `max · 0`. -/
abbrev interOf (p q : Fin 4 → EReal) : EReal :=
  max (min (p 2) (q 2) - max (p 0) (q 0)) zero * max (min (p 3) (q 3) - max (p 1) (q 1)) zero

/-- The enclosing box's area from two corner forms, the clamps written `max · 0`. -/
abbrev hullOf (p q : Fin 4 → EReal) : EReal :=
  max (max (p 2) (q 2) - min (p 0) (q 0)) zero * max (max (p 3) (q 3) - min (p 1) (q 1)) zero

/-- The generalized IoU in terms of the three areas. -/
theorem giou_eq (p q : Fin 4 → EReal) :
    giou p q = Ideal.div (interOf p q) (area p + area q - interOf p q + eps)
      - Ideal.div (hullOf p q - (area p + area q - interOf p q)) (hullOf p q + eps) := rfl

/-- The pair (row, target) of a flattened array, read in the array with a trailing unit axis cut at axis 0. -/
theorem e117 (N : Fin 14400) (n : Fin 800) : idx_main_v116 (idx_main_v117 (ix2 N n)) = ix3 N n (0 : Fin 2) := by
  funext a; apply Fin.ext
  match a with
  | ⟨0, _⟩ => show (N.val * 800 + n.val) / 800 = N.val; have := n.isLt; omega
  | ⟨1, _⟩ => show (N.val * 800 + n.val) / 1 % 800 = n.val; have := n.isLt; omega
  | ⟨2, _⟩ => rfl

theorem e119 (N : Fin 14400) (n : Fin 800) : idx_main_v118 (idx_main_v119 (ix2 N n)) = ix3 N n (1 : Fin 2) := by
  funext a; apply Fin.ext
  match a with
  | ⟨0, _⟩ => show (N.val * 800 + n.val) / 800 = N.val; have := n.isLt; omega
  | ⟨1, _⟩ => show (N.val * 800 + n.val) / 1 % 800 = n.val; have := n.isLt; omega
  | ⟨2, _⟩ => rfl

theorem e147 (N : Fin 14400) (n : Fin 800) : idx_main_v146 (idx_main_v147 (ix2 N n)) = ix3 N n (0 : Fin 2) := by
  funext a; apply Fin.ext
  match a with
  | ⟨0, _⟩ => show (N.val * 800 + n.val) / 800 = N.val; have := n.isLt; omega
  | ⟨1, _⟩ => show (N.val * 800 + n.val) / 1 % 800 = n.val; have := n.isLt; omega
  | ⟨2, _⟩ => rfl

theorem e149 (N : Fin 14400) (n : Fin 800) : idx_main_v148 (idx_main_v149 (ix2 N n)) = ix3 N n (1 : Fin 2) := by
  funext a; apply Fin.ext
  match a with
  | ⟨0, _⟩ => show (N.val * 800 + n.val) / 800 = N.val; have := n.isLt; omega
  | ⟨1, _⟩ => show (N.val * 800 + n.val) / 1 % 800 = n.val; have := n.isLt; omega
  | ⟨2, _⟩ => rfl

theorem e123 (N : Fin 14400) (n : Fin 800) : idx_main_v121 (idx_main_v123 (ix2 N n)) = ix1 N := by
  funext a; apply Fin.ext
  match a with
  | ⟨0, _⟩ => rfl

theorem e124 (N : Fin 14400) (n : Fin 800) : idx_main_v122 (idx_main_v124 (ix2 N n)) = ix1 n := by
  funext a; apply Fin.ext
  match a with
  | ⟨0, _⟩ => rfl

/-- The intersection's area. -/
theorem inter120 (N : Fin 14400) (n : Fin 800) :
    (val_main_v120 (F := Ideal) x1 x3 : S14400x800.Idx → EReal) (ix2 N n)
      = interOf (corners (qbox x1 N)) (corners (tbox x3 n)) := by
  rw [val_main_v120_apply, val_main_v117_apply, val_main_v116_apply, val_main_v119_apply, val_main_v118_apply,
    e117, e119, wh115 x1 x3 N n 0 0 2 rfl rfl, wh115 x1 x3 N n 1 1 3 rfl rfl]
  rfl

/-- The union's area: the two areas less the intersection. -/
theorem union126 (N : Fin 14400) (n : Fin 800) :
    (val_main_v126 (F := Ideal) x1 x3 : S14400x800.Idx → EReal) (ix2 N n)
      = area (corners (qbox x1 N)) + area (corners (tbox x3 n)) - interOf (corners (qbox x1 N)) (corners (tbox x3 n)) := by
  rw [val_main_v126_apply, val_main_v125_apply, val_main_v123_apply, val_main_v121_apply, val_main_v124_apply,
    val_main_v122_apply, e123, e124, qarea, tarea, inter120]
  rfl

/-- The enclosing box's area. -/
theorem hull150 (N : Fin 14400) (n : Fin 800) :
    (val_main_v150 (F := Ideal) x1 x3 : S14400x800.Idx → EReal) (ix2 N n)
      = hullOf (corners (qbox x1 N)) (corners (tbox x3 n)) := by
  rw [val_main_v150_apply, val_main_v147_apply, val_main_v146_apply, val_main_v149_apply, val_main_v148_apply,
    e147, e149, wh145 x1 x3 N n 0 0 2 rfl rfl, wh145 x1 x3 N n 1 1 3 rfl rfl]
  rfl

end Giou

/-- The generalized IoU of the two corner forms. -/
theorem giou_term (N : Fin 14400) (n : Fin 800) :
    (val_main_v155 (F := Ideal) x1 x3 : S14400x800.Idx → EReal) (ix2 N n)
      = Cert.MatchCost.giou (Cert.MatchCost.corners (fun a => (val_main_v12 (F := Ideal) x1 : S14400x4.Idx → EReal) (ix2 N a)))
          (Cert.MatchCost.corners (fun a => (x3 : S800x4.Idx → EReal) (ix2 n a))) := by
  rw [val_main_v155_apply, val_main_v129_apply, val_main_v128_apply, val_main_v127_apply, val_main_cst_13_apply,
    val_main_v154_apply, val_main_v151_apply, val_main_v153_apply, val_main_v152_apply, val_main_cst_15_apply,
    Giou.inter120, Giou.union126, Giou.hull150]
  exact (Giou.giou_eq _ _).symm

end Cert.ReferenceIdeal.RefValue

end
-- ==== Proof.RefValue.lean ====
/-
  The reference's result, read entry by entry: the weighted sum of the three terms of a (row, target)
  pair, the 14400 rows folded back into 16 images of 900 queries (row b·900 + r is query r of image b).
-/
import proofs.«410247_j17300128268908_2_alg».proof.Proof.Gen.ReferenceIdeal.Read
import proofs.«410247_j17300128268908_2_alg».proof.Proof.Whole
import proofs.«410247_j17300128268908_2_alg».proof.Proof.RefClass
import proofs.«410247_j17300128268908_2_alg».proof.Proof.RefBox
import proofs.«410247_j17300128268908_2_alg».proof.Proof.RefGiou
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S16x900x256, .f32⟩ : BufTy).Contents (Elt Ideal)) (x1 : (⟨S16x900x4, .f32⟩ : BufTy).Contents (Elt Ideal))
  (x2 : (⟨S800, .i32⟩ : BufTy).Contents (Elt Ideal)) (x3 : (⟨S800x4, .f32⟩ : BufTy).Contents (Elt Ideal))

/-- Row b·900 + r of the flattened logits is query r of image b. -/
theorem flat_logits (b : Fin 16) (r : Fin 900) (k : Fin 256) (h : b.val * 900 + r.val < 14400) :
    (val_main_v0 (F := Ideal) x0 : S14400x256.Idx → EReal) (ix2 (⟨b.val * 900 + r.val, h⟩ : Fin 14400) k) = (x0 : S16x900x256.Idx → EReal) (ix3 b r k) := by
  rw [val_main_v0_apply]
  have hi : idx_main_v0 (ix2 (⟨b.val * 900 + r.val, h⟩ : Fin 14400) k) = ix3 b r k :=
    funext fun a => Fin.ext (by
      have hb : b.val < 16 := b.isLt
      have hr : r.val < 900 := r.isLt
      have hk : k.val < 256 := k.isLt
      match a with
      | ⟨0, _⟩ => show ((b.val * 900 + r.val) * 256 + k.val) / 230400 = b.val; omega
      | ⟨1, _⟩ => show ((b.val * 900 + r.val) * 256 + k.val) / 256 % 900 = r.val; omega
      | ⟨2, _⟩ => show ((b.val * 900 + r.val) * 256 + k.val) % 256 = k.val; omega)
  rw [hi]

/-- Row b·900 + r of the flattened boxes is query r of image b. -/
theorem flat_boxes (b : Fin 16) (r : Fin 900) (a : Fin 4) (h : b.val * 900 + r.val < 14400) :
    (val_main_v12 (F := Ideal) x1 : S14400x4.Idx → EReal) (ix2 (⟨b.val * 900 + r.val, h⟩ : Fin 14400) a) = (x1 : S16x900x4.Idx → EReal) (ix3 b r a) := by
  rw [val_main_v12_apply]
  have hi : idx_main_v12 (ix2 (⟨b.val * 900 + r.val, h⟩ : Fin 14400) a) = ix3 b r a :=
    funext fun c => Fin.ext (by
      have hb : b.val < 16 := b.isLt
      have hr : r.val < 900 := r.isLt
      have ha : a.val < 4 := a.isLt
      match c with
      | ⟨0, _⟩ => show ((b.val * 900 + r.val) * 4 + a.val) / 3600 = b.val; omega
      | ⟨1, _⟩ => show ((b.val * 900 + r.val) * 4 + a.val) / 4 % 900 = r.val; omega
      | ⟨2, _⟩ => show ((b.val * 900 + r.val) * 4 + a.val) % 4 = a.val; omega)
  rw [hi]

/-- Entry (b, r, n) of the reference's result is the cost of query r of image b against target n. -/
theorem result_apply (hlab : ∀ n : Fin 800, ((x2 : S800.Idx → BitVec 32) (ix1 n)).toNat < 256) (b : Fin 16) (r : Fin 900) (n : Fin 800) :
    (val_main_v165 (F := Ideal) x0 x1 x2 x3 : S16x900x800.Idx → EReal) (ix3 b r n) = Cert.MatchCost.costAt x0 x1 x2 x3 b r n := by
  have hN : b.val * 900 + r.val < 14400 := by
    have hb : b.val < 16 := b.isLt
    have hr : r.val < 900 := r.isLt
    omega
  rw [val_main_v165_apply]
  -- entry (b, r, n) of the folded array is entry (b·900 + r, n) of the flat one
  have hi : idx_main_v165 (ix3 b r n) = ix2 (⟨b.val * 900 + r.val, hN⟩ : Fin 14400) n :=
    funext fun a => Fin.ext (by
      have hb : b.val < 16 := b.isLt
      have hr : r.val < 900 := r.isLt
      have hn : n.val < 800 := n.isLt
      match a with
      | ⟨0, _⟩ => show ((b.val * 900 + r.val) * 800 + n.val) / 800 = b.val * 900 + r.val; omega
      | ⟨1, _⟩ => show ((b.val * 900 + r.val) * 800 + n.val) % 800 = n.val; omega)
  rw [hi, val_main_v164_apply, val_main_v161_apply, val_main_v158_apply, val_main_v160_apply, val_main_v163_apply,
    val_main_v157_apply, val_main_v159_apply, val_main_v162_apply, val_main_cst_16_apply, val_main_cst_17_apply,
    val_main_cst_18_apply, val_main_v156_apply]
  rw [class_term x0 x2 _ n (hlab n), box_term x1 x3 _ n, giou_term x1 x3 _ n]
  -- the rows of the flat arrays are the queries' rows
  simp only [flat_logits x0 b r _ hN, flat_boxes x1 b r _ hN]
  rfl

/-- The reference's result is the cost array. -/
theorem result_eq (hlab : ∀ n : Fin 800, ((x2 : S800.Idx → BitVec 32) (ix1 n)).toNat < 256) :
    val_main_v165 (F := Ideal) x0 x1 x2 x3 = Cert.MatchCost.costArray x0 x1 x2 x3 := by
  funext i
  obtain ⟨b, r, n, rfl⟩ : ∃ (b : Fin 16) (r : Fin 900) (n : Fin 800), i = ix3 b r n := ⟨i 0, i 1, i 2, eq_ix3 i⟩
  exact result_apply x0 x1 x2 x3 hlab b r n

end Cert.ReferenceIdeal.RefValue

end
-- ==== Proof.PreFacts.lean ====
/-
  What the precondition says of the labels: every label word, read as a signed integer, is at least 0
  and less than 256; so its unsigned value is below 256.
-/
import proofs.«410247_j17300128268908_2_alg».proof.Pre_finite_inputs
import proofs.«410247_j17300128268908_2_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.PreFacts

open Cert.Pre_finite_inputs Idealize.ShloMosaic Idealize.ShloMosaic.ValueIdx

/-- The rank-0 shape has one index. -/
instance subsingleton_scalar_idx : Subsingleton S_.Idx := ⟨fun a b => funext fun d => d.elim0⟩

/-- A word that is at least 0 and below 256 as a signed integer is below 256 as an unsigned one. -/
theorem toNat_lt_of_signed_range (w : BitVec 32) (h0 : IntOp.cmpi .sge w 0#32 = 1#1)
    (h1 : IntOp.cmpi .slt w 256#32 = 1#1) : w.toNat < 256 := by
  rw [IntOp.cmpi_sge] at h0
  rw [IntOp.cmpi_slt] at h1
  have e0 : (0#32 : BitVec 32).toInt = 0 := by decide
  have e1 : (256#32 : BitVec 32).toInt = 256 := by decide
  rw [e0] at h0
  rw [e1] at h1
  rw [BitVec.toInt_eq_toNat_cond] at h0 h1
  have hw := w.isLt
  split at h0 <;> omega

/-- Under the precondition every label word's unsigned value is below 256. -/
theorem labels_lt [Cert.Pre_finite_inputs.Facts] {F : FTy → Type} [FloatOps F]
    (x0 : FVec F S16x900x256 .f32) (x1 : FVec F S16x900x4 .f32) (x2 : IVec S800 32) (x3 : FVec F S800x4 .f32)
    (h : Cert.Pre_finite_inputs.fn (F := F) x0 x1 x2 x3 = fun _ => 1#1) (n : Fin 800) :
    (x2 (ix1 n)).toNat < 256 := by
  have h0 := congrFun h ValueIdx.ix0
  dsimp only [fn, fn_part1] at h0
  -- the last conjunct: the reduction by "and" of the range test over all labels
  have hall := (IntOp.andi_eq_one.1 h0).2
  -- so the range test holds at label n
  have hn := Host.reduce_andi_all _ _ _ _ _ hall (ix1 n)
  obtain ⟨hge, hlt⟩ := IntOp.andi_eq_one.1 hn
  exact toNat_lt_of_signed_range _ hge hlt

end Cert.PreFacts

end
-- ==== Proof.lean ====
/-
  The certificate of the matching-cost kernel against its reference, under the precondition that every
  float input is finite and every target label lies in [0, 256).

  Both programs compute, for 16 images of 900 queries against 800 targets, the cost
    C[b, r, n] = 5 · Σ_k |box_k − tbox_k| − softmax(logits)[label n] − 2 · GIoU(corners box, corners tbox).
  The kernel tiles the queries of an image in two blocks of 512 rows (the second overhangs the image's 900
  rows and is cut there), takes the softmax row by row, and gets the class term as the contraction of the
  probability row with the label's indicator column, a table the host builds by comparing a class index with
  each label: for a label outside [0, 256) that column is zero, while the reference's gather wraps or
  clamps — hence the label range in the precondition. The reference gathers the probability at the label
  and forms the weighted sum of the three terms. Over the extended reals the two arrangements are one
  function (the L1 distances are non-negative, so the weight distributes over their sum; the rest is
  commutativity and associativity of the sum and the sign rules of the product): finiteness is not used.

  The frames: the program as printed runs to the end and leaves its arguments alone whatever its body
  computes; the idealized kernel's frame is its value run with the result dropped; the reference's is its
  run. The ideal pass rewrote nothing, so the idealization's conjunct is trivial.
-/
import proofs.«410247_j17300128268908_2_alg».proof.Defs
import proofs.«410247_j17300128268908_2_alg».proof.Proof.FrameBits
import proofs.«410247_j17300128268908_2_alg».proof.Proof.RunIdeal
import proofs.«410247_j17300128268908_2_alg».proof.Proof.RefValue
import proofs.«410247_j17300128268908_2_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- Under the precondition every label word is below 256. -/
theorem labels (m : (ℓ : Loc Cert.KernelIdeal.nD Cert.KernelIdeal.τ Cert.KernelIdeal.sig) → Buf (Elt Ideal) ℓ)
    (h : Cert.Pre_KernelIdeal m) (c : Dev Cert.KernelIdeal.nD) (n : Fin 800) :
    ((m ((c : Thread Cert.KernelIdeal.nD Cert.KernelIdeal.τ).loc Cert.KernelIdeal.main_arg2) : Cert.KernelIdeal.S800.Idx → BitVec 32) (ix1 n)).toNat < 256 :=
  Cert.PreFacts.labels_lt _ _ _ _ (h c) n

theorem frame_k : Cert.frame_Kernel := fun m ρ _ => Cert.Kernel.Hand.frame_run m ρ

theorem frame_ki : Cert.frame_KernelIdeal := fun m ρ hpre =>
  (θ_run Cert.KernelIdeal.defs _ _).mono (fun _ h c => (h c).2) (Cert.KernelIdeal.Hand.run_value m ρ (labels m hpre))

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the cost array of the arguments. -/
theorem algebraic : Cert.algebraic_KernelIdeal_ReferenceIdeal := by
  intro m ρ m' ρ' hpre hagree
  refine ⟨fun c => Cert.KernelIdeal.Hand.G m c, Cert.KernelIdeal.Hand.run_value m ρ (labels m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v165_eq,
    Cert.ReferenceIdeal.RefValue.result_eq _ _ _ _ (fun n => by rw [(hagree c).2.2.1]; exact labels m hpre c n),
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
